-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x384 : Shape := ⟨4, ![64, 32, 32, 384]⟩
abbrev S96 : Shape := ⟨1, ![96]⟩
abbrev S96x128 : Shape := ⟨2, ![96, 128]⟩
abbrev S128 : Shape := ⟨1, ![128]⟩
abbrev S384x384 : Shape := ⟨2, ![384, 384]⟩
abbrev S384 : Shape := ⟨1, ![384]⟩
abbrev S_ : Shape := ⟨0, ![]⟩

class Facts : Prop where
  bcast_S_S64x32x32x384 : S_.BroadcastsInDim S64x32x32x384 (![] : Fin 0 → Fin S64x32x32x384.rank)
  reducesTo_S64x32x32x384_S_d0_1_2_3 : S64x32x32x384.ReducesTo [0, 1, 2, 3] S_
  h_S_ : 0 < S_.numel
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part4 {F : FTy → Type} [FloatOps F] (main_arg8 : FVec F S128 .f32) (main_arg14 : FVec F S384 .f32) (main_v63 : IVec S_ 1) (main_v67 : IVec S_ 1) : IVec S_ 1 :=
  let main_v68 : IVec S_ 1 := andi main_v63 main_v67
  let main_v69 : FVec F S384 .f32 := Host.absf main_arg14
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg8 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  main_v77

def fn_part3 {F : FTy → Type} [FloatOps F] (main_arg8 : FVec F S128 .f32) (main_arg11 : FVec F S384 .f32) (main_arg12 : FVec F S384 .f32) (main_arg13 : FVec F S384 .f32) (main_arg14 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg11
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384 .f32 := Host.absf main_arg13
  let main_cst_24 : FVec F S_ .f32 := constant S_ .f32 0x7F800000#32
  let main_v65 : FVec F S384 .f32 := broadcastInDim S384 ![] bcast_S_S384 main_cst_24
  let main_v66 : IVec S384 1 := cmpf .olt main_v64 main_v65
  let main_c_25 : IVec S_ 1 := constantI S_ 1 1#1
  let main_v67 : IVec S_ 1 := (fun x v => Host.reduce IntOp.andi x v reducesTo_S384_S_d0 h_S_) main_v66 main_c_25
  fn_part4 (F := F) main_arg8 main_arg14 main_v63 main_v67

def fn_part2 {F : FTy → Type} [FloatOps F] (main_arg7 : FVec F S128 .f32) (main_arg8 : FVec F S128 .f32) (main_arg9 : FVec F S384x384 .f32) (main_arg10 : FVec F S384 .f32) (main_arg11 : FVec F S384 .f32) (main_arg12 : FVec F S384 .f32) (main_arg13 : FVec F S384 .f32) (main_arg14 : FVec F S384 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x384 .f32 := Host.absf main_arg9
  let main_cst_16 : FVec F S_ .f32 := constant S_ .f32 0x7F800000#32
  let main_v45 : FVec F S384x384 .f32 := broadcastInDim S384x384 ![] bcast_S_S384x384 main_cst_16
  let main_v46 : IVec S384x384 1 := cmpf .olt main_v44 main_v45
  let main_c_17 : IVec S_ 1 := constantI S_ 1 1#1
  let main_v47 : IVec S_ 1 := (fun x v => Host.reduce IntOp.andi x v reducesTo_S384x384_S_d0_1 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_arg8 main_arg11 main_arg12 main_arg13 main_arg14 main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S128 .f32) (main_arg9 : FVec F S384x384 .f32) (main_arg10 : FVec F S384 .f32) (main_arg11 : FVec F S384 .f32) (main_arg12 : FVec F S384 .f32) (main_arg13 : FVec F S384 .f32) (main_arg14 : FVec F S384 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x32x32x384 .f32) (main_arg1 : FVec F S96 .f32) (main_arg2 : FVec F S96 .f32) (main_arg3 : FVec F S96x128 .f32) (main_arg4 : FVec F S128 .f32) (main_arg5 : FVec F S128 .f32) (main_arg6 : FVec F S128 .f32) (main_arg7 : FVec F S128 .f32) (main_arg8 : FVec F S128 .f32) (main_arg9 : FVec F S384x384 .f32) (main_arg10 : FVec F S384 .f32) (main_arg11 : FVec F S384 .f32) (main_arg12 : FVec F S384 .f32) (main_arg13 : FVec F S384 .f32) (main_arg14 : FVec F S384 .f32) : IVec S_ 1 :=
  let main_v0 : FVec F S64x32x32x384 .f32 := Host.absf main_arg0
  let main_cst : FVec F S_ .f32 := constant S_ .f32 0x7F800000#32
  let main_v1 : FVec F S64x32x32x384 .f32 := broadcastInDim S64x32x32x384 ![] bcast_S_S64x32x32x384 main_cst
  let main_v2 : IVec S64x32x32x384 1 := cmpf .olt main_v0 main_v1
  let main_c : IVec S_ 1 := constantI S_ 1 1#1
  let main_v3 : IVec S_ 1 := (fun x v => Host.reduce IntOp.andi x v reducesTo_S64x32x32x384_S_d0_1_2_3 h_S_) main_v2 main_c
  let main_v4 : FVec F S96 .f32 := Host.absf main_arg1
  let main_cst_0 : FVec F S_ .f32 := constant S_ .f32 0x7F800000#32
  let main_v5 : FVec F S96 .f32 := broadcastInDim S96 ![] bcast_S_S96 main_cst_0
  let main_v6 : IVec S96 1 := cmpf .olt main_v4 main_v5
  let main_c_1 : IVec S_ 1 := constantI S_ 1 1#1
  let main_v7 : IVec S_ 1 := (fun x v => Host.reduce IntOp.andi x v reducesTo_S96_S_d0 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x128 .f32 := Host.absf main_arg3
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x32x32x384 : Shape := ⟨4, ![64, 32, 32, 384]⟩
abbrev S96 : Shape := ⟨1, ![96]⟩
abbrev S96x128 : Shape := ⟨2, ![96, 128]⟩
abbrev S128 : Shape := ⟨1, ![128]⟩
abbrev S384x384 : Shape := ⟨2, ![384, 384]⟩
abbrev S384 : Shape := ⟨1, ![384]⟩
abbrev S384x1 : Shape := ⟨2, ![384, 1]⟩
abbrev S_ : Shape := ⟨0, ![]⟩
abbrev S96x384 : Shape := ⟨2, ![96, 384]⟩
abbrev S2x32x32x384 : Shape := ⟨4, ![2, 32, 32, 384]⟩
abbrev S1x32x32x384 : Shape := ⟨4, ![1, 32, 32, 384]⟩
abbrev S32x32x384 : Shape := ⟨3, ![32, 32, 384]⟩
abbrev S32x32x96 : Shape := ⟨3, ![32, 32, 96]⟩
abbrev S1024x96 : Shape := ⟨2, ![1024, 96]⟩
abbrev S1024 : Shape := ⟨1, ![1024]⟩
abbrev S1024x1 : Shape := ⟨2, ![1024, 1]⟩
abbrev S1x96 : Shape := ⟨2, ![1, 96]⟩
abbrev S1024x128 : Shape := ⟨2, ![1024, 128]⟩
abbrev S1x128 : Shape := ⟨2, ![1, 128]⟩
abbrev S1024x16 : Shape := ⟨2, ![1024, 16]⟩
abbrev S256x16 : Shape := ⟨2, ![256, 16]⟩
abbrev S256x1024 : Shape := ⟨2, ![256, 1024]⟩
abbrev S256 : Shape := ⟨1, ![256]⟩
abbrev S256x1 : Shape := ⟨2, ![256, 1]⟩
abbrev S256x96 : Shape := ⟨2, ![256, 96]⟩
abbrev S1024x384 : Shape := ⟨2, ![1024, 384]⟩
abbrev S1x384 : Shape := ⟨2, ![1, 384]⟩

abbrev nBuf : Space → Nat
  | .hbm => 25
  | .vmem => 19
  | .smem => 0
  | _ => 0

abbrev bufTy : (tb : Table) → Fin (tcTables nBuf tb) → BufTy
  | .hbm, ⟨0, _⟩ => ⟨S64x32x32x384, .f32⟩
  | .hbm, ⟨1, _⟩ => ⟨S96, .f32⟩
  | .hbm, ⟨2, _⟩ => ⟨S96, .f32⟩
  | .hbm, ⟨3, _⟩ => ⟨S96x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S384x384, .f32⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S384, .f32⟩
  | .hbm, ⟨15, _⟩ => ⟨S384, .i32⟩
  | .hbm, ⟨16, _⟩ => ⟨S384x1, .i32⟩
  | .hbm, ⟨17, _⟩ => ⟨S_, .i32⟩
  | .hbm, ⟨18, _⟩ => ⟨S384x1, .i32⟩
  | .hbm, ⟨19, _⟩ => ⟨S384x1, .i1⟩
  | .hbm, ⟨20, _⟩ => ⟨S384x1, .f32⟩
  | .hbm, ⟨21, _⟩ => ⟨S96x384, .f32⟩
  | .hbm, ⟨22, _⟩ => ⟨S384x384, .f32⟩
  | .hbm, ⟨23, _⟩ => ⟨S384x384, .f32⟩
  | .hbm, ⟨24, _⟩ => ⟨S64x32x32x384, .f32⟩
  | .local _ .vmem, ⟨0, _⟩ => ⟨S2x32x32x384, .f32⟩
  | .local _ .vmem, ⟨1, _⟩ => ⟨S2x32x32x384, .f32⟩
  | .local _ .vmem, ⟨2, _⟩ => ⟨S96, .f32⟩
  | .local _ .vmem, ⟨3, _⟩ => ⟨S96, .f32⟩
  | .local _ .vmem, ⟨4, _⟩ => ⟨S96x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S96x384, .f32⟩
  | .local _ .vmem, ⟨11, _⟩ => ⟨S384x384, .f32⟩
  | .local _ .vmem, ⟨12, _⟩ => ⟨S384, .f32⟩
  | .local _ .vmem, ⟨13, _⟩ => ⟨S384, .f32⟩
  | .local _ .vmem, ⟨14, _⟩ => ⟨S384, .f32⟩
  | .local _ .vmem, ⟨15, _⟩ => ⟨S384, .f32⟩
  | .local _ .vmem, ⟨16, _⟩ => ⟨S384, .f32⟩
  | .local _ .vmem, ⟨17, _⟩ => ⟨S2x32x32x384, .f32⟩
  | .local _ .vmem, ⟨18, _⟩ => ⟨S2x32x32x384, .f32⟩
  | _, _ => ⟨S64x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2x32x32x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S384_S384x1_0 : S384.BroadcastsInDim S384x1 (![0] : Fin 1 → Fin S384x1.rank)
  bcast_S_S384x1 : S_.BroadcastsInDim S384x1 (![] : Fin 0 → Fin S384x1.rank)
  slices_S384x384_S96x384_0_0 : S384x384.Slices ![0, 0] S96x384
  bcast_S384x1_S384x384_0_1 : S384x1.BroadcastsInDim S384x384 (![0, 1] : Fin 2 → Fin S384x384.rank)
  inb_S96_S96_0 : ∀ a, (![0] : Fin 1 → Nat) a + S96.size a ≤ S96.size a
  h_S96 : 0 < S96.numel
  inb_S96x128_S96x128_0_0 : ∀ a, (![0, 0] : Fin 2 → Nat) a + S96x128.size a ≤ S96x128.size a
  h_S96x128 : 0 < S96x128.numel
  bitsLt_bf16_f32 : FTy.bits .bf16 < FTy.bits .f32
  inb_S128_S128_0 : ∀ a, (![0] : Fin 1 → Nat) a + S128.size a ≤ S128.size a
  h_S128 : 0 < S128.numel
  inb_S96x384_S96x384_0_0 : ∀ a, (![0, 0] : Fin 2 → Nat) a + S96x384.size a ≤ S96x384.size a
  h_S96x384 : 0 < S96x384.numel
  shapeCasts_S96x384_S96x384 : S96x384.ShapeCasts S96x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S384_S384_0 : ∀ a, (![0] : Fin 1 → Nat) a + S384.size a ≤ S384.size a
  h_S384 : 0 < S384.numel
  inb_S2x32x32x384_S1x32x32x384_0_0_0_0 : ∀ a, (![0, 0, 0, 0] : Fin 4 → Nat) a + S1x32x32x384.size a ≤ S2x32x32x384.size a
  h_S1x32x32x384 : 0 < S1x32x32x384.numel
  shapeCasts_S1x32x32x384_S32x32x384 : S1x32x32x384.ShapeCasts S32x32x384
  slices_S32x32x384_o0_0_0_S32x32x96 : S32x32x384.Slices ![0, 0, 0] S32x32x96
  shapeCasts_S32x32x96_S1024x96 : S32x32x96.ShapeCasts S1024x96
  reduces_S1024x96_S1024 : S1024x96.Reduces [1] S1024
  shapeCasts_S1024_S1024x1 : S1024.ShapeCasts S1024x1
  broadcasts_S1024x1_S1024x96 : S1024x1.Broadcasts S1024x96
  shapeCasts_S96_S1x96 : S96.ShapeCasts S1x96
  broadcasts_S1x96_S1024x96 : S1x96.Broadcasts S1024x96
  shapeCasts_S128_S1x128 : S128.ShapeCasts S1x128
  broadcasts_S1x128_S1024x128 : S1x128.Broadcasts S1024x128
  slices_S1024x128_o0_0_S1024x16 : S1024x128.Slices ![0, 0] S1024x16
  slices_S1024x128_o0_16_S1024x16 : S1024x128.Slices ![0, 16] S1024x16
  slices_S1024x128_o0_32_S1024x96 : S1024x128.Slices ![0, 32] S1024x96
  slices_S1024x16_o0_0_S256x16 : S1024x16.Slices ![0, 0] S256x16
  reduces_S256x1024_S256 : S256x1024.Reduces [1] S256
  shapeCasts_S256_S256x1 : S256.ShapeCasts S256x1
  broadcasts_S256x1_S256x1024 : S256x1.Broadcasts S256x1024
  broadcasts_S256x1_S256x96 : S256x1.Broadcasts S256x96
  slices_S1024x16_o256_0_S256x16 : S1024x16.Slices ![256, 0] S256x16
  slices_S1024x16_o512_0_S256x16 : S1024x16.Slices ![512, 0] S256x16
  slices_S1024x16_o768_0_S256x16 : S1024x16.Slices ![768, 0] S256x16
  concatenates_S256x96_S256x96_S256x96_S256x96_S1024x96_d0 : Shape.Concatenates [S256x96, S256x96, S256x96, S256x96] S1024x96 0
  shapeCasts_S32x32x384_S1024x384 : S32x32x384.ShapeCasts S1024x384
  shapeCasts_S384_S1x384 : S384.ShapeCasts S1x384
  broadcasts_S1x384_S1024x384 : S1x384.Broadcasts S1024x384
  shapeCasts_S1024x384_S32x32x384 : S1024x384.ShapeCasts S32x32x384
  shapeCasts_S32x32x384_S1x32x32x384 : S32x32x384.ShapeCasts S1x32x32x384
  inb_S2x32x32x384_S1x32x32x384_1_0_0_0 : ∀ a, (![1, 0, 0, 0] : Fin 4 → Nat) a + S1x32x32x384.size a ≤ S2x32x32x384.size a
  dot_S1024x96_S96x128_S1024x128_1_0_0_1_n_n_wf : DotDims.WF S1024x96 S96x128 S1024x128 [1] [0] [0] [1] [] []
  dot_S256x16_S1024x16_S256x1024_1_1_0_0_n_n_wf : DotDims.WF S256x16 S1024x16 S256x1024 [1] [1] [0] [0] [] []
  dot_S256x1024_S1024x96_S256x96_1_0_0_1_n_n_wf : DotDims.WF S256x1024 S1024x96 S256x96 [1] [0] [0] [1] [] []
  dot_S1024x96_S96x384_S1024x384_1_0_0_1_n_n_wf : DotDims.WF S1024x96 S96x384 S1024x384 [1] [0] [0] [1] [] []
  dot_S1024x384_S384x384_S1024x384_1_0_0_1_n_n_wf : DotDims.WF S1024x384 S384x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x32x384.size a ≤ S64x32x32x384.size a
  hwx0_0 : ∀ i : grid0.Coords, EltTy.bits .f32 = 32 ∨ (Rect.block (s := S64x32x32x384) S2x32x32x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96.size a ≤ S96.size a
  hwx0_1 : ∀ i : grid0.Coords, EltTy.bits .f32 = 32 ∨ (Rect.block (s := S96) S96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S96x384.size a ≤ S96x384.size a
  hwx0_9 : ∀ i : grid0.Coords, EltTy.bits .f32 = 32 ∨ (Rect.block (s := S96x384) S96x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384x384.size a ≤ S384x384.size a
  hwx0_10 : ∀ i : grid0.Coords, EltTy.bits .f32 = 32 ∨ (Rect.block (s := S384x384) S384x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384.size a ≤ S384.size a
  hwx0_11 : ∀ i : grid0.Coords, EltTy.bits .f32 = 32 ∨ (Rect.block (s := S384) S384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384.size a ≤ S384.size a
  hwx0_12 : ∀ i : grid0.Coords, EltTy.bits .f32 = 32 ∨ (Rect.block (s := S384) S384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384.size a ≤ S384.size a
  hwx0_13 : ∀ i : grid0.Coords, EltTy.bits .f32 = 32 ∨ (Rect.block (s := S384) S384.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S384.size a ≤ S384.size a
  hwx0_14 : ∀ i : grid0.Coords, EltTy.bits .f32 = 32 ∨ (Rect.block (s := S384) S384.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S384.size a ≤ S384.size a
  hwx0_15 : ∀ i : grid0.Coords, EltTy.bits .f32 = 32 ∨ (Rect.block (s := S384) S384.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2x32x32x384.size a ≤ S64x32x32x384.size a
  hwx0_16 : ∀ i : grid0.Coords, EltTy.bits .f32 = 32 ∨ (Rect.block (s := S64x32x32x384) S2x32x32x384.size (cc0_transform_16 i) (hinb0_16 i)).WholeWords (EltTy.packing .f32)

variable [Facts₀]

def dot_S1024x96_S96x128_S1024x128_1_0_0_1_n_n : DotDims S1024x96 S96x128 S1024x128 where
  lhsContracting := [1]
  rhsContracting := [0]
  lhsNonContracting := [0]
  rhsNonContracting := [1]
  lhsBatch := []
  rhsBatch := []
  wf := dot_S1024x96_S96x128_S1024x128_1_0_0_1_n_n_wf
def dot_S256x16_S1024x16_S256x1024_1_1_0_0_n_n : DotDims S256x16 S1024x16 S256x1024 where
  lhsContracting := [1]
  rhsContracting := [1]
  lhsNonContracting := [0]
  rhsNonContracting := [0]
  lhsBatch := []
  rhsBatch := []
  wf := dot_S256x16_S1024x16_S256x1024_1_1_0_0_n_n_wf
def dot_S256x1024_S1024x96_S256x96_1_0_0_1_n_n : DotDims S256x1024 S1024x96 S256x96 where
  lhsContracting := [1]
  rhsContracting := [0]
  lhsNonContracting := [0]
  rhsNonContracting := [1]
  lhsBatch := []
  rhsBatch := []
  wf := dot_S256x1024_S1024x96_S256x96_1_0_0_1_n_n_wf
def dot_S1024x96_S96x384_S1024x384_1_0_0_1_n_n : DotDims S1024x96 S96x384 S1024x384 where
  lhsContracting := [1]
  rhsContracting := [0]
  lhsNonContracting := [0]
  rhsNonContracting := [1]
  lhsBatch := []
  rhsBatch := []
  wf := dot_S1024x96_S96x384_S1024x384_1_0_0_1_n_n_wf
def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf

abbrev win0_0 : Pipeline.Window sig grid0 :=
  Pipeline.Window.ofSpec (Memref.whole main_arg0) S2x32x32x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S96x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S384x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S384.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S2x32x32x384.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S64x32x32x384 : Shape := ⟨4, ![64, 32, 32, 384]⟩
abbrev S96 : Shape := ⟨1, ![96]⟩
abbrev S96x128 : Shape := ⟨2, ![96, 128]⟩
abbrev S128 : Shape := ⟨1, ![128]⟩
abbrev S384x384 : Shape := ⟨2, ![384, 384]⟩
abbrev S384 : Shape := ⟨1, ![384]⟩
abbrev S64x32x32x96 : Shape := ⟨4, ![64, 32, 32, 96]⟩
abbrev S64x32x32x288 : Shape := ⟨4, ![64, 32, 32, 288]⟩
abbrev S_ : Shape := ⟨0, ![]⟩
abbrev S64x32x32 : Shape := ⟨3, ![64, 32, 32]⟩
abbrev S64x32x32x1 : Shape := ⟨4, ![64, 32, 32, 1]⟩
abbrev S1x1x1x96 : Shape := ⟨4, ![1, 1, 1, 96]⟩
abbrev S64x32x32x128 : Shape := ⟨4, ![64, 32, 32, 128]⟩
abbrev S1x1x1x128 : Shape := ⟨4, ![1, 1, 1, 128]⟩
abbrev S64x32x32x16 : Shape := ⟨4, ![64, 32, 32, 16]⟩
abbrev S64x1024x16 : Shape := ⟨3, ![64, 1024, 16]⟩
abbrev S64x1024x96 : Shape := ⟨3, ![64, 1024, 96]⟩
abbrev S64x1024x1024 : Shape := ⟨3, ![64, 1024, 1024]⟩
abbrev S64x1024 : Shape := ⟨2, ![64, 1024]⟩
abbrev S64x1024x1 : Shape := ⟨3, ![64, 1024, 1]⟩
abbrev S1x1x1x384 : Shape := ⟨4, ![1, 1, 1, 384]⟩

abbrev nBuf : Space → Nat
  | .hbm => 112
  | .vmem => 0
  | .smem => 0
  | _ => 0

abbrev bufTy : (tb : Table) → Fin (tcTables nBuf tb) → BufTy
  | .hbm, ⟨0, _⟩ => ⟨S64x32x32x384, .f32⟩
  | .hbm, ⟨1, _⟩ => ⟨S96, .f32⟩
  | .hbm, ⟨2, _⟩ => ⟨S96, .f32⟩
  | .hbm, ⟨3, _⟩ => ⟨S96x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S384x384, .f32⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S384, .f32⟩
  | .hbm, ⟨15, _⟩ => ⟨S64x32x32x96, .f32⟩
  | .hbm, ⟨16, _⟩ => ⟨S64x32x32x288, .f32⟩
  | .hbm, ⟨17, _⟩ => ⟨S_, .f32⟩
  | .hbm, ⟨18, _⟩ => ⟨S64x32x32, .f32⟩
  | .hbm, ⟨19, _⟩ => ⟨S64x32x32x1, .f32⟩
  | .hbm, ⟨20, _⟩ => ⟨S_, .f32⟩
  | .hbm, ⟨21, _⟩ => ⟨S64x32x32x1, .f32⟩
  | .hbm, ⟨22, _⟩ => ⟨S64x32x32x1, .f32⟩
  | .hbm, ⟨23, _⟩ => ⟨S64x32x32x96, .f32⟩
  | .hbm, ⟨24, _⟩ => ⟨S64x32x32x96, .f32⟩
  | .hbm, ⟨25, _⟩ => ⟨S64x32x32x96, .f32⟩
  | .hbm, ⟨26, _⟩ => ⟨S_, .f32⟩
  | .hbm, ⟨27, _⟩ => ⟨S64x32x32, .f32⟩
  | .hbm, ⟨28, _⟩ => ⟨S64x32x32x1, .f32⟩
  | .hbm, ⟨29, _⟩ => ⟨S_, .f32⟩
  | .hbm, ⟨30, _⟩ => ⟨S64x32x32x1, .f32⟩
  | .hbm, ⟨31, _⟩ => ⟨S64x32x32x1, .f32⟩
  | .hbm, ⟨32, _⟩ => ⟨S64x32x32x96, .f32⟩
  | .hbm, ⟨33, _⟩ => ⟨S64x32x32x96, .f32⟩
  | .hbm, ⟨34, _⟩ => ⟨S_, .f32⟩
  | .hbm, ⟨35, _⟩ => ⟨S64x32x32x1, .f32⟩
  | .hbm, ⟨36, _⟩ => ⟨S64x32x32x1, .f32⟩
  | .hbm, ⟨37, _⟩ => ⟨S64x32x32x1, .f32⟩
  | .hbm, ⟨38, _⟩ => ⟨S64x32x32x96, .f32⟩
  | .hbm, ⟨39, _⟩ => ⟨S64x32x32x96, .f32⟩
  | .hbm, ⟨40, _⟩ => ⟨S1x1x1x96, .f32⟩
  | .hbm, ⟨41, _⟩ => ⟨S64x32x32x96, .f32⟩
  | .hbm, ⟨42, _⟩ => ⟨S64x32x32x96, .f32⟩
  | .hbm, ⟨43, _⟩ => ⟨S1x1x1x96, .f32⟩
  | .hbm, ⟨44, _⟩ => ⟨S64x32x32x96, .f32⟩
  | .hbm, ⟨45, _⟩ => ⟨S64x32x32x96, .f32⟩
  | .hbm, ⟨46, _⟩ => ⟨S64x32x32x128, .f32⟩
  | .hbm, ⟨47, _⟩ => ⟨S1x1x1x128, .f32⟩
  | .hbm, ⟨48, _⟩ => ⟨S64x32x32x128, .f32⟩
  | .hbm, ⟨49, _⟩ => ⟨S64x32x32x128, .f32⟩
  | .hbm, ⟨50, _⟩ => ⟨S1x1x1x128, .f32⟩
  | .hbm, ⟨51, _⟩ => ⟨S64x32x32x128, .f32⟩
  | .hbm, ⟨52, _⟩ => ⟨S64x32x32x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x1x1x128, .f32⟩
  | .hbm, ⟨59, _⟩ => ⟨S64x32x32x128, .f32⟩
  | .hbm, ⟨60, _⟩ => ⟨S64x32x32x128, .f32⟩
  | .hbm, ⟨61, _⟩ => ⟨S1x1x1x128, .f32⟩
  | .hbm, ⟨62, _⟩ => ⟨S64x32x32x128, .f32⟩
  | .hbm, ⟨63, _⟩ => ⟨S64x32x32x128, .f32⟩
  | .hbm, ⟨64, _⟩ => ⟨S64x32x32x16, .f32⟩
  | .hbm, ⟨65, _⟩ => ⟨S64x1024x16, .f32⟩
  | .hbm, ⟨66, _⟩ => ⟨S64x32x32x16, .f32⟩
  | .hbm, ⟨67, _⟩ => ⟨S64x1024x16, .f32⟩
  | .hbm, ⟨68, _⟩ => ⟨S64x32x32x96, .f32⟩
  | .hbm, ⟨69, _⟩ => ⟨S64x1024x96, .f32⟩
  | .hbm, ⟨70, _⟩ => ⟨S64x1024x1024, .f32⟩
  | .hbm, ⟨71, _⟩ => ⟨S_, .f32⟩
  | .hbm, ⟨72, _⟩ => ⟨S64x1024x1024, .f32⟩
  | .hbm, ⟨73, _⟩ => ⟨S64x1024x1024, .f32⟩
  | .hbm, ⟨74, _⟩ => ⟨S_, .f32⟩
  | .hbm, ⟨75, _⟩ => ⟨S64x1024, .f32⟩
  | .hbm, ⟨76, _⟩ => ⟨S_, .f32⟩
  | .hbm, ⟨77, _⟩ => ⟨S64x1024, .f32⟩
  | .hbm, ⟨78, _⟩ => ⟨S64x1024, .f32⟩
  | .hbm, ⟨79, _⟩ => ⟨S64x1024x1, .f32⟩
  | .hbm, ⟨80, _⟩ => ⟨S64x1024x1024, .f32⟩
  | .hbm, ⟨81, _⟩ => ⟨S64x1024x1024, .f32⟩
  | .hbm, ⟨82, _⟩ => ⟨S64x1024x1024, .f32⟩
  | .hbm, ⟨83, _⟩ => ⟨S_, .f32⟩
  | .hbm, ⟨84, _⟩ => ⟨S64x1024, .f32⟩
  | .hbm, ⟨85, _⟩ => ⟨S64x1024x1, .f32⟩
  | .hbm, ⟨86, _⟩ => ⟨S64x1024x1024, .f32⟩
  | .hbm, ⟨87, _⟩ => ⟨S64x1024x1024, .f32⟩
  | .hbm, ⟨88, _⟩ => ⟨S64x1024x96, .f32⟩
  | .hbm, ⟨89, _⟩ => ⟨S64x32x32x96, .f32⟩
  | .hbm, ⟨90, _⟩ => ⟨S64x32x32x384, .f32⟩
  | .hbm, ⟨91, _⟩ => ⟨S_, .f32⟩
  | .hbm, ⟨92, _⟩ => ⟨S64x32x32x384, .f32⟩
  | .hbm, ⟨93, _⟩ => ⟨S64x32x32x384, .f32⟩
  | .hbm, ⟨94, _⟩ => ⟨S64x32x32x384, .f32⟩
  | .hbm, ⟨95, _⟩ => ⟨S1x1x1x384, .f32⟩
  | .hbm, ⟨96, _⟩ => ⟨S64x32x32x384, .f32⟩
  | .hbm, ⟨97, _⟩ => ⟨S64x32x32x384, .f32⟩
  | .hbm, ⟨98, _⟩ => ⟨S1x1x1x384, .f32⟩
  | .hbm, ⟨99, _⟩ => ⟨S64x32x32x384, .f32⟩
  | .hbm, ⟨100, _⟩ => ⟨S64x32x32x384, .f32⟩
  | .hbm, ⟨101, _⟩ => ⟨S_, .f32⟩
  | .hbm, ⟨102, _⟩ => ⟨S384, .f32⟩
  | .hbm, ⟨103, _⟩ => ⟨S384, .f32⟩
  | .hbm, ⟨104, _⟩ => ⟨S384, .f32⟩
  | .hbm, ⟨105, _⟩ => ⟨S384, .f32⟩
  | .hbm, ⟨106, _⟩ => ⟨S1x1x1x384, .f32⟩
  | .hbm, ⟨107, _⟩ => ⟨S64x32x32x384, .f32⟩
  | .hbm, ⟨108, _⟩ => ⟨S64x32x32x384, .f32⟩
  | .hbm, ⟨109, _⟩ => ⟨S1x1x1x384, .f32⟩
  | .hbm, ⟨110, _⟩ => ⟨S64x32x32x384, .f32⟩
  | .hbm, ⟨111, _⟩ => ⟨S64x32x32x384, .f32⟩
  | _, _ => ⟨S64x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call0_cst : Ref sig .tc := ⟨.hbm, 91, rfl⟩
abbrev main_call0_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]

class Facts₀ : Prop where
  slices_S64x32x32x384_S64x32x32x96_0_0_0_0 : S64x32x32x384.Slices ![0, 0, 0, 0] S64x32x32x96
  slices_S64x32x32x384_S64x32x32x288_0_0_0_96 : S64x32x32x384.Slices ![0, 0, 0, 96] S64x32x32x288
  reducesTo_S64x32x32x96_S64x32x32_d3 : S64x32x32x96.ReducesTo [3] S64x32x32
  h_S_ : 0 < S_.numel
  bcast_S64x32x32_S64x32x32x1_0_1_2 : S64x32x32.BroadcastsInDim S64x32x32x1 (![0, 1, 2] : Fin 3 → Fin S64x32x32x1.rank)
  bcast_S_S64x32x32x1 : S_.BroadcastsInDim S64x32x32x1 (![] : Fin 0 → Fin S64x32x32x1.rank)
  bcast_S64x32x32x1_S64x32x32x96_0_1_2_3 : S64x32x32x1.BroadcastsInDim S64x32x32x96 (![0, 1, 2, 3] : Fin 4 → Fin S64x32x32x96.rank)
  bcast_S96_S1x1x1x96_3 : S96.BroadcastsInDim S1x1x1x96 (![3] : Fin 1 → Fin S1x1x1x96.rank)
  bcast_S1x1x1x96_S64x32x32x96_0_1_2_3 : S1x1x1x96.BroadcastsInDim S64x32x32x96 (![0, 1, 2, 3] : Fin 4 → Fin S64x32x32x96.rank)
  bcast_S128_S1x1x1x128_3 : S128.BroadcastsInDim S1x1x1x128 (![3] : Fin 1 → Fin S1x1x1x128.rank)
  bcast_S1x1x1x128_S64x32x32x128_0_1_2_3 : S1x1x1x128.BroadcastsInDim S64x32x32x128 (![0, 1, 2, 3] : Fin 4 → Fin S64x32x32x128.rank)
  bcast_S_S128 : S_.BroadcastsInDim S128 (![] : Fin 0 → Fin S128.rank)
  slices_S64x32x32x128_S64x32x32x16_0_0_0_0 : S64x32x32x128.Slices ![0, 0, 0, 0] S64x32x32x16
  shapeCasts_S64x32x32x16_S64x1024x16 : S64x32x32x16.ShapeCasts S64x1024x16
  slices_S64x32x32x128_S64x32x32x16_0_0_0_16 : S64x32x32x128.Slices ![0, 0, 0, 16] S64x32x32x16
  slices_S64x32x32x128_S64x32x32x96_0_0_0_32 : S64x32x32x128.Slices ![0, 0, 0, 32] S64x32x32x96
  shapeCasts_S64x32x32x96_S64x1024x96 : S64x32x32x96.ShapeCasts S64x1024x96
  bcast_S_S64x1024x1024 : S_.BroadcastsInDim S64x1024x1024 (![] : Fin 0 → Fin S64x1024x1024.rank)
  reducesTo_S64x1024x1024_S64x1024_d2 : S64x1024x1024.ReducesTo [2] S64x1024
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  shapeCasts_S64x1024x96_S64x32x32x96 : S64x1024x96.ShapeCasts S64x32x32x96
  concatenates_S64x32x32x96_S64x32x32x288_S64x32x32x384_d3 : Shape.Concatenates [S64x32x32x96, S64x32x32x288] S64x32x32x384 3
  bcast_S_S64x32x32x384 : S_.BroadcastsInDim S64x32x32x384 (![] : Fin 0 → Fin S64x32x32x384.rank)
  bcast_S384_S1x1x1x384_3 : S384.BroadcastsInDim S1x1x1x384 (![3] : Fin 1 → Fin S1x1x1x384.rank)
  bcast_S1x1x1x384_S64x32x32x384_0_1_2_3 : S1x1x1x384.BroadcastsInDim S64x32x32x384 (![0, 1, 2, 3] : Fin 4 → Fin S64x32x32x384.rank)
  bcast_S_S384 : S_.BroadcastsInDim S384 (![] : Fin 0 → Fin S384.rank)
  dot_S64x32x32x96_S96x128_S64x32x32x128_3_0_012_1_n_n_wf : DotDims.WF S64x32x32x96 S96x128 S64x32x32x128 [3] [0] [0, 1, 2] [1] [] []
  dot_S64x1024x16_S64x1024x16_S64x1024x1024_2_2_1_1_0_0_wf : DotDims.WF S64x1024x16 S64x1024x16 S64x1024x1024 [2] [2] [1] [1] [0] [0]
  dot_S64x1024x1024_S64x1024x96_S64x1024x96_2_1_1_2_0_0_wf : DotDims.WF S64x1024x1024 S64x1024x96 S64x1024x96 [2] [1] [1] [2] [0] [0]
  dot_S64x32x32x384_S384x384_S64x32x32x384_3_0_012_1_n_n_wf : DotDims.WF S64x32x32x384 S384x384 S64x32x32x384 [3] [0] [0, 1, 2] [1] [] []

variable [Facts₀]

def dot_S64x32x32x96_S96x128_S64x32x32x128_3_0_012_1_n_n : DotDims S64x32x32x96 S96x128 S64x32x32x128 where
  lhsContracting := [3]
  rhsContracting := [0]
  lhsNonContracting := [0, 1, 2]
  rhsNonContracting := [1]
  lhsBatch := []
  rhsBatch := []
  wf := dot_S64x32x32x96_S96x128_S64x32x32x128_3_0_012_1_n_n_wf
def dot_S64x1024x16_S64x1024x16_S64x1024x1024_2_2_1_1_0_0 : DotDims S64x1024x16 S64x1024x16 S64x1024x1024 where
  lhsContracting := [2]
  rhsContracting := [2]
  lhsNonContracting := [1]
  rhsNonContracting := [1]
  lhsBatch := [0]
  rhsBatch := [0]
  wf := dot_S64x1024x16_S64x1024x16_S64x1024x1024_2_2_1_1_0_0_wf
def dot_S64x1024x1024_S64x1024x96_S64x1024x96_2_1_1_2_0_0 : DotDims S64x1024x1024 S64x1024x96 S64x1024x96 where
  lhsContracting := [2]
  rhsContracting := [1]
  lhsNonContracting := [1]
  rhsNonContracting := [2]
  lhsBatch := [0]
  rhsBatch := [0]
  wf := dot_S64x1024x1024_S64x1024x96_S64x1024x96_2_1_1_2_0_0_wf
def dot_S64x32x32x384_S384x384_S64x32x32x384_3_0_012_1_n_n : DotDims S64x32x32x384 S384x384 S64x32x32x384 where
  lhsContracting := [3]
  rhsContracting := [0]
  lhsNonContracting := [0, 1, 2]
  rhsNonContracting := [1]
  lhsBatch := []
  rhsBatch := []
  wf := dot_S64x32x32x384_S384x384_S64x32x32x384_3_0_012_1_n_n_wf

class Facts : Prop extends Facts₀ where

variable [Facts]
-- ==== Proof.Spec.lean ====
/-
  One image of single-head self-attention on the first 96 of 384 channels, written twice over the extended reals.

  An image is `X : Fin 1024 → Fin 384 → EReal` (1024 = 32 · 32 positions, 384 channels). Both writings normalise
  the first 96 channels of each position (mean and variance over the 96 channels, regulariser `eps`), apply an affine
  map to 128 channels followed by a per-channel normalisation with running statistics, split the 128 channels into a
  query and a key of width 16 and a value of width 96, and form the 1024 × 1024 scores `q · k / 4`. They differ in
  three places:

  * the FIRST writing scales the query by 1/4 before the contraction, the SECOND scales the contraction;
  * the first divides the weighted sum of values by the sum of the exponentials, the second divides every weight;
  * the first sends the attended 96 channels through the first 96 rows of the output matrix and ALL 384 input channels
    through the matrix with those rows zeroed, the second replaces the first 96 input channels by the attended ones and
    uses the matrix as it is.

  `outK` is the first writing and `outR` the second; the module that follows proves them equal on real inputs with
  nonnegative running variances.
-/
import Idealize.ShloMosaic.PureOps.Ideal
import Idealize.ShloMosaic.Lib.ValueIdx

noncomputable section

open scoped BigOperators

namespace Cert.Shsa

open Idealize.ShloMosaic Idealize.ShloMosaic.ValueIdx

/-- The number of normalised channels, 96, as the programs spell it. -/
abbrev w96 : EReal := Ideal.ofBits .f32 0x42C00000#32
/-- The regulariser 0.001 as the programs spell it. -/
abbrev wEps : EReal := Ideal.ofBits .f32 0x3A83126F#32
/-- The softmax scale 1/4 as the programs spell it. -/
abbrev wQuarter : EReal := Ideal.ofBits .f32 0x3E800000#32
/-- Minus infinity, where a running maximum starts. -/
abbrev wNegInf : EReal := Ideal.ofBits .f32 0xFF800000#32

/-- The layer's parameters: the first normalisation's scale and shift (`g`, `be`), the 96 → 128 map (`W`, `b`) with its
    running statistics (`gam`, `beta`, `mean`, `var`), and the 384 → 384 output map (`PW`, `pb`) with its own
    (`pgam`, `pbeta`, `pmean`, `pvar`). -/
structure Params where
  g : Fin 96 → EReal
  be : Fin 96 → EReal
  W : Fin 96 → Fin 128 → EReal
  b : Fin 128 → EReal
  gam : Fin 128 → EReal
  beta : Fin 128 → EReal
  mean : Fin 128 → EReal
  var : Fin 128 → EReal
  PW : Fin 384 → Fin 384 → EReal
  pb : Fin 384 → EReal
  pgam : Fin 384 → EReal
  pbeta : Fin 384 → EReal
  pmean : Fin 384 → EReal
  pvar : Fin 384 → EReal

/-- The parameters read off the fourteen parameter arrays, in the order both programs take them. -/
def paramsOf (a1 a2 : (⟨1, ![96]⟩ : Shape).Idx → EReal) (a3 : (⟨2, ![96, 128]⟩ : Shape).Idx → EReal)
    (a4 a5 a6 a7 a8 : (⟨1, ![128]⟩ : Shape).Idx → EReal) (a9 : (⟨2, ![384, 384]⟩ : Shape).Idx → EReal)
    (a10 a11 a12 a13 a14 : (⟨1, ![384]⟩ : Shape).Idx → EReal) : Params where
  g c := a1 (ix1 c)
  be c := a2 (ix1 c)
  W c j := a3 (ix2 c j)
  b j := a4 (ix1 j)
  gam j := a5 (ix1 j)
  beta j := a6 (ix1 j)
  mean j := a7 (ix1 j)
  var j := a8 (ix1 j)
  PW c f := a9 (ix2 c f)
  pb f := a10 (ix1 f)
  pgam f := a11 (ix1 f)
  pbeta f := a12 (ix1 f)
  pmean f := a13 (ix1 f)
  pvar f := a14 (ix1 f)

/-- Position `n` of an image is row `n / 32`, column `n % 32`. -/
def rowOf (n : Fin 1024) : Fin 32 := ⟨n.val / 32, by have := n.isLt; omega⟩
/-- Position `n` of an image is row `n / 32`, column `n % 32`. -/
def colOf (n : Fin 1024) : Fin 32 := ⟨n.val % 32, by omega⟩

/-- Row `h`, column `w` is position `32 h + w`. -/
def posOf (h w : Fin 32) : Fin 1024 := ⟨h.val * 32 + w.val, by have := h.isLt; have := w.isLt; omega⟩

theorem rowOf_posOf (h w : Fin 32) : rowOf (posOf h w) = h := by
  apply Fin.ext; show (h.val * 32 + w.val) / 32 = h.val; have := w.isLt; omega

theorem colOf_posOf (h w : Fin 32) : colOf (posOf h w) = w := by
  apply Fin.ext; show (h.val * 32 + w.val) % 32 = w.val; have := w.isLt; omega

theorem posOf_rowOf_colOf (n : Fin 1024) : posOf (rowOf n) (colOf n) = n := by
  apply Fin.ext; show n.val / 32 * 32 + n.val % 32 = n.val; omega

/-- Image `b` of the batch as positions × channels. -/
def imgOf (a0 : (⟨4, ![64, 32, 32, 384]⟩ : Shape).Idx → EReal) (b : Fin 64) : Fin 1024 → Fin 384 → EReal :=
  fun n c => a0 (ix4 b (rowOf n) (colOf n) c)

section Image

variable (p : Params) (X : Fin 1024 → Fin 384 → EReal)

/-- Channel `c < 96` among the 384. -/
def lo96 (c : Fin 96) : Fin 384 := ⟨c.val, by have := c.isLt; omega⟩

/-- The normalised part of the image: its first 96 channels. -/
def x1 (n : Fin 1024) (c : Fin 96) : EReal := X n (lo96 c)
/-- The mean of a position's 96 channels. -/
def mu (n : Fin 1024) : EReal := Ideal.div (∑ c : Fin 96, x1 X n c) w96
/-- A channel's deviation from its position's mean. -/
def dev (n : Fin 1024) (c : Fin 96) : EReal := x1 X n c - mu X n
/-- The variance of a position's 96 channels. -/
def vr (n : Fin 1024) : EReal := Ideal.div (∑ c : Fin 96, dev X n c * dev X n c) w96
/-- The inverse standard deviation, regularised. -/
def rstd (n : Fin 1024) : EReal := Ideal.rsqrt (vr X n + wEps)
/-- The normalised, scaled and shifted channels. -/
def x1n (n : Fin 1024) (c : Fin 96) : EReal := dev X n c * rstd X n * p.g c + p.be c
/-- The affine map to 128 channels. -/
def pre (n : Fin 1024) (j : Fin 128) : EReal := (∑ c : Fin 96, x1n p X n c * p.W c j) + p.b j
/-- The per-channel scale of the running normalisation. -/
def sc (j : Fin 128) : EReal := p.gam j * Ideal.rsqrt (p.var j + wEps)
/-- The 128 channels after the running normalisation. -/
def qkv (n : Fin 1024) (j : Fin 128) : EReal := (pre p X n j - p.mean j) * sc p j + p.beta j
/-- The query: channels 0 … 15. -/
def q (n : Fin 1024) (d : Fin 16) : EReal := qkv p X n ⟨d.val, by have := d.isLt; omega⟩
/-- The key: channels 16 … 31. -/
def k (m : Fin 1024) (d : Fin 16) : EReal := qkv p X m ⟨16 + d.val, by have := d.isLt; omega⟩
/-- The value: channels 32 … 127. -/
def v (m : Fin 1024) (c : Fin 96) : EReal := qkv p X m ⟨32 + c.val, by have := c.isLt; omega⟩

/-- A row's maximum, started at minus infinity. -/
def rmax (s : Fin 1024 → EReal) : EReal := (Finset.univ : Finset (Fin 1024)).fold max wNegInf s

end Image

/-! ### Attention over a given query, key and value -/

section Attention

variable (qs ks : Fin 1024 → Fin 16 → EReal) (vs : Fin 1024 → Fin 96 → EReal)

/-- FIRST writing. Scores of a query that is already scaled. -/
def sKg (n m : Fin 1024) : EReal := ∑ d : Fin 16, qs n d * ks m d
/-- Unnormalised weights. -/
def pKg (n m : Fin 1024) : EReal := Ideal.exp (sKg qs ks n m - rmax (sKg qs ks n))
/-- Their sum. -/
def lKg (n : Fin 1024) : EReal := ∑ m : Fin 1024, pKg qs ks n m
/-- The attended channels: the weighted sum of values, divided once. -/
def oKg (n : Fin 1024) (c : Fin 96) : EReal := Ideal.div (∑ m : Fin 1024, pKg qs ks n m * vs m c) (lKg qs ks n)

/-- SECOND writing. Scores scaled after the contraction (here `qs` is the unscaled query). -/
def sRg (n m : Fin 1024) : EReal := (∑ d : Fin 16, qs n d * ks m d) * wQuarter
/-- The row maximum, joined once more with minus infinity. -/
def mRg (n : Fin 1024) : EReal := max wNegInf (rmax (sRg qs ks n))
/-- Unnormalised weights. -/
def pRg (n m : Fin 1024) : EReal := Ideal.exp (sRg qs ks n m - mRg qs ks n)
/-- Their sum. -/
def lRg (n : Fin 1024) : EReal := ∑ m : Fin 1024, pRg qs ks n m
/-- The attended channels: every weight divided, then the weighted sum. -/
def oRg (n : Fin 1024) (c : Fin 96) : EReal := ∑ m : Fin 1024, Ideal.div (pRg qs ks n m) (lRg qs ks n) * vs m c

end Attention

/-! ### The output map over given attended channels -/

/-- The indicator of the channels that pass through unattended, 96 … 383. -/
def mask (c : Fin 384) : EReal := if 96 ≤ c.val then 1 else 0

/-- FIRST writing: the attended channels `o` through the 96-row block `P1`, all 384 input channels through `P2`. -/
def projKg (o : Fin 1024 → Fin 96 → EReal) (X : Fin 1024 → Fin 384 → EReal) (P1 : Fin 96 → Fin 384 → EReal)
    (P2 : Fin 384 → Fin 384 → EReal) (pb : Fin 384 → EReal) (n : Fin 1024) (f : Fin 384) : EReal :=
  ((∑ c : Fin 96, max (o n c) 0 * P1 c f) + (∑ c : Fin 384, max (X n c) 0 * P2 c f)) + pb f

/-- SECOND writing: the attended channels in place of the first 96 input channels. -/
def xcg (o : Fin 1024 → Fin 96 → EReal) (X : Fin 1024 → Fin 384 → EReal) (n : Fin 1024) (c : Fin 384) : EReal :=
  if h : c.val < 96 then o n ⟨c.val, h⟩ else X n c
/-- SECOND writing: the output map over the 384 channels. -/
def projRg (o : Fin 1024 → Fin 96 → EReal) (X : Fin 1024 → Fin 384 → EReal) (PW : Fin 384 → Fin 384 → EReal)
    (pb : Fin 384 → EReal) (n : Fin 1024) (f : Fin 384) : EReal :=
  (∑ c : Fin 384, max (xcg o X n c) 0 * PW c f) + pb f

section Image

variable (p : Params) (X : Fin 1024 → Fin 384 → EReal)

/-- The query scaled by 1/4, as the first writing contracts it. -/
def qs (n : Fin 1024) (d : Fin 16) : EReal := q p X n d * wQuarter
/-- The first writing's attended channels. -/
def oK (n : Fin 1024) (c : Fin 96) : EReal := oKg (qs p X) (k p X) (v p X) n c
/-- The second writing's attended channels. -/
def oR (n : Fin 1024) (c : Fin 96) : EReal := oRg (q p X) (k p X) (v p X) n c
/-- The per-channel scale of the output's running normalisation. -/
def psc (f : Fin 384) : EReal := p.pgam f * Ideal.rsqrt (p.pvar f + wEps)
/-- The first writing's result over two given weight blocks. -/
def outKg (P1 : Fin 96 → Fin 384 → EReal) (P2 : Fin 384 → Fin 384 → EReal) (n : Fin 1024) (f : Fin 384) : EReal :=
  (projKg (oK p X) X P1 P2 p.pb n f - p.pmean f) * psc p f + p.pbeta f
/-- The first 96 rows of the output matrix. -/
def pw1 (c : Fin 96) (f : Fin 384) : EReal := p.PW (lo96 c) f
/-- The output matrix with its first 96 rows zeroed. -/
def pw2 (c : Fin 384) (f : Fin 384) : EReal := p.PW c f * mask c
/-- The first writing's result: the two blocks are the matrix's first 96 rows and the matrix with those rows zeroed. -/
def outK (n : Fin 1024) (f : Fin 384) : EReal := outKg p X (pw1 p) (pw2 p) n f
/-- The second writing's result. -/
def outR (n : Fin 1024) (f : Fin 384) : EReal :=
  (projRg (oR p X) X p.PW p.pb n f - p.pmean f) * psc p f + p.pbeta f

end Image

/-! ### The whole batch -/

/-- An array index of the batch by its four coordinates. -/
abbrev BIdx : Type := (⟨4, ![64, 32, 32, 384]⟩ : Shape).Idx

/-- The FIRST writing on the whole batch, as one function of the fifteen argument arrays: entry (b, h, w, f) is image
    `b`'s result at position (h, w), channel f. -/
def resultK (a0 : BIdx → EReal) (a1 a2 : (⟨1, ![96]⟩ : Shape).Idx → EReal) (a3 : (⟨2, ![96, 128]⟩ : Shape).Idx → EReal)
    (a4 a5 a6 a7 a8 : (⟨1, ![128]⟩ : Shape).Idx → EReal) (a9 : (⟨2, ![384, 384]⟩ : Shape).Idx → EReal)
    (a10 a11 a12 a13 a14 : (⟨1, ![384]⟩ : Shape).Idx → EReal) : BIdx → EReal :=
  fun i => outK (paramsOf a1 a2 a3 a4 a5 a6 a7 a8 a9 a10 a11 a12 a13 a14)
    (imgOf a0 ⟨(i 0).val, (i 0).isLt⟩) (posOf ⟨(i 1).val, (i 1).isLt⟩ ⟨(i 2).val, (i 2).isLt⟩) ⟨(i 3).val, (i 3).isLt⟩

/-- The SECOND writing on the whole batch. -/
def resultR (a0 : BIdx → EReal) (a1 a2 : (⟨1, ![96]⟩ : Shape).Idx → EReal) (a3 : (⟨2, ![96, 128]⟩ : Shape).Idx → EReal)
    (a4 a5 a6 a7 a8 : (⟨1, ![128]⟩ : Shape).Idx → EReal) (a9 : (⟨2, ![384, 384]⟩ : Shape).Idx → EReal)
    (a10 a11 a12 a13 a14 : (⟨1, ![384]⟩ : Shape).Idx → EReal) : BIdx → EReal :=
  fun i => outR (paramsOf a1 a2 a3 a4 a5 a6 a7 a8 a9 a10 a11 a12 a13 a14)
    (imgOf a0 ⟨(i 0).val, (i 0).isLt⟩) (posOf ⟨(i 1).val, (i 1).isLt⟩ ⟨(i 2).val, (i 2).isLt⟩) ⟨(i 3).val, (i 3).isLt⟩

theorem resultK_ix4 (a0 : BIdx → EReal) (a1 a2 : (⟨1, ![96]⟩ : Shape).Idx → EReal) (a3 : (⟨2, ![96, 128]⟩ : Shape).Idx → EReal)
    (a4 a5 a6 a7 a8 : (⟨1, ![128]⟩ : Shape).Idx → EReal) (a9 : (⟨2, ![384, 384]⟩ : Shape).Idx → EReal)
    (a10 a11 a12 a13 a14 : (⟨1, ![384]⟩ : Shape).Idx → EReal) (b : Fin 64) (h w : Fin 32) (f : Fin 384) :
    resultK a0 a1 a2 a3 a4 a5 a6 a7 a8 a9 a10 a11 a12 a13 a14 (ix4 b h w f)
      = outK (paramsOf a1 a2 a3 a4 a5 a6 a7 a8 a9 a10 a11 a12 a13 a14) (imgOf a0 b) (posOf h w) f := rfl

theorem resultR_ix4 (a0 : BIdx → EReal) (a1 a2 : (⟨1, ![96]⟩ : Shape).Idx → EReal) (a3 : (⟨2, ![96, 128]⟩ : Shape).Idx → EReal)
    (a4 a5 a6 a7 a8 : (⟨1, ![128]⟩ : Shape).Idx → EReal) (a9 : (⟨2, ![384, 384]⟩ : Shape).Idx → EReal)
    (a10 a11 a12 a13 a14 : (⟨1, ![384]⟩ : Shape).Idx → EReal) (b : Fin 64) (h w : Fin 32) (f : Fin 384) :
    resultR a0 a1 a2 a3 a4 a5 a6 a7 a8 a9 a10 a11 a12 a13 a14 (ix4 b h w f)
      = outR (paramsOf a1 a2 a3 a4 a5 a6 a7 a8 a9 a10 a11 a12 a13 a14) (imgOf a0 b) (posOf h w) f := rfl

end Cert.Shsa

end
-- ==== Proof.KArr.lean ====
/-
  The fifteen argument arrays of the kernel's program as it is launched, each named at its literal shape.
-/
import proofs.«421979_j14285061226833_3_alg».proof.Proof.Gen.KernelIdeal
import proofs.«421979_j14285061226833_3_alg».proof.Proof.Spec

noncomputable section

namespace Cert.Shsa.KArr

open Idealize.ShloMosaic Idealize.ShloMosaic.TcCoe Idealize.SL.Sem Cert.KernelIdeal Cert.Shsa

variable (m : (ℓ : Loc nD τ sig) → Buf (Elt Ideal) ℓ)

/-- Argument 0 of the launch on core `c`. -/
abbrev a0 (c : Dev nD) : FVec Ideal S64x32x32x384 .f32 := m ((c : Thread nD τ).loc main_arg0)
/-- Argument 1 of the launch on core `c`. -/
abbrev a1 (c : Dev nD) : FVec Ideal S96 .f32 := m ((c : Thread nD τ).loc main_arg1)
/-- Argument 2 of the launch on core `c`. -/
abbrev a2 (c : Dev nD) : FVec Ideal S96 .f32 := m ((c : Thread nD τ).loc main_arg2)
/-- Argument 3 of the launch on core `c`. -/
abbrev a3 (c : Dev nD) : FVec Ideal S96x128 .f32 := m ((c : Thread nD τ).loc main_arg3)
/-- Argument 4 of the launch on core `c`. -/
abbrev a4 (c : Dev nD) : FVec Ideal S128 .f32 := m ((c : Thread nD τ).loc main_arg4)
/-- Argument 5 of the launch on core `c`. -/
abbrev a5 (c : Dev nD) : FVec Ideal S128 .f32 := m ((c : Thread nD τ).loc main_arg5)
/-- Argument 6 of the launch on core `c`. -/
abbrev a6 (c : Dev nD) : FVec Ideal S128 .f32 := m ((c : Thread nD τ).loc main_arg6)
/-- Argument 7 of the launch on core `c`. -/
abbrev a7 (c : Dev nD) : FVec Ideal S128 .f32 := m ((c : Thread nD τ).loc main_arg7)
/-- Argument 8 of the launch on core `c`. -/
abbrev a8 (c : Dev nD) : FVec Ideal S128 .f32 := m ((c : Thread nD τ).loc main_arg8)
/-- Argument 9 of the launch on core `c`. -/
abbrev a9 (c : Dev nD) : FVec Ideal S384x384 .f32 := m ((c : Thread nD τ).loc main_arg9)
/-- Argument 10 of the launch on core `c`. -/
abbrev a10 (c : Dev nD) : FVec Ideal S384 .f32 := m ((c : Thread nD τ).loc main_arg10)
/-- Argument 11 of the launch on core `c`. -/
abbrev a11 (c : Dev nD) : FVec Ideal S384 .f32 := m ((c : Thread nD τ).loc main_arg11)
/-- Argument 12 of the launch on core `c`. -/
abbrev a12 (c : Dev nD) : FVec Ideal S384 .f32 := m ((c : Thread nD τ).loc main_arg12)
/-- Argument 13 of the launch on core `c`. -/
abbrev a13 (c : Dev nD) : FVec Ideal S384 .f32 := m ((c : Thread nD τ).loc main_arg13)
/-- Argument 14 of the launch on core `c`. -/
abbrev a14 (c : Dev nD) : FVec Ideal S384 .f32 := m ((c : Thread nD τ).loc main_arg14)

/-- The layer's parameters as launched. -/
abbrev params (c : Dev nD) : Params :=
  paramsOf (a1 m c) (a2 m c) (a3 m c) (a4 m c) (a5 m c) (a6 m c) (a7 m c) (a8 m c) (a9 m c) (a10 m c) (a11 m c) (a12 m c) (a13 m c) (a14 m c)

end Cert.Shsa.KArr

end
-- ==== Proof.KDefs.lean ====
/-
  One image as the kernel holds it: a [1, 32, 32, 384] block read as positions × channels, position `n` being row
  `n / 32`, column `n % 32`.
-/
import proofs.«421979_j14285061226833_3_alg».proof.Proof.Spec

noncomputable section

namespace Cert.Shsa

open Idealize.ShloMosaic Idealize.ShloMosaic.ValueIdx

/-- A [1, 32, 32, 384] block as positions × channels. -/
def blockImg (xa : (⟨4, ![1, 32, 32, 384]⟩ : Shape).Idx → EReal) : Fin 1024 → Fin 384 → EReal :=
  fun n c => xa (ix4 (0 : Fin 1) (rowOf n) (colOf n) c)

end Cert.Shsa

end
-- ==== Proof.KWin.lean ====
/-
  What the kernel's windows hold at a grid point: every parameter window's block is its whole array, and the image
  window's block at point `t` is images `2 t` and `2 t + 1` of the batch.
-/
import proofs.«421979_j14285061226833_3_alg».proof.Proof.Gen.KernelIdeal.Frame
import proofs.«421979_j14285061226833_3_alg».proof.Proof.KArr
import proofs.«421979_j14285061226833_3_alg».proof.Proof.KDefs
import Idealize.ShloMosaic.Lib.Pipeline.Value

noncomputable section

namespace Cert.Shsa.KWin

open Idealize.ShloMosaic Idealize.ShloMosaic.ValueIdx Idealize.ShloMosaic.TcCoe Idealize.SL.Sem Cert.KernelIdeal Cert.KernelIdeal.Gen Cert.Shsa Cert.Shsa.KArr

variable (m : (ℓ : Loc nD τ sig) → Buf (Elt Ideal) ℓ)

/-! ### The index maps over the grid -/

/-- The image window moves one block of two images per point and stays put on the other axes. -/
theorem idx_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- So does the result window. -/
theorem idx_16 : ∀ t : Fin cfg0.N, win0_16.index t (0 : Fin 4) = t.val ∧ win0_16.index t (1 : Fin 4) = 0
    ∧ win0_16.index t (2 : Fin 4) = 0 ∧ win0_16.index t (3 : Fin 4) = 0 :=
  (by decide +kernel : ∀ t : Fin grid0.N, _)

theorem idx_1 : ∀ t : Fin cfg0.N, win0_1.index t (0 : Fin 1) = 0 :=
  (by decide +kernel : ∀ t : Fin grid0.N, _)

theorem idx_2 : ∀ t : Fin cfg0.N, win0_2.index t (0 : Fin 1) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem idx_4 : ∀ t : Fin cfg0.N, win0_4.index t (0 : Fin 1) = 0 :=
  (by decide +kernel : ∀ t : Fin grid0.N, _)

theorem idx_5 : ∀ t : Fin cfg0.N, win0_5.index t (0 : Fin 1) = 0 :=
  (by decide +kernel : ∀ t : Fin grid0.N, _)

theorem idx_6 : ∀ t : Fin cfg0.N, win0_6.index t (0 : Fin 1) = 0 :=
  (by decide +kernel : ∀ t : Fin grid0.N, _)

theorem idx_7 : ∀ t : Fin cfg0.N, win0_7.index t (0 : Fin 1) = 0 :=
  (by decide +kernel : ∀ t : Fin grid0.N, _)

theorem idx_8 : ∀ t : Fin cfg0.N, win0_8.index t (0 : Fin 1) = 0 :=
  (by decide +kernel : ∀ t : Fin grid0.N, _)

theorem idx_9 : ∀ t : Fin cfg0.N, win0_9.index t (0 : Fin 2) = 0 ∧ win0_9.index t (1 : Fin 2) = 0 :=
  (by decide +kernel : ∀ t : Fin grid0.N, _)

theorem idx_10 : ∀ t : Fin cfg0.N, win0_10.index t (0 : Fin 2) = 0 ∧ win0_10.index t (1 : Fin 2) = 0 :=
  (by decide +kernel : ∀ t : Fin grid0.N, _)

theorem idx_11 : ∀ t : Fin cfg0.N, win0_11.index t (0 : Fin 1) = 0 :=
  (by decide +kernel : ∀ t : Fin grid0.N, _)

theorem idx_12 : ∀ t : Fin cfg0.N, win0_12.index t (0 : Fin 1) = 0 :=
  (by decide +kernel : ∀ t : Fin grid0.N, _)

theorem idx_13 : ∀ t : Fin cfg0.N, win0_13.index t (0 : Fin 1) = 0 :=
  (by decide +kernel : ∀ t : Fin grid0.N, _)

theorem idx_14 : ∀ t : Fin cfg0.N, win0_14.index t (0 : Fin 1) = 0 :=
  (by decide +kernel : ∀ t : Fin grid0.N, _)

theorem idx_15 : ∀ t : Fin cfg0.N, win0_15.index t (0 : Fin 1) = 0 :=
  (by decide +kernel : ∀ t : Fin grid0.N, _)

/-! ### The parameter windows -/

/-- Window 1's block at any point is its whole array. -/
theorem blk_1 (c : Dev nD) (t : Fin cfg0.N) : (iblk m c 1 t : Vec Ideal S96 .f32) = (V m c main_arg1 : FVec Ideal S96 .f32) := by
  funext x
  unfold iblk
  rw [View.read_apply]
  show V m c main_arg1 _ = V m c main_arg1 x
  congr 1
  funext a
  apply Fin.ext
  match a with
    | ⟨0, _⟩ => show win0_1.index t (0 : Fin 1) * 96 + 1 * (x 0).val = (x 0).val; rw [idx_1 t]; omega

/-- Window 2's block at any point is its whole array. -/
theorem blk_2 (c : Dev nD) (t : Fin cfg0.N) : (iblk m c 2 t : Vec Ideal S96 .f32) = (V m c main_arg2 : FVec Ideal S96 .f32) := by
  funext x
  unfold iblk
  rw [View.read_apply]
  show V m c main_arg2 _ = V m c main_arg2 x
  congr 1
  funext a
  apply Fin.ext
  match a with
    | ⟨0, _⟩ => show win0_2.index t (0 : Fin 1) * 96 + 1 * (x 0).val = (x 0).val; rw [idx_2 t]; omega

/-- Window 3's block at any point is its whole array. -/
theorem blk_3 (c : Dev nD) (t : Fin cfg0.N) : (iblk m c 3 t : Vec Ideal S96x128 .f32) = (V m c main_arg3 : FVec Ideal S96x128 .f32) := by
  funext x
  unfold iblk
  rw [View.read_apply]
  show V m c main_arg3 _ = V m c main_arg3 x
  congr 1
  funext a
  apply Fin.ext
  match a with
    | ⟨0, _⟩ => show win0_3.index t (0 : Fin 2) * 96 + 1 * (x 0).val = (x 0).val; rw [(idx_3 t).1]; omega
    | ⟨1, _⟩ => show win0_3.index t (1 : Fin 2) * 128 + 1 * (x 1).val = (x 1).val; rw [(idx_3 t).2]; omega

/-- Window 4's block at any point is its whole array. -/
theorem blk_4 (c : Dev nD) (t : Fin cfg0.N) : (iblk m c 4 t : Vec Ideal S128 .f32) = (V m c main_arg4 : FVec Ideal S128 .f32) := by
  funext x
  unfold iblk
  rw [View.read_apply]
  show V m c main_arg4 _ = V m c main_arg4 x
  congr 1
  funext a
  apply Fin.ext
  match a with
    | ⟨0, _⟩ => show win0_4.index t (0 : Fin 1) * 128 + 1 * (x 0).val = (x 0).val; rw [idx_4 t]; omega

/-- Window 5's block at any point is its whole array. -/
theorem blk_5 (c : Dev nD) (t : Fin cfg0.N) : (iblk m c 5 t : Vec Ideal S128 .f32) = (V m c main_arg5 : FVec Ideal S128 .f32) := by
  funext x
  unfold iblk
  rw [View.read_apply]
  show V m c main_arg5 _ = V m c main_arg5 x
  congr 1
  funext a
  apply Fin.ext
  match a with
    | ⟨0, _⟩ => show win0_5.index t (0 : Fin 1) * 128 + 1 * (x 0).val = (x 0).val; rw [idx_5 t]; omega

/-- Window 6's block at any point is its whole array. -/
theorem blk_6 (c : Dev nD) (t : Fin cfg0.N) : (iblk m c 6 t : Vec Ideal S128 .f32) = (V m c main_arg6 : FVec Ideal S128 .f32) := by
  funext x
  unfold iblk
  rw [View.read_apply]
  show V m c main_arg6 _ = V m c main_arg6 x
  congr 1
  funext a
  apply Fin.ext
  match a with
    | ⟨0, _⟩ => show win0_6.index t (0 : Fin 1) * 128 + 1 * (x 0).val = (x 0).val; rw [idx_6 t]; omega

/-- Window 7's block at any point is its whole array. -/
theorem blk_7 (c : Dev nD) (t : Fin cfg0.N) : (iblk m c 7 t : Vec Ideal S128 .f32) = (V m c main_arg7 : FVec Ideal S128 .f32) := by
  funext x
  unfold iblk
  rw [View.read_apply]
  show V m c main_arg7 _ = V m c main_arg7 x
  congr 1
  funext a
  apply Fin.ext
  match a with
    | ⟨0, _⟩ => show win0_7.index t (0 : Fin 1) * 128 + 1 * (x 0).val = (x 0).val; rw [idx_7 t]; omega

/-- Window 8's block at any point is its whole array. -/
theorem blk_8 (c : Dev nD) (t : Fin cfg0.N) : (iblk m c 8 t : Vec Ideal S128 .f32) = (V m c main_arg8 : FVec Ideal S128 .f32) := by
  funext x
  unfold iblk
  rw [View.read_apply]
  show V m c main_arg8 _ = V m c main_arg8 x
  congr 1
  funext a
  apply Fin.ext
  match a with
    | ⟨0, _⟩ => show win0_8.index t (0 : Fin 1) * 128 + 1 * (x 0).val = (x 0).val; rw [idx_8 t]; omega

/-- Window 9's block at any point is its whole array. -/
theorem blk_9 (c : Dev nD) (t : Fin cfg0.N) : (iblk m c 9 t : Vec Ideal S96x384 .f32) = (V m c main_v5 : FVec Ideal S96x384 .f32) := by
  funext x
  unfold iblk
  rw [View.read_apply]
  show V m c main_v5 _ = V m c main_v5 x
  congr 1
  funext a
  apply Fin.ext
  match a with
    | ⟨0, _⟩ => show win0_9.index t (0 : Fin 2) * 96 + 1 * (x 0).val = (x 0).val; rw [(idx_9 t).1]; omega
    | ⟨1, _⟩ => show win0_9.index t (1 : Fin 2) * 384 + 1 * (x 1).val = (x 1).val; rw [(idx_9 t).2]; omega

/-- Window 10's block at any point is its whole array. -/
theorem blk_10 (c : Dev nD) (t : Fin cfg0.N) : (iblk m c 10 t : Vec Ideal S384x384 .f32) = (V m c main_v7 : FVec Ideal S384x384 .f32) := by
  funext x
  unfold iblk
  rw [View.read_apply]
  show V m c main_v7 _ = V m c main_v7 x
  congr 1
  funext a
  apply Fin.ext
  match a with
    | ⟨0, _⟩ => show win0_10.index t (0 : Fin 2) * 384 + 1 * (x 0).val = (x 0).val; rw [(idx_10 t).1]; omega
    | ⟨1, _⟩ => show win0_10.index t (1 : Fin 2) * 384 + 1 * (x 1).val = (x 1).val; rw [(idx_10 t).2]; omega

/-- Window 11's block at any point is its whole array. -/
theorem blk_11 (c : Dev nD) (t : Fin cfg0.N) : (iblk m c 11 t : Vec Ideal S384 .f32) = (V m c main_arg10 : FVec Ideal S384 .f32) := by
  funext x
  unfold iblk
  rw [View.read_apply]
  show V m c main_arg10 _ = V m c main_arg10 x
  congr 1
  funext a
  apply Fin.ext
  match a with
    | ⟨0, _⟩ => show win0_11.index t (0 : Fin 1) * 384 + 1 * (x 0).val = (x 0).val; rw [idx_11 t]; omega

/-- Window 12's block at any point is its whole array. -/
theorem blk_12 (c : Dev nD) (t : Fin cfg0.N) : (iblk m c 12 t : Vec Ideal S384 .f32) = (V m c main_arg11 : FVec Ideal S384 .f32) := by
  funext x
  unfold iblk
  rw [View.read_apply]
  show V m c main_arg11 _ = V m c main_arg11 x
  congr 1
  funext a
  apply Fin.ext
  match a with
    | ⟨0, _⟩ => show win0_12.index t (0 : Fin 1) * 384 + 1 * (x 0).val = (x 0).val; rw [idx_12 t]; omega

/-- Window 13's block at any point is its whole array. -/
theorem blk_13 (c : Dev nD) (t : Fin cfg0.N) : (iblk m c 13 t : Vec Ideal S384 .f32) = (V m c main_arg12 : FVec Ideal S384 .f32) := by
  funext x
  unfold iblk
  rw [View.read_apply]
  show V m c main_arg12 _ = V m c main_arg12 x
  congr 1
  funext a
  apply Fin.ext
  match a with
    | ⟨0, _⟩ => show win0_13.index t (0 : Fin 1) * 384 + 1 * (x 0).val = (x 0).val; rw [idx_13 t]; omega

/-- Window 14's block at any point is its whole array. -/
theorem blk_14 (c : Dev nD) (t : Fin cfg0.N) : (iblk m c 14 t : Vec Ideal S384 .f32) = (V m c main_arg13 : FVec Ideal S384 .f32) := by
  funext x
  unfold iblk
  rw [View.read_apply]
  show V m c main_arg13 _ = V m c main_arg13 x
  congr 1
  funext a
  apply Fin.ext
  match a with
    | ⟨0, _⟩ => show win0_14.index t (0 : Fin 1) * 384 + 1 * (x 0).val = (x 0).val; rw [idx_14 t]; omega

/-- Window 15's block at any point is its whole array. -/
theorem blk_15 (c : Dev nD) (t : Fin cfg0.N) : (iblk m c 15 t : Vec Ideal S384 .f32) = (V m c main_arg14 : FVec Ideal S384 .f32) := by
  funext x
  unfold iblk
  rw [View.read_apply]
  show V m c main_arg14 _ = V m c main_arg14 x
  congr 1
  funext a
  apply Fin.ext
  match a with
    | ⟨0, _⟩ => show win0_15.index t (0 : Fin 1) * 384 + 1 * (x 0).val = (x 0).val; rw [idx_15 t]; omega

/-! ### The image window -/

/-- Entry (e, h, w, c) of the image window's block at point `t` is entry (2 t + e, h, w, c) of the batch. -/
theorem blk_0 (c : Dev nD) (t : Fin cfg0.N) (e : Fin 2) (h w : Fin 32) (cc : Fin 384) (b : Fin 64) (hb : b.val = 2 * t.val + e.val) :
    (iblk m c 0 t : Vec Ideal S2x32x32x384 .f32) (ix4 e h w cc) = (V m c main_arg0 : FVec Ideal S64x32x32x384 .f32) (ix4 b h w cc) := by
  unfold iblk
  rw [View.read_apply]
  show V m c main_arg0 _ = V m c main_arg0 (ix4 b h w cc)
  congr 1
  funext a
  apply Fin.ext
  match a with
    | ⟨0, _⟩ => show win0_0.index t (0 : Fin 4) * 2 + 1 * e.val = b.val; rw [(idx_0 t).1, hb]; omega
    | ⟨1, _⟩ => show win0_0.index t (1 : Fin 4) * 32 + 1 * h.val = h.val; rw [(idx_0 t).2.1]; omega
    | ⟨2, _⟩ => show win0_0.index t (2 : Fin 4) * 32 + 1 * w.val = w.val; rw [(idx_0 t).2.2.1]; omega
    | ⟨3, _⟩ => show win0_0.index t (3 : Fin 4) * 384 + 1 * cc.val = cc.val; rw [(idx_0 t).2.2.2]; omega

end Cert.Shsa.KWin

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KQkv.lean ====
/-
  The kernel's normalisation, 96 → 128 map and running normalisation of one image, read entry by entry: the 128
  channels the kernel computes at position `n` are the layer's `qkv`, and its three slices are the scaled query, the
  key and the value.
-/
import proofs.«421979_j14285061226833_3_alg».proof.Proof.Gen.KernelIdeal.Skeleton
import proofs.«421979_j14285061226833_3_alg».proof.Proof.KDefs
import proofs.«421979_j14285061226833_3_alg».proof.Proof.LibDotPlain
import proofs.«421979_j14285061226833_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Shsa.KQkv

open Idealize.ShloMosaic Idealize.ShloMosaic.ValueIdx Cert.KernelIdeal Cert.KernelIdeal.Gen Cert.Shsa

/-! ### Reading a pointwise layer, a row vector and a column at an index -/

section Pointwise
variable {s : Shape} {φ : FTy}

/-- A sum of two arrays read at an index, given what each is there. -/
theorem addf_read (A B : FVec Ideal s φ) (i : s.Idx) {a b : EReal} (ha : A i = a) (hb : B i = b) :
    addf A B i = a + b :=
  (addf_apply A B i).trans (congrArg₂ (· + ·) ha hb)

/-- A difference of two arrays read at an index. -/
theorem subf_read (A B : FVec Ideal s φ) (i : s.Idx) {a b : EReal} (ha : A i = a) (hb : B i = b) :
    subf A B i = a - b :=
  (subf_apply A B i).trans (congrArg₂ (· - ·) ha hb)

/-- A product of two arrays read at an index. -/
theorem mulf_read (A B : FVec Ideal s φ) (i : s.Idx) {a b : EReal} (ha : A i = a) (hb : B i = b) :
    mulf A B i = a * b :=
  (mulf_apply A B i).trans (congrArg₂ (· * ·) ha hb)

/-- A quotient of an array by a constant read at an index. -/
theorem divf_const_read (A : FVec Ideal s φ) (w : BitVec φ.bits) (i : s.Idx) {a : EReal} (ha : A i = a) :
    divf A (broadcast s (Scalar.ofBits φ w)) i = Ideal.div a (Ideal.ofBits φ w) :=
  (divf_apply A _ i).trans (congrArg (fun t => Ideal.div t (Ideal.ofBits φ w)) ha)

/-- An array plus a constant read at an index. -/
theorem addf_const_read (A : FVec Ideal s φ) (w : BitVec φ.bits) (i : s.Idx) {a : EReal} (ha : A i = a) :
    addf A (broadcast s (Scalar.ofBits φ w)) i = a + Ideal.ofBits φ w :=
  (addf_apply A _ i).trans (congrArg (fun t => t + Ideal.ofBits φ w) ha)

/-- An array times a constant read at an index. -/
theorem mulf_const_read (A : FVec Ideal s φ) (w : BitVec φ.bits) (i : s.Idx) {a : EReal} (ha : A i = a) :
    mulf A (broadcast s (Scalar.ofBits φ w)) i = a * Ideal.ofBits φ w :=
  (mulf_apply A _ i).trans (congrArg (fun t => t * Ideal.ofBits φ w) ha)

/-- The inverse square root of an array read at an index. -/
theorem rsqrt_read (A : FVec Ideal s φ) (i : s.Idx) {a : EReal} (ha : A i = a) : rsqrt A i = Ideal.rsqrt a :=
  congrArg Ideal.rsqrt ha

end Pointwise

/-- A vector of length b laid as one row and repeated down the rows of an [a, b] array reads, at (p, c), its entry c. -/
theorem rowvec_read {a b : ℕ} {φ : FTy} (v : FVec Ideal ⟨1, ![b]⟩ φ) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A column repeated along the rows of an [a, b] array reads, at (p, c), the column's entry p. -/
theorem colvec_read {a b : ℕ} {φ : FTy} (v : FVec Ideal ⟨2, ![a, 1]⟩ φ) (h : (⟨2, ![a, 1]⟩ : Shape).Broadcasts ⟨2, ![a, b]⟩)
    (p : Fin a) (c : Fin b) {x : EReal} (hv : v (ix2 p (0 : Fin 1)) = x) :
    broadcastTo ⟨2, ![a, b]⟩ v h (ix2 p c) = x :=
  (Cert.LibColumn.broadcastTo_a1_ab_apply v h p c).trans hv

/-- A sum over the 96 channels of a [1024, 96] array, read at a row. -/
theorem rowsum_single (src : FVec Ideal S1024x96 .f32) (h : S1024x96.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 96, src (ix2 r c) := by
  refine (Ideal.multiReduction_add_single src _ h hφ hacc (ix1 r)).trans ?_
  refine Finset.sum_congr rfl fun k _ => ?_
  refine congrArg src (funext fun a => ?_)
  match a with
  | ⟨0, _⟩ => rfl
  | ⟨1, _⟩ => rfl

/-- The same sum kept as a column. -/
theorem rowsum_col_read (src : FVec Ideal S1024x96 .f32) (h : S1024x96.Reduces [1] S1024) (hφ : FKind.Formats .f32)
    (hacc : (0x00000000#32 : BitVec 32) = FKind.add.neutral .f32 hφ) (hc : S1024.ShapeCasts S1024x1) (r : Fin 1024) (u : Fin 1)
    {f : Fin 96 → EReal} (hf : ∀ c, src (ix2 r c) = f c) :
    shapeCast S1024x1 (multiReduction .add [1] S1024 src 0x00000000#32 h hφ hacc) hc (ix2 r u) = ∑ c : Fin 96, f c :=
  (Cert.LibColumn.shapeCast_a_a1_apply _ hc r u).trans
    ((rowsum_single src h hφ hacc r).trans (Finset.sum_congr rfl fun c _ => hf c))

/-! ### The normalisation of a position's 96 channels, over any array that reads as the image's first 96 channels -/

section Norm

variable (x1v : FVec Ideal S1024x96 .f32) (s : FVec Ideal S1024x1 .f32) (X : Fin 1024 → Fin 384 → EReal)

/-- The array of deviations from the mean: the 96 channels minus the row sum over 96, repeated along the row. -/
abbrev kDev (hb : S1024x1.Broadcasts S1024x96) : FVec Ideal S1024x96 .f32 :=
  subf x1v (broadcastTo S1024x96 (divf s (broadcast S1024x1 (Scalar.ofBits .f32 0x42C00000#32))) hb)

/-- The column of variances: the row sums of the squared deviations over 96. -/
abbrev kVar (hb : S1024x1.Broadcasts S1024x96) (hr : S1024x96.Reduces [1] S1024) (hφ : FKind.Formats .f32)
    (hacc : (0x00000000#32 : BitVec 32) = FKind.add.neutral .f32 hφ) (hc : S1024.ShapeCasts S1024x1) : FVec Ideal S1024x1 .f32 :=
  divf (shapeCast S1024x1 (multiReduction .add [1] S1024 (mulf (kDev x1v s hb) (kDev x1v s hb)) 0x00000000#32 hr hφ hacc) hc)
    (broadcast S1024x1 (Scalar.ofBits .f32 0x42C00000#32))

variable (hx : ∀ n c, x1v (ix2 n c) = x1 X n c) (hs : ∀ n (u : Fin 1), s (ix2 n u) = ∑ c : Fin 96, x1 X n c)
include hx hs

/-- The deviations array reads the layer's deviation. -/
theorem dev_read (hb : S1024x1.Broadcasts S1024x96) (n : Fin 1024) (c : Fin 96) :
    kDev x1v s hb (ix2 n c) = dev X n c :=
  subf_read _ _ _ (hx n c) (colvec_read _ hb n c (divf_const_read s _ _ (hs n 0)))

/-- The variance column reads the layer's variance. -/
theorem var_read (hb : S1024x1.Broadcasts S1024x96) (hr : S1024x96.Reduces [1] S1024) (hφ : FKind.Formats .f32)
    (hacc : (0x00000000#32 : BitVec 32) = FKind.add.neutral .f32 hφ) (hc : S1024.ShapeCasts S1024x1) (n : Fin 1024) (u : Fin 1) :
    kVar x1v s hb hr hφ hacc hc (ix2 n u) = vr X n :=
  divf_const_read _ _ _ (rowsum_col_read _ hr hφ hacc hc n u fun c =>
    mulf_read _ _ _ (dev_read x1v s X hx hs hb n c) (dev_read x1v s X hx hs hb n c))

/-- The regularised inverse standard deviation, as a column. -/
theorem rstd_read (hb : S1024x1.Broadcasts S1024x96) (hr : S1024x96.Reduces [1] S1024) (hφ : FKind.Formats .f32)
    (hacc : (0x00000000#32 : BitVec 32) = FKind.add.neutral .f32 hφ) (hc : S1024.ShapeCasts S1024x1) (n : Fin 1024) (u : Fin 1) :
    rsqrt (addf (kVar x1v s hb hr hφ hacc hc) (broadcast S1024x1 (Scalar.ofBits .f32 0x3A83126F#32))) (ix2 n u) = rstd X n :=
  rsqrt_read _ _ (addf_const_read _ _ _ (var_read x1v s X hx hs hb hr hφ hacc hc n u))

end Norm

/-! ### The 128 channels -/

section Channels

variable (g be : Vec Ideal S96 .f32) (W : FVec Ideal S96x128 .bf16) (b : Vec Ideal S128 .f32) (scv : FVec Ideal S128 .f32)
  (beta mean : Vec Ideal S128 .f32) (x1v : FVec Ideal S1024x96 .f32) (s : FVec Ideal S1024x1 .f32)
  (X : Fin 1024 → Fin 384 → EReal)

/-- Over an array that reads as the image's first 96 channels and a column that reads as their sums, the 128 channels at
    position `n` are: the normalised, scaled and shifted channels through the 96 → 128 map, plus its shift, minus the
    running mean, times the running scale, plus the running shift. -/
theorem pay9_read (hx : ∀ n c, x1v (ix2 n c) = x1 X n c) (hs : ∀ n (u : Fin 1), s (ix2 n u) = ∑ c : Fin 96, x1 X n c)
    (n : Fin 1024) (j : Fin 128) :
    k0_pay9 (F := Ideal) g be W b scv beta mean x1v s (ix2 n j)
      = ((∑ c : Fin 96, (dev X n c * rstd X n * g (ix1 c) + be (ix1 c)) * W (ix2 c j)) + b (ix1 j) - mean (ix1 j))
          * scv (ix1 j) + beta (ix1 j) := by
  unfold k0_pay9
  refine addf_read _ _ _ (mulf_read _ _ _ (subf_read _ _ _ (addf_read _ _ _ ?_ (rowvec_read b _ _ n j))
    (rowvec_read mean _ _ n j)) (rowvec_read scv _ _ n j)) (rowvec_read beta _ _ n j)
  refine (Cert.LibDotPlain.matmul_zero_apply _ none _ W n j).trans ?_
  refine Finset.sum_congr rfl fun c _ => congrArg (· * W (ix2 c j)) ?_
  refine (truncf_apply (φ := .f32) (ψ := .bf16) _ bitsLt_bf16_f32 (ix2 n c)).trans ?_
  exact addf_read _ _ _ (mulf_read _ _ _ (mulf_read _ _ _ (dev_read x1v s X hx hs _ n c)
    (colvec_read _ _ n c (rstd_read x1v s X hx hs _ _ _ _ _ n 0))) (rowvec_read g _ _ n c)) (rowvec_read be _ _ n c)

end Channels

variable (l1 l2 : Vec Ideal S96 .f32) (l3 : Vec Ideal S96x128 .f32) (l4 l5 l6 l7 l8 : Vec Ideal S128 .f32)
  (a9 : Vec Ideal S384x384 .f32) (l11 l12 l13 l14 l15 : Vec Ideal S384 .f32) (xa : Vec Ideal S1x32x32x384 .f32)

/-- The first 96 channels of the block, position by position. -/
theorem x1_read (n : Fin 1024) (c : Fin 96) :
    k0_pay7 (F := Ideal) xa (ix2 n c) = x1 (blockImg xa) n c := by
  unfold k0_pay7
  refine (shapeCast_apply _ _ (ix2 n c) (ix3 (rowOf n) (colOf n) c) ?_).trans ?_
  · rw [Shape.rowMajor_val_three, Shape.rowMajor_val_two]
    show ((n.val / 32) * 32 + n.val % 32) * 96 + c.val = n.val * 96 + c.val
    omega
  refine (extractStridedSlice_apply _ _ _ (ix3 (rowOf n) (colOf n) c) (ix3 (rowOf n) (colOf n) (lo96 c)) ?_).trans ?_
  · intro a
    match a with
    | ⟨0, _⟩ => exact (Nat.zero_add _).symm
    | ⟨1, _⟩ => exact (Nat.zero_add _).symm
    | ⟨2, _⟩ => exact (Nat.zero_add _).symm
  exact shapeCast_1abc_abc_apply xa _ (rowOf n) (colOf n) (lo96 c)

/-- The sum of a position's 96 channels, kept as a column. -/
theorem rowsum_read (n : Fin 1024) (u : Fin 1) :
    k0_pay8 (F := Ideal) xa (ix2 n u) = ∑ c : Fin 96, x1 (blockImg xa) n c := by
  unfold k0_pay8
  exact rowsum_col_read _ _ _ _ _ n u fun c => x1_read xa n c

/-- The 128 channels at position `n`. -/
theorem qkv_read (n : Fin 1024) (j : Fin 128) :
    k0_pay9 (F := Ideal) l1 l2 (k0_pay2 l3) l4 (k0_pay3 l5 l8) l6 l7 (k0_pay7 xa) (k0_pay8 xa) (ix2 n j)
      = qkv (paramsOf l1 l2 l3 l4 l5 l6 l7 l8 a9 l11 l12 l13 l14 l15) (blockImg xa) n j := by
  refine (pay9_read l1 l2 (k0_pay2 l3) l4 (k0_pay3 l5 l8) l6 l7 (k0_pay7 xa) (k0_pay8 xa) (blockImg xa)
    (x1_read xa) (rowsum_read xa) n j).trans ?_
  rfl

/-- The query, scaled by 1/4. -/
theorem q_read (n : Fin 1024) (d : Fin 16) :
    k0_pay10 (F := Ideal) l1 l2 (k0_pay2 l3) l4 (k0_pay3 l5 l8) l6 l7 (k0_pay7 xa) (k0_pay8 xa) (ix2 n d)
      = qs (paramsOf l1 l2 l3 l4 l5 l6 l7 l8 a9 l11 l12 l13 l14 l15) (blockImg xa) n d := by
  unfold k0_pay10
  refine mulf_const_read (a := q (paramsOf l1 l2 l3 l4 l5 l6 l7 l8 a9 l11 l12 l13 l14 l15) (blockImg xa) n d) _ _ _ ?_
  refine (slice2_axis1_apply (n1 := 128) 0 _ _ n d ⟨d.val, by have := d.isLt; omega⟩ (Nat.zero_add _).symm).trans ?_
  exact qkv_read l1 l2 l3 l4 l5 l6 l7 l8 a9 l11 l12 l13 l14 l15 xa n _

/-- The key. -/
theorem k_read (m : Fin 1024) (d : Fin 16) :
    k0_pay11 (F := Ideal) l1 l2 (k0_pay2 l3) l4 (k0_pay3 l5 l8) l6 l7 (k0_pay7 xa) (k0_pay8 xa) (ix2 m d)
      = k (paramsOf l1 l2 l3 l4 l5 l6 l7 l8 a9 l11 l12 l13 l14 l15) (blockImg xa) m d := by
  unfold k0_pay11
  refine (truncf_apply (φ := .f32) (ψ := .bf16) _ bitsLt_bf16_f32 (ix2 m d)).trans ?_
  exact (slice2_axis1_apply (n1 := 128) 16 _ _ m d ⟨16 + d.val, by have := d.isLt; omega⟩ rfl).trans
    (qkv_read l1 l2 l3 l4 l5 l6 l7 l8 a9 l11 l12 l13 l14 l15 xa m _)

/-- The value. -/
theorem v_read (m : Fin 1024) (c : Fin 96) :
    k0_pay12 (F := Ideal) l1 l2 (k0_pay2 l3) l4 (k0_pay3 l5 l8) l6 l7 (k0_pay7 xa) (k0_pay8 xa) (ix2 m c)
      = v (paramsOf l1 l2 l3 l4 l5 l6 l7 l8 a9 l11 l12 l13 l14 l15) (blockImg xa) m c := by
  unfold k0_pay12
  refine (truncf_apply (φ := .f32) (ψ := .bf16) _ bitsLt_bf16_f32 (ix2 m c)).trans ?_
  exact (slice2_axis1_apply (n1 := 128) 32 _ _ m c ⟨32 + c.val, by have := c.isLt; omega⟩ rfl).trans
    (qkv_read l1 l2 l3 l4 l5 l6 l7 l8 a9 l11 l12 l13 l14 l15 xa m _)

end Cert.Shsa.KQkv

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.KAttn.lean ====
/-
  The kernel's attention, four blocks of 256 query rows at a time, read entry by entry: each block's rows are the
  layer's attended channels `oKg` of the (already scaled) query, the key and the value at those rows.
-/
import proofs.«421979_j14285061226833_3_alg».proof.Proof.Gen.KernelIdeal.Skeleton
import proofs.«421979_j14285061226833_3_alg».proof.Proof.KDefs
import proofs.«421979_j14285061226833_3_alg».proof.Proof.LibDotPlain
import proofs.«421979_j14285061226833_3_alg».proof.Proof.LibDotLastAxis
import proofs.«421979_j14285061226833_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Shsa.KAttn

open Idealize.ShloMosaic Idealize.ShloMosaic.ValueIdx Cert.KernelIdeal Cert.KernelIdeal.Gen Cert.Shsa

/-- Row `r` of the block of 256 rows that starts at row `off`. -/
def rowAt (off : Nat) (h : off + 256 ≤ 1024) (r : Fin 256) : Fin 1024 := ⟨off + r.val, by have := r.isLt; omega⟩

/-! ### The operations of one block, read at an entry -/

/-- A block's scores. Rows `off … off + 255` of the query against every key, contracted over the 16 shared channels and
    accumulated from zero: entry (r, m) is the layer's score of position `off + r` against position `m`. (Narrowing the
    query rows changes nothing over the extended reals.) -/
theorem score_read (off : Nat) (h : off + 256 ≤ 1024) (hsl : S1024x16.Slices ![off, 0] S256x16)
    (Q : FVec Ideal S1024x16 .f32) (K : FVec Ideal S1024x16 .bf16) (r : Fin 256) (m : Fin 1024) :
    matmul (F := Ideal) dot_S256x16_S1024x16_S256x1024_1_1_0_0_n_n none
        (truncf .bf16 (extractStridedSlice S256x16 ![off, 0] Q hsl) bitsLt_bf16_f32) K
        (constant S256x1024 .f32 0x00000000#32) (ix2 r m)
      = sKg (fun n d => Q (ix2 n d)) (fun m d => K (ix2 m d)) (rowAt off h r) m := by
  refine (Idealize.ShloMosaic.LibDotLastAxis.matmul_zero_apply _ none _ K r m).trans ?_
  refine Finset.sum_congr rfl fun d _ => ?_
  refine congrArg (· * K (ix2 m d)) ?_
  refine extractStridedSlice_apply _ Q hsl (ix2 r d) (ix2 (rowAt off h r) d) fun a => ?_
  match a with
  | ⟨0, _⟩ => rfl
  | ⟨1, _⟩ => exact (Nat.zero_add _).symm

/-- The maximum along each row of a [256, 1024] array, started at minus infinity: at row `r` it is `rmax` of that row. -/
theorem rowmax_read (s : FVec Ideal S256x1024 .f32) (r : Fin 256) :
    multiReduction (F := Ideal) .maximumf [1] S256 s 0xFF800000#32 reduces_S256x1024_S256 (.inl rfl) rfl (ix1 r)
      = rmax (fun m => s (ix2 r m)) := by
  refine (Ideal.multiReduction_maximumf_single s 0xFF800000#32 reduces_S256x1024_S256 (.inl rfl) rfl (ix1 r)).trans ?_
  show (Finset.univ : Finset (Fin 1024)).fold max wNegInf (s ∘ reduces_S256x1024_S256.lift (ix1 r)) = _
  refine congrArg ((Finset.univ : Finset (Fin 1024)).fold max wNegInf) (funext fun m => congrArg s (funext fun a => ?_))
  match a with
  | ⟨0, _⟩ => exact Fin.ext rfl
  | ⟨1, _⟩ => exact Fin.ext rfl

/-- The sum along each row of a [256, 1024] array, started at zero: at row `r` it is the sum of that row's 1024 entries. -/
theorem rowsum_read (p : FVec Ideal S256x1024 .f32) (r : Fin 256) :
    multiReduction (F := Ideal) .add [1] S256 p 0x00000000#32 reduces_S256x1024_S256 (.inl rfl) rfl (ix1 r)
      = ∑ m : Fin 1024, p (ix2 r m) := by
  refine (Ideal.multiReduction_add_single p 0x00000000#32 reduces_S256x1024_S256 (.inl rfl) rfl (ix1 r)).trans ?_
  show ∑ m : Fin 1024, p (reduces_S256x1024_S256.lift (ix1 r) m) = _
  refine Finset.sum_congr rfl fun m _ => congrArg p (funext fun a => ?_)
  match a with
  | ⟨0, _⟩ => exact Fin.ext rfl
  | ⟨1, _⟩ => exact Fin.ext rfl

/-- A vector of 256 row statistics set as a column and repeated along 1024 columns reads, at (r, m), its entry `r`. -/
theorem col1024_read (v : FVec Ideal S256 .f32) (r : Fin 256) (m : Fin 1024) :
    broadcastTo S256x1024 (shapeCast S256x1 v shapeCasts_S256_S256x1) broadcasts_S256x1_S256x1024 (ix2 r m) = v (ix1 r) :=
  (Cert.LibColumn.broadcastTo_a1_ab_apply _ broadcasts_S256x1_S256x1024 r m).trans
    (Cert.LibColumn.shapeCast_a_a1_apply v shapeCasts_S256_S256x1 r 0)

/-- The same column repeated along the 96 channels reads, at (r, c), its entry `r`. -/
theorem col96_read (v : FVec Ideal S256 .f32) (r : Fin 256) (c : Fin 96) :
    broadcastTo S256x96 (shapeCast S256x1 v shapeCasts_S256_S256x1) broadcasts_S256x1_S256x96 (ix2 r c) = v (ix1 r) :=
  (Cert.LibColumn.broadcastTo_a1_ab_apply _ broadcasts_S256x1_S256x96 r c).trans
    (Cert.LibColumn.shapeCast_a_a1_apply v shapeCasts_S256_S256x1 r 0)

/-- The weights a block forms from its scores: the exponential of each score less the maximum of its row. -/
def wts (s : FVec Ideal S256x1024 .f32) : FVec Ideal S256x1024 .f32 :=
  exp (subf s (broadcastTo S256x1024 (shapeCast S256x1
    (multiReduction (F := Ideal) .maximumf [1] S256 s 0xFF800000#32 reduces_S256x1024_S256 (.inl rfl) rfl)
    shapeCasts_S256_S256x1) broadcasts_S256x1_S256x1024))

/-! ### One block of 256 rows

  `s` is a block of scores whose row `r` is the layer's score row of position `n r`, for a query `qs` and a key `ks`;
  `vs` is the value. -/

section Block

variable (qs ks : Fin 1024 → Fin 16 → EReal) (vs : FVec Ideal S1024x96 .bf16) (s : FVec Ideal S256x1024 .f32)
  (n : Fin 256 → Fin 1024) (hs : ∀ r m, s (ix2 r m) = sKg qs ks (n r) m)
include hs

/-- The block's weights are the layer's unnormalised weights `pKg` of those rows. -/
theorem wts_read (r : Fin 256) (m : Fin 1024) : wts s (ix2 r m) = pKg qs ks (n r) m := by
  show Ideal.exp (s (ix2 r m) - broadcastTo S256x1024 (shapeCast S256x1
    (multiReduction (F := Ideal) .maximumf [1] S256 s 0xFF800000#32 reduces_S256x1024_S256 (.inl rfl) rfl)
    shapeCasts_S256_S256x1) broadcasts_S256x1_S256x1024 (ix2 r m)) = _
  rw [col1024_read, rowmax_read, hs r m, show (fun m => s (ix2 r m)) = sKg qs ks (n r) from funext (hs r)]
  rfl

/-- The row sums of the weights are the layer's `lKg`. -/
theorem lsum_read (r : Fin 256) :
    multiReduction (F := Ideal) .add [1] S256 (wts s) 0x00000000#32 reduces_S256x1024_S256 (.inl rfl) rfl (ix1 r)
      = lKg qs ks (n r) :=
  (rowsum_read (wts s) r).trans (Finset.sum_congr rfl fun m _ => wts_read qs ks s n hs r m)

/-- The product of the (narrowed) weights with the value, accumulated from zero, is the weighted sum of values. -/
theorem pv_read (r : Fin 256) (c : Fin 96) :
    matmul (F := Ideal) dot_S256x1024_S1024x96_S256x96_1_0_0_1_n_n none (truncf .bf16 (wts s) bitsLt_bf16_f32) vs
        (constant S256x96 .f32 0x00000000#32) (ix2 r c)
      = ∑ m : Fin 1024, pKg qs ks (n r) m * vs (ix2 m c) :=
  (Cert.LibDotPlain.matmul_zero_apply _ none (truncf .bf16 (wts s) bitsLt_bf16_f32) vs r c).trans
    (Finset.sum_congr rfl fun m _ => congrArg (· * vs (ix2 m c)) (wts_read qs ks s n hs r m))

/-- The row sums, set as a column and repeated along the 96 channels, are `lKg` of the row at every channel. -/
theorem lcol_read (r : Fin 256) (c : Fin 96) :
    broadcastTo S256x96 (shapeCast S256x1
        (multiReduction (F := Ideal) .add [1] S256 (wts s) 0x00000000#32 reduces_S256x1024_S256 (.inl rfl) rfl)
        shapeCasts_S256_S256x1) broadcasts_S256x1_S256x96 (ix2 r c)
      = lKg qs ks (n r) :=
  (col96_read _ r c).trans (lsum_read qs ks s n hs r)

/-- The weighted sum of values divided by the sum of the weights is the layer's attended channel `oKg`. -/
theorem block_read (r : Fin 256) (c : Fin 96) :
    divf (matmul (F := Ideal) dot_S256x1024_S1024x96_S256x96_1_0_0_1_n_n none (truncf .bf16 (wts s) bitsLt_bf16_f32) vs
          (constant S256x96 .f32 0x00000000#32))
        (broadcastTo S256x96 (shapeCast S256x1
          (multiReduction (F := Ideal) .add [1] S256 (wts s) 0x00000000#32 reduces_S256x1024_S256 (.inl rfl) rfl)
          shapeCasts_S256_S256x1) broadcasts_S256x1_S256x96) (ix2 r c)
      = oKg qs ks (fun m c => vs (ix2 m c)) (n r) c := by
  show Ideal.div _ _ = Ideal.div _ _
  rw [pv_read qs ks vs s n hs r c, lcol_read qs ks s n hs r c]

end Block

/-! ### The four blocks -/

variable (Qs : FVec Ideal S1024x16 .f32) (Kb : FVec Ideal S1024x16 .bf16) (Vb : FVec Ideal S1024x96 .bf16)

/-- Rows 256 … 511. -/
theorem chunk1 (r : Fin 256) (c : Fin 96) :
    k0_pay15 (F := Ideal) Qs Kb Vb (ix2 r c)
      = oKg (fun n d => Qs (ix2 n d)) (fun m d => Kb (ix2 m d)) (fun m c => Vb (ix2 m c)) (rowAt 256 (by norm_num) r) c :=
  block_read _ _ Vb _ (rowAt 256 (by norm_num)) (score_read 256 (by norm_num) slices_S1024x16_o256_0_S256x16 Qs Kb) r c

/-- Rows 512 … 767. -/
theorem chunk2 (r : Fin 256) (c : Fin 96) :
    k0_pay16 (F := Ideal) Qs Kb Vb (ix2 r c)
      = oKg (fun n d => Qs (ix2 n d)) (fun m d => Kb (ix2 m d)) (fun m c => Vb (ix2 m c)) (rowAt 512 (by norm_num) r) c :=
  block_read _ _ Vb _ (rowAt 512 (by norm_num)) (score_read 512 (by norm_num) slices_S1024x16_o512_0_S256x16 Qs Kb) r c

/-- Rows 768 … 1023: the weighted sum of values and the sum of the weights come separately; their quotient is the
    attended channel. -/
theorem chunk3 (r : Fin 256) (c : Fin 96) :
    Ideal.div (k0_pay18 (F := Ideal) Qs Kb Vb (ix2 r c)) (k0_pay19 (F := Ideal) Qs Kb (ix2 r c))
      = oKg (fun n d => Qs (ix2 n d)) (fun m d => Kb (ix2 m d)) (fun m c => Vb (ix2 m c)) (rowAt 768 (by norm_num) r) c :=
  block_read _ _ Vb _ (rowAt 768 (by norm_num)) (score_read 768 (by norm_num) slices_S1024x16_o768_0_S256x16 Qs Kb) r c

/-- Rows 0 … 255, whose weights the kernel forms from the query and key it has just computed. -/
theorem chunk0 (v0 v1 : Vec Ideal S96 .f32) (v3 : FVec Ideal S96x128 .bf16) (v4 : Vec Ideal S128 .f32) (v10 : FVec Ideal S128 .f32)
    (v11 v12 : Vec Ideal S128 .f32) (v31 : FVec Ideal S1024x96 .f32) (v33 : FVec Ideal S1024x1 .f32) (r : Fin 256) (c : Fin 96) :
    k0_pay14 (F := Ideal) Vb (k0_pay13 v0 v1 v3 v4 v10 v11 v12 v31 v33) (ix2 r c)
      = oKg (fun n d => k0_pay10 (F := Ideal) v0 v1 v3 v4 v10 v11 v12 v31 v33 (ix2 n d))
          (fun m d => k0_pay11 (F := Ideal) v0 v1 v3 v4 v10 v11 v12 v31 v33 (ix2 m d)) (fun m c => Vb (ix2 m c))
          (rowAt 0 (by norm_num) r) c :=
  block_read _ _ Vb _ (rowAt 0 (by norm_num))
    (score_read 0 (by norm_num) slices_S1024x16_o0_0_S256x16 (k0_pay10 v0 v1 v3 v4 v10 v11 v12 v31 v33)
      (k0_pay11 v0 v1 v3 v4 v10 v11 v12 v31 v33)) r c

end Cert.Shsa.KAttn

end
-- ==== Proof.LibConcatFour.lean ====
/-
  A concatenation of FOUR pieces of one shape along an axis, read at an index.

  If every piece has extent `K` along the axis, the entry at an index whose axis coordinate is `n K + r` (with `r < K`)
  is piece `n` at the index that has `r` on the axis and the same coordinates elsewhere. The piece is named by a
  number `n : Fin 4` that may stay symbolic, so a proof that packs four tiles side by side reads the packed value
  once, for all four tiles at the same time.
-/
import Idealize.ShloMosaic.Lib.Pipeline.Value

noncomputable section

namespace Idealize.ShloMosaic.ConcatFour

open Idealize.ShloMosaic

variable {α : Type}

/-- The `n`-th of four things. -/
def pick {β : Type*} (x0 x1 x2 x3 : β) (n : Fin 4) : β :=
  match n with
  | ⟨0, _⟩ => x0
  | ⟨1, _⟩ => x1
  | ⟨2, _⟩ => x2
  | ⟨3, _⟩ => x3
  | ⟨_ + 4, h⟩ => absurd h (by omega)

/-- Four pieces of one shape, each of extent `K` along axis `a`: at an index whose axis coordinate is `n · K` plus the
    coordinate of `i` there, and whose other coordinates are `i`'s, the concatenation is piece `n` at `i`. -/
theorem concatenate_four_apply {t s₁ : Shape} (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4) (i : s₁.Idx)
    (hi : ∀ b : Fin s₁.rank, b.cast hr ≠ a → (i b).val = (j (b.cast hr)).val)
    (ha : n.val * K + (i (a.cast hr.symm)).val = (j a).val) :
    concatenate t a [⟨s₁, x0⟩, ⟨s₁, x1⟩, ⟨s₁, x2⟩, ⟨s₁, x3⟩] h j = pick x0 x1 x2 x3 n i := by
  match n, ha with
  | ⟨0, _⟩, ha =>
    exact concatenate_apply_piece a _ h j 0 (by simp) s₁ x0 rfl hr 0 (by simp) i hi (by simpa using ha)
  | ⟨1, _⟩, ha =>
    exact concatenate_apply_piece a _ h j 1 (by simp) s₁ x1 rfl hr K (by simp [dif_pos hr, hK]) i hi (by simpa using ha)
  | ⟨2, _⟩, ha =>
    exact concatenate_apply_piece a _ h j 2 (by simp) s₁ x2 rfl hr (K + K) (by simp [dif_pos hr, hK]) i hi
      (by have : 2 * K + (i (a.cast hr.symm)).val = (j a).val := ha; omega)
  | ⟨3, _⟩, ha =>
    exact concatenate_apply_piece a _ h j 3 (by simp) s₁ x3 rfl hr (K + (K + K)) (by simp [dif_pos hr, hK]) i hi
      (by have : 3 * K + (i (a.cast hr.symm)).val = (j a).val := ha; omega)

end Idealize.ShloMosaic.ConcatFour

end
-- ==== Proof.KOut.lean ====
/-
  The kernel's output map of one image, read entry by entry: the four blocks of attended rows are joined, clipped at
  zero and sent through the 96-row weight block, the whole image block is clipped at zero and sent through the 384-row
  weight block, the bias is added, and the running normalisation is applied.
-/
import proofs.«421979_j14285061226833_3_alg».proof.Proof.Gen.KernelIdeal.Skeleton
import proofs.«421979_j14285061226833_3_alg».proof.Proof.KDefs
import proofs.«421979_j14285061226833_3_alg».proof.Proof.LibDotPlain
import proofs.«421979_j14285061226833_3_alg».proof.Proof.LibConcatFour
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Shsa.KOut

open Idealize.ShloMosaic Idealize.ShloMosaic.ValueIdx Cert.KernelIdeal Cert.KernelIdeal.Gen Cert.Shsa

/-- One of the four stacked blocks: at row `k · 256 + r` the stack of four [256, 96] blocks holds block `k` at row `r`. -/
theorem stack_block (x0 x1 x2 x3 : FVec Ideal S256x96 .f32) (k : Fin 4) (r : Fin 256) (c : Fin 96) (n : Fin 1024)
    (hn : k.val * 256 + r.val = n.val) :
    concatenate S1024x96 0 [⟨S256x96, x0⟩, ⟨S256x96, x1⟩, ⟨S256x96, x2⟩, ⟨S256x96, x3⟩]
        concatenates_S256x96_S256x96_S256x96_S256x96_S1024x96_d0 (ix2 n c)
      = ConcatFour.pick x0 x1 x2 x3 k (ix2 r c) :=
  ConcatFour.concatenate_four_apply (t := S1024x96) (s₁ := S256x96) 0 x0 x1 x2 x3 _ rfl 256 rfl (ix2 n c) k (ix2 r c)
    (fun b hb => by
      match b, hb with
      | ⟨0, _⟩, hb => exact absurd rfl hb
      | ⟨1, _⟩, _ => rfl)
    hn

/-- A [384] vector laid as one row and repeated down 1024 rows reads, at row `n` and channel `f`, the vector at `f`. -/
theorem row_read (v : Vec Ideal S384 .f32) (n : Fin 1024) (f : Fin 384) :
    broadcastTo S1024x384 (shapeCast S1x384 v shapeCasts_S384_S1x384) broadcasts_S1x384_S1024x384 (ix2 n f) = v (ix1 f) :=
  (broadcastTo_1b_ab_apply _ _ n f).trans (shapeCast_a_1a_apply v _ 0 f)

/-- The image block re-laid as positions × channels is `blockImg`. -/
theorem xf_read (xa : Vec Ideal S1x32x32x384 .f32) (n : Fin 1024) (c : Fin 384) :
    shapeCast S1024x384 (shapeCast S32x32x384 xa shapeCasts_S1x32x32x384_S32x32x384) shapeCasts_S32x32x384_S1024x384 (ix2 n c)
      = blockImg xa n c :=
  (shapeCast_apply _ _ (ix2 n c) (ix3 (rowOf n) (colOf n) c) (by
    rw [Shape.rowMajor_val_three, Shape.rowMajor_val_two]
    show (n.val / 32 * 32 + n.val % 32) * 384 + c.val = n.val * 384 + c.val
    rw [Nat.div_add_mod'])).trans (shapeCast_1abc_abc_apply xa _ _ _ _)

/-- The [1024, 384] array re-laid as [1, 32, 32, 384]: entry (0, h, w, f) is entry (32 h + w, f). -/
theorem relay_read (y : FVec Ideal S1024x384 .f32) (h w : Fin 32) (f : Fin 384) :
    shapeCast S1x32x32x384 (shapeCast S32x32x384 y shapeCasts_S1024x384_S32x32x384) shapeCasts_S32x32x384_S1x32x32x384
        (ix4 (0 : Fin 1) h w f)
      = y (ix2 (posOf h w) f) :=
  (shapeCast_abc_1abc_apply _ _ 0 h w f).trans (shapeCast_apply y _ (ix3 h w f) (ix2 (posOf h w) f) (by
    rw [Shape.rowMajor_val_three, Shape.rowMajor_val_two]
    rfl))

/-- The product with the 96-row weight block. -/
theorem prod96_read (A : FVec Ideal S1024x96 .bf16) (B : FVec Ideal S96x384 .bf16) (n : Fin 1024) (f : Fin 384) :
    matmul dot_S1024x96_S96x384_S1024x384_1_0_0_1_n_n none A B (constant S1024x384 .f32 0x00000000#32) (ix2 n f)
      = ∑ c : Fin 96, A (ix2 n c) * B (ix2 c f) :=
  Cert.LibDotPlain.matmul_zero_apply _ none A B n f

/-- The product with the 384-row weight block. -/
theorem prod384_read (A : FVec Ideal S1024x384 .bf16) (B : FVec Ideal S384x384 .bf16) (n : Fin 1024) (f : Fin 384) :
    matmul dot_S1024x384_S384x384_S1024x384_1_0_0_1_n_n none A B (constant S1024x384 .f32 0x00000000#32) (ix2 n f)
      = ∑ c : Fin 384, A (ix2 n c) * B (ix2 c f) :=
  Cert.LibDotPlain.matmul_zero_apply _ none A B n f

/-- Every entry of the stack of the four blocks of attended rows is `O`. -/
theorem stack_read (v90 v104 v118 v132 : FVec Ideal S256x96 .f32) (O : Fin 1024 → Fin 96 → EReal)
    (h0 : ∀ (r : Fin 256) (c : Fin 96), v90 (ix2 r c) = O ⟨0 + r.val, by have := r.isLt; omega⟩ c)
    (h1 : ∀ (r : Fin 256) (c : Fin 96), v104 (ix2 r c) = O ⟨256 + r.val, by have := r.isLt; omega⟩ c)
    (h2 : ∀ (r : Fin 256) (c : Fin 96), v118 (ix2 r c) = O ⟨512 + r.val, by have := r.isLt; omega⟩ c)
    (h3 : ∀ (r : Fin 256) (c : Fin 96), v132 (ix2 r c) = O ⟨768 + r.val, by have := r.isLt; omega⟩ c)
    (n : Fin 1024) (c : Fin 96) :
    concatenate S1024x96 0 [⟨S256x96, v90⟩, ⟨S256x96, v104⟩, ⟨S256x96, v118⟩, ⟨S256x96, v132⟩]
        concatenates_S256x96_S256x96_S256x96_S256x96_S1024x96_d0 (ix2 n c)
      = O n c := by
  have hn := n.isLt
  rcases Nat.lt_or_ge n.val 256 with a0 | a0
  · refine (stack_block v90 v104 v118 v132 0 ⟨n.val, a0⟩ c n (by simp)).trans ?_
    refine (h0 ⟨n.val, a0⟩ c).trans (congrArg (fun m => O m c) (Fin.ext ?_))
    show 0 + n.val = n.val
    omega
  rcases Nat.lt_or_ge n.val 512 with a1 | a1
  · refine (stack_block v90 v104 v118 v132 1 ⟨n.val - 256, by omega⟩ c n (by show 1 * 256 + (n.val - 256) = n.val; omega)).trans ?_
    refine (h1 ⟨n.val - 256, by omega⟩ c).trans (congrArg (fun m => O m c) (Fin.ext ?_))
    show 256 + (n.val - 256) = n.val
    omega
  rcases Nat.lt_or_ge n.val 768 with a2 | a2
  · refine (stack_block v90 v104 v118 v132 2 ⟨n.val - 512, by omega⟩ c n (by show 2 * 256 + (n.val - 512) = n.val; omega)).trans ?_
    refine (h2 ⟨n.val - 512, by omega⟩ c).trans (congrArg (fun m => O m c) (Fin.ext ?_))
    show 512 + (n.val - 512) = n.val
    omega
  · refine (stack_block v90 v104 v118 v132 3 ⟨n.val - 768, by omega⟩ c n (by show 3 * 256 + (n.val - 768) = n.val; omega)).trans ?_
    refine (h3 ⟨n.val - 768, by omega⟩ c).trans (congrArg (fun m => O m c) (Fin.ext ?_))
    show 768 + (n.val - 768) = n.val
    omega

/-- The [1024, 384] array before the last re-laying, read at a position and a channel: the two clipped products, the bias,
    and the running normalisation. -/
theorem body_read (v15 : FVec Ideal S96x384 .bf16) (v18 : FVec Ideal S384x384 .bf16) (v19 : Vec Ideal S384 .f32)
    (v25 : FVec Ideal S384 .f32) (v26 v27 : Vec Ideal S384 .f32) (o : FVec Ideal S1024x96 .f32)
    (xf : FVec Ideal S1024x384 .f32) (n : Fin 1024) (f : Fin 384) :
    addf (mulf (subf (addf (addf
        (matmul dot_S1024x96_S96x384_S1024x384_1_0_0_1_n_n none
          (truncf .bf16 (maximumf o (broadcast S1024x96 (Scalar.ofBits (F := Ideal) .f32 0x00000000#32))) bitsLt_bf16_f32) v15
          (constant S1024x384 .f32 0x00000000#32))
        (matmul dot_S1024x384_S384x384_S1024x384_1_0_0_1_n_n none
          (truncf .bf16 (maximumf xf (broadcast S1024x384 (Scalar.ofBits (F := Ideal) .f32 0x00000000#32))) bitsLt_bf16_f32) v18
          (constant S1024x384 .f32 0x00000000#32)))
        (broadcastTo S1024x384 (shapeCast S1x384 v19 shapeCasts_S384_S1x384) broadcasts_S1x384_S1024x384))
        (broadcastTo S1024x384 (shapeCast S1x384 v27 shapeCasts_S384_S1x384) broadcasts_S1x384_S1024x384))
        (broadcastTo S1024x384 (shapeCast S1x384 v25 shapeCasts_S384_S1x384) broadcasts_S1x384_S1024x384))
        (broadcastTo S1024x384 (shapeCast S1x384 v26 shapeCasts_S384_S1x384) broadcasts_S1x384_S1024x384) (ix2 n f)
      = (((∑ c : Fin 96, max (o (ix2 n c)) 0 * v15 (ix2 c f)) + (∑ c : Fin 384, max (xf (ix2 n c)) 0 * v18 (ix2 c f))
            + v19 (ix1 f)) - v27 (ix1 f)) * v25 (ix1 f) + v26 (ix1 f) := by
  show (matmul dot_S1024x96_S96x384_S1024x384_1_0_0_1_n_n none
          (truncf .bf16 (maximumf o (broadcast S1024x96 (Scalar.ofBits (F := Ideal) .f32 0x00000000#32))) bitsLt_bf16_f32) v15
          (constant S1024x384 .f32 0x00000000#32) (ix2 n f)
        + matmul dot_S1024x384_S384x384_S1024x384_1_0_0_1_n_n none
          (truncf .bf16 (maximumf xf (broadcast S1024x384 (Scalar.ofBits (F := Ideal) .f32 0x00000000#32))) bitsLt_bf16_f32) v18
          (constant S1024x384 .f32 0x00000000#32) (ix2 n f)
        + broadcastTo S1024x384 (shapeCast S1x384 v19 shapeCasts_S384_S1x384) broadcasts_S1x384_S1024x384 (ix2 n f)
        - broadcastTo S1024x384 (shapeCast S1x384 v27 shapeCasts_S384_S1x384) broadcasts_S1x384_S1024x384 (ix2 n f))
        * broadcastTo S1024x384 (shapeCast S1x384 v25 shapeCasts_S384_S1x384) broadcasts_S1x384_S1024x384 (ix2 n f)
        + broadcastTo S1024x384 (shapeCast S1x384 v26 shapeCasts_S384_S1x384) broadcasts_S1x384_S1024x384 (ix2 n f) = _
  rw [row_read v19, row_read v27, row_read v25, row_read v26, prod96_read, prod384_read]
  have z : Ideal.ofBits .f32 0x00000000#32 = 0 := Ideal.ofBits_zero_f32
  have e1 : ∀ c : Fin 96, (truncf .bf16 (maximumf o (broadcast S1024x96 (Scalar.ofBits (F := Ideal) .f32 0x00000000#32))) bitsLt_bf16_f32
      : FVec Ideal S1024x96 .bf16) (ix2 n c) = max (o (ix2 n c)) 0 := fun c => by
    show max (o (ix2 n c)) (Ideal.ofBits .f32 0x00000000#32) = _
    rw [z]
  have e2 : ∀ c : Fin 384, (truncf .bf16 (maximumf xf (broadcast S1024x384 (Scalar.ofBits (F := Ideal) .f32 0x00000000#32))) bitsLt_bf16_f32
      : FVec Ideal S1024x384 .bf16) (ix2 n c) = max (xf (ix2 n c)) 0 := fun c => by
    show max (xf (ix2 n c)) (Ideal.ofBits .f32 0x00000000#32) = _
    rw [z]
  rw [Finset.sum_congr rfl fun c _ => congrArg (· * v15 (ix2 c f)) (e1 c),
    Finset.sum_congr rfl fun c _ => congrArg (· * v18 (ix2 c f)) (e2 c)]

/-- The image's result at row `h`, column `w`, channel `f`, given what the four blocks of attended rows hold. -/
theorem out_read (v15 : FVec Ideal S96x384 .bf16) (v18 : FVec Ideal S384x384 .bf16) (v19 : Vec Ideal S384 .f32)
    (v25 : FVec Ideal S384 .f32) (v26 v27 : Vec Ideal S384 .f32) (v90 v104 v118 v130 v131 : FVec Ideal S256x96 .f32)
    (xa : Vec Ideal S1x32x32x384 .f32) (O : Fin 1024 → Fin 96 → EReal)
    (h0 : ∀ (r : Fin 256) (c : Fin 96), v90 (ix2 r c) = O ⟨0 + r.val, by have := r.isLt; omega⟩ c)
    (h1 : ∀ (r : Fin 256) (c : Fin 96), v104 (ix2 r c) = O ⟨256 + r.val, by have := r.isLt; omega⟩ c)
    (h2 : ∀ (r : Fin 256) (c : Fin 96), v118 (ix2 r c) = O ⟨512 + r.val, by have := r.isLt; omega⟩ c)
    (h3 : ∀ (r : Fin 256) (c : Fin 96), Ideal.div (v130 (ix2 r c)) (v131 (ix2 r c)) = O ⟨768 + r.val, by have := r.isLt; omega⟩ c)
    (h w : Fin 32) (f : Fin 384) :
    k0_pay20 (F := Ideal) v15 v18 v19 v25 v26 v27 v90 v104 v118 v130 v131 xa (ix4 (0 : Fin 1) h w f)
      = (projKg O (blockImg xa) (fun c f => v15 (ix2 c f)) (fun c f => v18 (ix2 c f)) (fun f => v19 (ix1 f)) (posOf h w) f
          - v27 (ix1 f)) * v25 (ix1 f) + v26 (ix1 f) := by
  unfold k0_pay20
  refine (relay_read _ h w f).trans ?_
  refine (body_read v15 v18 v19 v25 v26 v27 _ _ (posOf h w) f).trans ?_
  rw [Finset.sum_congr rfl fun c _ => congrArg (fun t => max t 0 * v15 (ix2 c f))
      (stack_read v90 v104 v118 (divf v130 v131) O h0 h1 h2 h3 (posOf h w) c),
    Finset.sum_congr rfl fun c _ => congrArg (fun t => max t 0 * v18 (ix2 c f)) (xf_read xa (posOf h w) c)]
  rfl

end Cert.Shsa.KOut

end
-- ==== Proof.KImg.lean ====
/-
  One image through the kernel.

  The kernel treats the two images of a grid step one after the other with the same operations. `imgVec` is that one
  computation as a function of the image block and of the (prepared) parameter vectors; the second image's computation,
  which the body spells through differently grouped intermediate values, is the same function of the second block.
  Read entry by entry at the extended reals, `imgVec` is the layer's first writing `outKg` of the block, over the two
  weight blocks the kernel is handed.
-/
import proofs.«421979_j14285061226833_3_alg».proof.Proof.Gen.KernelIdeal.Skeleton
import proofs.«421979_j14285061226833_3_alg».proof.Proof.KQkv
import proofs.«421979_j14285061226833_3_alg».proof.Proof.KAttn
import proofs.«421979_j14285061226833_3_alg».proof.Proof.KOut

noncomputable section

open scoped BigOperators

namespace Cert.Shsa.KImg

open Idealize.ShloMosaic Idealize.ShloMosaic.ValueIdx Cert.KernelIdeal Cert.KernelIdeal.Gen Cert.Shsa

section Generic

variable {F : FTy → Type} [FloatOps F]

/-- One image: normalisation, the 128 channels, four blocks of attention, the output map and its normalisation. -/
def imgVec (v15 : FVec F S96x384 .bf16) (v18 : FVec F S384x384 .bf16) (v19 : Vec F S384 .f32) (v25 : FVec F S384 .f32) (v26 v27 : Vec F S384 .f32) (v0 v1 : Vec F S96 .f32) (v3 : FVec F S96x128 .bf16) (v4 : Vec F S128 .f32) (v10 : FVec F S128 .f32) (v11 v12 : Vec F S128 .f32) (xa : Vec F S1x32x32x384 .f32) : FVec F S1x32x32x384 .f32 :=
  k0_pay20 v15 v18 v19 v25 v26 v27 (k0_pay14 (k0_pay12 v0 v1 v3 v4 v10 v11 v12 (k0_pay7 xa) (k0_pay8 xa)) (k0_pay13 v0 v1 v3 v4 v10 v11 v12 (k0_pay7 xa) (k0_pay8 xa))) (k0_pay15 (k0_pay10 v0 v1 v3 v4 v10 v11 v12 (k0_pay7 xa) (k0_pay8 xa)) (k0_pay11 v0 v1 v3 v4 v10 v11 v12 (k0_pay7 xa) (k0_pay8 xa)) (k0_pay12 v0 v1 v3 v4 v10 v11 v12 (k0_pay7 xa) (k0_pay8 xa))) (k0_pay16 (k0_pay10 v0 v1 v3 v4 v10 v11 v12 (k0_pay7 xa) (k0_pay8 xa)) (k0_pay11 v0 v1 v3 v4 v10 v11 v12 (k0_pay7 xa) (k0_pay8 xa)) (k0_pay12 v0 v1 v3 v4 v10 v11 v12 (k0_pay7 xa) (k0_pay8 xa))) (k0_pay18 (k0_pay10 v0 v1 v3 v4 v10 v11 v12 (k0_pay7 xa) (k0_pay8 xa)) (k0_pay11 v0 v1 v3 v4 v10 v11 v12 (k0_pay7 xa) (k0_pay8 xa)) (k0_pay12 v0 v1 v3 v4 v10 v11 v12 (k0_pay7 xa) (k0_pay8 xa))) (k0_pay19 (k0_pay10 v0 v1 v3 v4 v10 v11 v12 (k0_pay7 xa) (k0_pay8 xa)) (k0_pay11 v0 v1 v3 v4 v10 v11 v12 (k0_pay7 xa) (k0_pay8 xa))) xa

set_option maxRecDepth 100000 in
/-- The second image of a grid step goes through the same function. -/
theorem second_image (v15 : FVec F S96x384 .bf16) (v18 : FVec F S384x384 .bf16) (v19 : Vec F S384 .f32) (v25 : FVec F S384 .f32) (v26 v27 : Vec F S384 .f32) (v0 v1 : Vec F S96 .f32) (v3 : FVec F S96x128 .bf16) (v4 : Vec F S128 .f32) (v10 : FVec F S128 .f32) (v11 v12 : Vec F S128 .f32) (xb : Vec F S1x32x32x384 .f32) :
    k0_pay1 v15 v18 v19 v25 v26 v27 (k0_pay31 (k0_pay25 v0 v1 v3 v4 v10 v11 v12 (k0_pay21 xb) (k0_pay22 xb) (k0_pay23 xb)) (k0_pay26 v0 v1 v3 v4 v10 v11 v12 (k0_pay21 xb) (k0_pay22 xb) (k0_pay23 xb)) (k0_pay27 v0 v1 v3 v4 v10 v11 v12 (k0_pay21 xb) (k0_pay22 xb) (k0_pay23 xb)) (k0_pay29 v0 v1 v3 v4 v10 v11 v12 (k0_pay21 xb) (k0_pay22 xb) (k0_pay23 xb)) (k0_pay30 v0 v1 v3 v4 v10 v11 v12 (k0_pay21 xb) (k0_pay22 xb) (k0_pay23 xb))) xb = imgVec v15 v18 v19 v25 v26 v27 v0 v1 v3 v4 v10 v11 v12 xb := rfl

end Generic

/-! ### Entry by entry -/

section Read

variable (l1 l2 : Vec Ideal S96 .f32) (l3 : Vec Ideal S96x128 .f32) (l4 l5 l6 l7 l8 : Vec Ideal S128 .f32)
  (a9 : Vec Ideal S384x384 .f32) (l9 : Vec Ideal S96x384 .f32) (l10 : Vec Ideal S384x384 .f32)
  (l11 l12 l13 l14 l15 : Vec Ideal S384 .f32) (xa : Vec Ideal S1x32x32x384 .f32)

/-- Narrowing the 96-row weight block changes no entry. -/
theorem w1_prep (c : Fin 96) (f : Fin 384) : k0_pay4 (F := Ideal) l9 (ix2 c f) = l9 (ix2 c f) := by
  unfold k0_pay4
  show shapeCast S96x384 l9 shapeCasts_S96x384_S96x384 (ix2 c f) = l9 (ix2 c f)
  rw [shapeCast_self]

/-- Narrowing the 384-row weight block changes no entry. -/
theorem w2_prep (c : Fin 384) (f : Fin 384) : k0_pay5 (F := Ideal) l10 (ix2 c f) = l10 (ix2 c f) := by
  unfold k0_pay5
  show shapeCast S384x384 l10 shapeCasts_S384x384_S384x384 (ix2 c f) = l10 (ix2 c f)
  rw [shapeCast_self]

/-- The output normalisation's scale, as the kernel prepares it. -/
theorem psc_prep (f : Fin 384) :
    k0_pay6 (F := Ideal) l12 l15 (ix1 f) = psc (paramsOf l1 l2 l3 l4 l5 l6 l7 l8 a9 l11 l12 l13 l14 l15) f := rfl

/-- The image's result at row `h`, column `w`, channel `f` is the first writing of the layer on the block. -/
theorem imgVec_apply (h w : Fin 32) (f : Fin 384) :
    imgVec (F := Ideal) (k0_pay4 l9) (k0_pay5 l10) l11 (k0_pay6 l12 l15) l13 l14 l1 l2 (k0_pay2 l3) l4 (k0_pay3 l5 l8) l6 l7 xa
        (ix4 (0 : Fin 1) h w f)
      = outKg (paramsOf l1 l2 l3 l4 l5 l6 l7 l8 a9 l11 l12 l13 l14 l15) (blockImg xa)
          (fun c f => l9 (ix2 c f)) (fun c f => l10 (ix2 c f)) (posOf h w) f := by
  have hq : (fun n d => k0_pay10 (F := Ideal) l1 l2 (k0_pay2 l3) l4 (k0_pay3 l5 l8) l6 l7 (k0_pay7 xa) (k0_pay8 xa) (ix2 n d))
      = qs (paramsOf l1 l2 l3 l4 l5 l6 l7 l8 a9 l11 l12 l13 l14 l15) (blockImg xa) :=
    funext fun n => funext fun d => KQkv.q_read l1 l2 l3 l4 l5 l6 l7 l8 a9 l11 l12 l13 l14 l15 xa n d
  have hk : (fun m d => k0_pay11 (F := Ideal) l1 l2 (k0_pay2 l3) l4 (k0_pay3 l5 l8) l6 l7 (k0_pay7 xa) (k0_pay8 xa) (ix2 m d))
      = k (paramsOf l1 l2 l3 l4 l5 l6 l7 l8 a9 l11 l12 l13 l14 l15) (blockImg xa) :=
    funext fun m => funext fun d => KQkv.k_read l1 l2 l3 l4 l5 l6 l7 l8 a9 l11 l12 l13 l14 l15 xa m d
  have hv : (fun m c => k0_pay12 (F := Ideal) l1 l2 (k0_pay2 l3) l4 (k0_pay3 l5 l8) l6 l7 (k0_pay7 xa) (k0_pay8 xa) (ix2 m c))
      = v (paramsOf l1 l2 l3 l4 l5 l6 l7 l8 a9 l11 l12 l13 l14 l15) (blockImg xa) :=
    funext fun m => funext fun c => KQkv.v_read l1 l2 l3 l4 l5 l6 l7 l8 a9 l11 l12 l13 l14 l15 xa m c
  unfold imgVec
  refine (KOut.out_read _ _ _ _ _ _ _ _ _ _ _ xa (oK (paramsOf l1 l2 l3 l4 l5 l6 l7 l8 a9 l11 l12 l13 l14 l15) (blockImg xa))
    (fun r c => ?_) (fun r c => ?_) (fun r c => ?_) (fun r c => ?_) h w f).trans ?_
  · refine (KAttn.chunk0 _ _ _ _ _ _ _ _ _ _ r c).trans ?_
    rw [hq, hk, hv]; rfl
  · refine (KAttn.chunk1 _ _ _ r c).trans ?_
    rw [hq, hk, hv]; rfl
  · refine (KAttn.chunk2 _ _ _ r c).trans ?_
    rw [hq, hk, hv]; rfl
  · refine (KAttn.chunk3 _ _ _ r c).trans ?_
    rw [hq, hk, hv]; rfl
  · have e1 : (fun c f => k0_pay4 (F := Ideal) l9 (ix2 c f)) = fun c f => l9 (ix2 c f) :=
      funext fun c => funext fun f => w1_prep l9 c f
    have e2 : (fun c f => k0_pay5 (F := Ideal) l10 (ix2 c f)) = fun c f => l10 (ix2 c f) :=
      funext fun c => funext fun f => w2_prep l10 c f
    rw [e1, e2]
    rfl

end Read

end Cert.Shsa.KImg

end
-- ==== Proof.KHost.lean ====
/-
  The two weight blocks the kernel is handed, as the host prepares them from the output matrix: the first is the
  matrix's first 96 rows; the second is the matrix times the indicator, row by row, of "row index ≥ 96", that is the
  matrix with its first 96 rows zeroed.
-/
import proofs.«421979_j14285061226833_3_alg».proof.Proof.Gen.KernelIdeal.Frame
import proofs.«421979_j14285061226833_3_alg».proof.Proof.KArr
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.Shsa.KHost

open Idealize.ShloMosaic Idealize.ShloMosaic.ValueIdx Idealize.ShloMosaic.TcCoe Idealize.SL.Sem Cert.KernelIdeal Cert.KernelIdeal.Gen Cert.Shsa Cert.Shsa.KArr

variable (m : (ℓ : Loc nD τ sig) → Buf (Elt Ideal) ℓ)

/-- The first weight block is the first 96 rows of the output matrix. -/
theorem w1_read (c : Dev nD) (cc : Fin 96) (f : Fin 384) :
    (V m c main_v5 : FVec Ideal S96x384 .f32) (ix2 cc f) = a9 m c (ix2 (lo96 cc) f) := by
  -- the block is the slice of the output matrix at offsets (0, 0) …
  have e : (V m c main_v5 : S96x384.Idx → EReal)
      = extractStridedSlice S96x384 ![0, 0] (a9 m c) slices_S384x384_S96x384_0_0 := by
    dsimp only [Gen.V, Gen.hostOps0]; after_results
  rw [e]
  -- … and a slice at zero offsets reads the matrix at the same two coordinates
  refine extractStridedSlice_apply _ _ _ _ _ fun a => ?_
  match a with
  | ⟨0, _⟩ => show cc.val = 0 + cc.val; omega
  | ⟨1, _⟩ => show f.val = 0 + f.val; omega

/-- The signed comparison of a row index (below 384, so non-negative as a 32-bit word) against 96 is the bit of
    "the row index is at least 96". -/
theorem sge96 (cc : Fin 384) :
    IntOp.cmpi .sge (BitVec.ofNat 32 cc.val) 96#32 = if 96 ≤ cc.val then 1#1 else 0#1 := by
  have hc := cc.isLt
  have ha : (BitVec.ofNat 32 cc.val).toNat = cc.val := by
    rw [BitVec.toNat_ofNat]; exact Nat.mod_eq_of_lt (by omega)
  have hiff := StableHlo.Predicate.sge_iff_toNat (a := BitVec.ofNat 32 cc.val) (b := 96#32)
    (by rw [ha]; omega) (by decide)
  rw [ha, show (96#32 : BitVec 32).toNat = 96 from rfl] at hiff
  by_cases h : 96 ≤ cc.val
  · rw [if_pos h]; exact hiff.2 h
  · rw [if_neg h]; exact eq_zero_of_ne_one fun h1 => h (hiff.1 h1)

/-- The column of row indicators the host computes — the row index compared against 96, the bit read as a real —
    is, at row `cc`, the specification's `mask cc`: 1 from row 96 on, 0 before. -/
theorem ind_read (cc : Fin 384) :
    (uitofp (F := Ideal) FTy.f32
          (cmpi CmpIPredicate.sge (broadcastInDim S384x1 ![0] bcast_S384_S384x1_0 (iotaInDim S384 32 0))
            (broadcastInDim S384x1 ![] bcast_S_S384x1 (constantI S_ 32 96#32))) : S384x1.Idx → EReal)
      (ix2 cc (0 : Fin 1)) = mask cc := by
  -- elementwise: the comparison bit of the two words at this row, read unsigned as a real
  show (((IntOp.cmpi .sge
      (broadcastInDim S384x1 ![0] bcast_S384_S384x1_0 (iotaInDim S384 32 0) (ix2 cc (0 : Fin 1)))
      (broadcastInDim S384x1 ![] bcast_S_S384x1 (constantI S_ 32 96#32) (ix2 cc (0 : Fin 1)))).toNat : ℝ) : EReal) = _
  -- the left word is the row index …
  have e1 : broadcastInDim S384x1 ![0] bcast_S384_S384x1_0 (iotaInDim S384 32 0) (ix2 cc (0 : Fin 1))
      = BitVec.ofNat 32 cc.val := by
    refine (broadcastInDim_apply _ _ _ _ (ix1 cc) fun a => ?_).trans rfl
    match a with
    | ⟨0, _⟩ => rfl
  -- … the right word is 96
  have e2 : broadcastInDim S384x1 ![] bcast_S_S384x1 (constantI S_ 32 96#32) (ix2 cc (0 : Fin 1)) = 96#32 := rfl
  rw [e1, e2, sge96, mask]
  by_cases h : 96 ≤ cc.val
  · rw [if_pos h, if_pos h]; norm_num
  · rw [if_neg h, if_neg h]; norm_num

/-- The second weight block is the output matrix with its first 96 rows zeroed. -/
theorem w2_read (c : Dev nD) (cc : Fin 384) (f : Fin 384) :
    (V m c main_v7 : FVec Ideal S384x384 .f32) (ix2 cc f) = a9 m c (ix2 cc f) * mask cc := by
  -- the block is the output matrix times the indicator column spread along the columns
  have e : (V m c main_v7 : S384x384.Idx → EReal)
      = mulf (a9 m c) (broadcastInDim S384x384 ![0, 1] bcast_S384x1_S384x384_0_1
        (uitofp FTy.f32
          (cmpi CmpIPredicate.sge (broadcastInDim S384x1 ![0] bcast_S384_S384x1_0 (iotaInDim S384 32 0))
            (broadcastInDim S384x1 ![] bcast_S_S384x1 (constantI S_ 32 96#32))))) := by
    dsimp only [Gen.V, Gen.hostOps0]; after_results
  -- the spread indicator at (cc, f) is the column's entry at row cc
  have e3 : broadcastInDim S384x384 ![0, 1] bcast_S384x1_S384x384_0_1
        (uitofp (F := Ideal) FTy.f32
          (cmpi CmpIPredicate.sge (broadcastInDim S384x1 ![0] bcast_S384_S384x1_0 (iotaInDim S384 32 0))
            (broadcastInDim S384x1 ![] bcast_S_S384x1 (constantI S_ 32 96#32)))) (ix2 cc f) = mask cc := by
    refine (broadcastInDim_apply _ _ _ _ (ix2 cc (0 : Fin 1)) fun a => ?_).trans (ind_read cc)
    match a with
    | ⟨0, _⟩ => rfl
    | ⟨1, _⟩ => rfl
  rw [e, mulf_apply, e3]

end Cert.Shsa.KHost

end
-- ==== Proof.KBlocks.lean ====
/-
  From grid points to the result array. Point `t` of the kernel's grid writes back the two images `2 t` and
  `2 t + 1` of the layer's first writing; the 32 points' blocks tile the batch, so after the run the result array is the
  first writing on the whole batch, as one function of the fifteen argument arrays.
-/
import proofs.«421979_j14285061226833_3_alg».proof.Proof.Gen.KernelIdeal.Value
import proofs.«421979_j14285061226833_3_alg».proof.Proof.KWin
import proofs.«421979_j14285061226833_3_alg».proof.Proof.KImg
import proofs.«421979_j14285061226833_3_alg».proof.Proof.KHost

noncomputable section

open Idealize.ShloMosaic Idealize.ShloMosaic.ValueIdx Idealize.ShloMosaic.TcCoe Idealize.SL.Sem
open Idealize.ShloMosaic.Pipeline (Dat)

namespace Cert.Shsa.KBlocks

open Cert.KernelIdeal Cert.KernelIdeal.Gen Cert.KernelIdeal.Value Cert.Shsa Cert.Shsa.KArr

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-! ### What the body loads at a point -/

theorem ld_1 (c : Dev nD) (t : Fin cfg0.N) : (View.ld (iblk m c 1 t) r0_0) = (V m c main_arg1 : FVec Ideal S96 .f32) := by
  rw [View.ld_unit_zero (S := S96) hz1, KWin.blk_1]

theorem ld_2 (c : Dev nD) (t : Fin cfg0.N) : (View.ld (iblk m c 2 t) r0_0) = (V m c main_arg2 : FVec Ideal S96 .f32) := by
  rw [View.ld_unit_zero (S := S96) hz1, KWin.blk_2]

theorem ld_3 (c : Dev nD) (t : Fin cfg0.N) : (View.ld (iblk m c 3 t) r0_1) = (V m c main_arg3 : FVec Ideal S96x128 .f32) := by
  rw [View.ld_unit_zero (S := S96x128) hz2, KWin.blk_3]

theorem ld_4 (c : Dev nD) (t : Fin cfg0.N) : (View.ld (iblk m c 4 t) r0_2) = (V m c main_arg4 : FVec Ideal S128 .f32) := by
  rw [View.ld_unit_zero (S := S128) hz1, KWin.blk_4]

theorem ld_5 (c : Dev nD) (t : Fin cfg0.N) : (View.ld (iblk m c 5 t) r0_2) = (V m c main_arg5 : FVec Ideal S128 .f32) := by
  rw [View.ld_unit_zero (S := S128) hz1, KWin.blk_5]

theorem ld_6 (c : Dev nD) (t : Fin cfg0.N) : (View.ld (iblk m c 6 t) r0_2) = (V m c main_arg6 : FVec Ideal S128 .f32) := by
  rw [View.ld_unit_zero (S := S128) hz1, KWin.blk_6]

theorem ld_7 (c : Dev nD) (t : Fin cfg0.N) : (View.ld (iblk m c 7 t) r0_2) = (V m c main_arg7 : FVec Ideal S128 .f32) := by
  rw [View.ld_unit_zero (S := S128) hz1, KWin.blk_7]

theorem ld_8 (c : Dev nD) (t : Fin cfg0.N) : (View.ld (iblk m c 8 t) r0_2) = (V m c main_arg8 : FVec Ideal S128 .f32) := by
  rw [View.ld_unit_zero (S := S128) hz1, KWin.blk_8]

theorem ld_9 (c : Dev nD) (t : Fin cfg0.N) : (View.ld (iblk m c 9 t) r0_3) = (V m c main_v5 : FVec Ideal S96x384 .f32) := by
  rw [View.ld_unit_zero (S := S96x384) hz2, KWin.blk_9]

theorem ld_10 (c : Dev nD) (t : Fin cfg0.N) : (View.ld (iblk m c 10 t) r0_4) = (V m c main_v7 : FVec Ideal S384x384 .f32) := by
  rw [View.ld_unit_zero (S := S384x384) hz2, KWin.blk_10]

theorem ld_11 (c : Dev nD) (t : Fin cfg0.N) : (View.ld (iblk m c 11 t) r0_5) = (V m c main_arg10 : FVec Ideal S384 .f32) := by
  rw [View.ld_unit_zero (S := S384) hz1, KWin.blk_11]

theorem ld_12 (c : Dev nD) (t : Fin cfg0.N) : (View.ld (iblk m c 12 t) r0_5) = (V m c main_arg11 : FVec Ideal S384 .f32) := by
  rw [View.ld_unit_zero (S := S384) hz1, KWin.blk_12]

theorem ld_13 (c : Dev nD) (t : Fin cfg0.N) : (View.ld (iblk m c 13 t) r0_5) = (V m c main_arg12 : FVec Ideal S384 .f32) := by
  rw [View.ld_unit_zero (S := S384) hz1, KWin.blk_13]

theorem ld_14 (c : Dev nD) (t : Fin cfg0.N) : (View.ld (iblk m c 14 t) r0_5) = (V m c main_arg13 : FVec Ideal S384 .f32) := by
  rw [View.ld_unit_zero (S := S384) hz1, KWin.blk_14]

theorem ld_15 (c : Dev nD) (t : Fin cfg0.N) : (View.ld (iblk m c 15 t) r0_5) = (V m c main_arg14 : FVec Ideal S384 .f32) := by
  rw [View.ld_unit_zero (S := S384) hz1, KWin.blk_15]

/-- The first writing of the layer on the whole batch, of the arrays as launched. -/
abbrev G (c : Dev nD) : FVec Ideal S64x32x32x384 .f32 := resultK (a0 m c) (a1 m c) (a2 m c) (a3 m c) (a4 m c) (a5 m c) (a6 m c) (a7 m c) (a8 m c) (a9 m c) (a10 m c) (a11 m c) (a12 m c) (a13 m c) (a14 m c)

/-- One image's computation on the block `xe` that holds image `b = 2 t + e` of the batch gives that image's rows of `G`. -/
theorem img_piece (c : Dev nD) (t : Fin cfg0.N) (e : Fin 2) (xe : Vec Ideal S1x32x32x384 .f32)
    (hxe : ∀ (h w : Fin 32) (cc : Fin 384), xe (ix4 (0 : Fin 1) h w cc) = (iblk m c 0 t : Vec Ideal S2x32x32x384 .f32) (ix4 e h w cc))
    (b : Fin 64) (hb : b.val = 2 * t.val + e.val) (h w : Fin 32) (f : Fin 384) :
    KImg.imgVec (F := Ideal) (k0_pay4 (View.ld (iblk m c 9 t) r0_3)) (k0_pay5 (View.ld (iblk m c 10 t) r0_4)) (View.ld (iblk m c 11 t) r0_5) (k0_pay6 (View.ld (iblk m c 12 t) r0_5) (View.ld (iblk m c 15 t) r0_5)) (View.ld (iblk m c 13 t) r0_5) (View.ld (iblk m c 14 t) r0_5) (View.ld (iblk m c 1 t) r0_0) (View.ld (iblk m c 2 t) r0_0) (k0_pay2 (View.ld (iblk m c 3 t) r0_1)) (View.ld (iblk m c 4 t) r0_2) (k0_pay3 (View.ld (iblk m c 5 t) r0_2) (View.ld (iblk m c 8 t) r0_2)) (View.ld (iblk m c 6 t) r0_2) (View.ld (iblk m c 7 t) r0_2) xe (ix4 (0 : Fin 1) h w f) = G m c (ix4 b h w f) := by
  rw [ld_1 m c t, ld_2 m c t, ld_3 m c t, ld_4 m c t, ld_5 m c t, ld_6 m c t, ld_7 m c t, ld_8 m c t, ld_9 m c t, ld_10 m c t, ld_11 m c t, ld_12 m c t, ld_13 m c t, ld_14 m c t, ld_15 m c t]
  rw [V_main_arg1 m c, V_main_arg2 m c, V_main_arg3 m c, V_main_arg4 m c, V_main_arg5 m c, V_main_arg6 m c, V_main_arg7 m c, V_main_arg8 m c,
    V_main_arg10 m c, V_main_arg11 m c, V_main_arg12 m c, V_main_arg13 m c, V_main_arg14 m c]
  refine (KImg.imgVec_apply (a1 m c) (a2 m c) (a3 m c) (a4 m c) (a5 m c) (a6 m c) (a7 m c) (a8 m c) (a9 m c)
    (V m c main_v5) (V m c main_v7) (a10 m c) (a11 m c) (a12 m c) (a13 m c) (a14 m c) xe h w f).trans ?_
  show _ = outK (params m c) (imgOf (a0 m c) b) (posOf h w) f
  have e0 : blockImg xe = imgOf (a0 m c) b := by
    funext n cc
    show xe (ix4 (0 : Fin 1) (rowOf n) (colOf n) cc) = a0 m c (ix4 b (rowOf n) (colOf n) cc)
    rw [hxe, KWin.blk_0 m c t e (rowOf n) (colOf n) cc b hb, V_main_arg0 m c]
  have e1 : (fun cc f => (V m c main_v5 : FVec Ideal S96x384 .f32) (ix2 cc f)) = pw1 (params m c) :=
    funext fun cc => funext fun f => KHost.w1_read m c cc f
  have e2 : (fun cc f => (V m c main_v7 : FVec Ideal S384x384 .f32) (ix2 cc f)) = pw2 (params m c) :=
    funext fun cc => funext fun f => KHost.w2_read m c cc f
  rw [e0, e1, e2]
  rfl

/-! ### What a point writes back -/

/-- The block of `G` at point `t`: images `2 t` and `2 t + 1`. -/
def Gt (c : Dev nD) (t : Fin cfg0.N) : Vec Ideal S2x32x32x384 .f32 :=
  fun y => G m c (ix4 (⟨2 * t.val + (y 0).val, by have := t.isLt; have h2 : (y 0).val < 2 := (y 0).isLt; have hN : cfg0.N = 32 := N_0; omega⟩ : Fin 64)
    (⟨(y 1).val, (y 1).isLt⟩ : Fin 32) (⟨(y 2).val, (y 2).isLt⟩ : Fin 32) (⟨(y 3).val, (y 3).isLt⟩ : Fin 384))

/-- The first stored piece (the block's image 0) is image `2 t`'s rows of `G`. -/
theorem piece0 (c : Dev nD) (t : Fin cfg0.N) (x : S1x32x32x384.Idx) :
    KImg.imgVec (F := Ideal) (k0_pay4 (View.ld (iblk m c 9 t) r0_3)) (k0_pay5 (View.ld (iblk m c 10 t) r0_4)) (View.ld (iblk m c 11 t) r0_5) (k0_pay6 (View.ld (iblk m c 12 t) r0_5) (View.ld (iblk m c 15 t) r0_5)) (View.ld (iblk m c 13 t) r0_5) (View.ld (iblk m c 14 t) r0_5) (View.ld (iblk m c 1 t) r0_0) (View.ld (iblk m c 2 t) r0_0) (k0_pay2 (View.ld (iblk m c 3 t) r0_1)) (View.ld (iblk m c 4 t) r0_2) (k0_pay3 (View.ld (iblk m c 5 t) r0_2) (View.ld (iblk m c 8 t) r0_2)) (View.ld (iblk m c 6 t) r0_2) (View.ld (iblk m c 7 t) r0_2) (View.ld (iblk m c 0 t) r0_6) x = Gt m c t (r0_6.emb x) := by
  obtain ⟨h, w, f, rfl⟩ : ∃ (h w : Fin 32) (f : Fin 384), x = ix4 (0 : Fin 1) h w f :=
    ⟨x 1, x 2, x 3, by rw [eq_ix4 x]; congr 1; exact Fin.ext (by have h1 : (x 0).val < 1 := (x 0).isLt; show (x 0).val = 0; omega)⟩
  refine (img_piece m c t (0 : Fin 2) _ (fun h w cc => ?_) ⟨2 * t.val + 0, by have := t.isLt; have hN : cfg0.N = 32 := N_0; omega⟩ rfl h w f).trans ?_
  · show (iblk m c 0 t : Vec Ideal S2x32x32x384 .f32) (r0_6.idx (ix4 (0 : Fin 1) h w cc)) = _
    congr 1
    funext a; apply Fin.ext
    match a with
    | ⟨0, _⟩ => rfl
    | ⟨1, _⟩ => show 0 + 1 * h.val = h.val; omega
    | ⟨2, _⟩ => show 0 + 1 * w.val = w.val; omega
    | ⟨3, _⟩ => show 0 + 1 * cc.val = cc.val; omega
  · unfold Gt
    congr 1
    refine congr (congr (congr (congrArg ix4 (Fin.ext ?_)) (Fin.ext ?_)) (Fin.ext ?_)) (Fin.ext ?_)
    · show 2 * t.val + 0 = 2 * t.val + (0 + 1 * 0); omega
    · show h.val = 0 + 1 * h.val; omega
    · show w.val = 0 + 1 * w.val; omega
    · show f.val = 0 + 1 * f.val; omega

/-- The second stored piece (the block's image 1) is image `2 t + 1`'s rows of `G`. -/
theorem piece1 (c : Dev nD) (t : Fin cfg0.N) (x : S1x32x32x384.Idx) :
    KImg.imgVec (F := Ideal) (k0_pay4 (View.ld (iblk m c 9 t) r0_3)) (k0_pay5 (View.ld (iblk m c 10 t) r0_4)) (View.ld (iblk m c 11 t) r0_5) (k0_pay6 (View.ld (iblk m c 12 t) r0_5) (View.ld (iblk m c 15 t) r0_5)) (View.ld (iblk m c 13 t) r0_5) (View.ld (iblk m c 14 t) r0_5) (View.ld (iblk m c 1 t) r0_0) (View.ld (iblk m c 2 t) r0_0) (k0_pay2 (View.ld (iblk m c 3 t) r0_1)) (View.ld (iblk m c 4 t) r0_2) (k0_pay3 (View.ld (iblk m c 5 t) r0_2) (View.ld (iblk m c 8 t) r0_2)) (View.ld (iblk m c 6 t) r0_2) (View.ld (iblk m c 7 t) r0_2) (View.ld (iblk m c 0 t) r0_7) x = Gt m c t (r0_7.emb x) := by
  obtain ⟨h, w, f, rfl⟩ : ∃ (h w : Fin 32) (f : Fin 384), x = ix4 (0 : Fin 1) h w f :=
    ⟨x 1, x 2, x 3, by rw [eq_ix4 x]; congr 1; exact Fin.ext (by have h1 : (x 0).val < 1 := (x 0).isLt; show (x 0).val = 0; omega)⟩
  refine (img_piece m c t (1 : Fin 2) _ (fun h w cc => ?_) ⟨2 * t.val + 1, by have := t.isLt; have hN : cfg0.N = 32 := N_0; omega⟩ rfl h w f).trans ?_
  · show (iblk m c 0 t : Vec Ideal S2x32x32x384 .f32) (r0_7.idx (ix4 (0 : Fin 1) h w cc)) = _
    congr 1
    funext a; apply Fin.ext
    match a with
    | ⟨0, _⟩ => rfl
    | ⟨1, _⟩ => show 0 + 1 * h.val = h.val; omega
    | ⟨2, _⟩ => show 0 + 1 * w.val = w.val; omega
    | ⟨3, _⟩ => show 0 + 1 * cc.val = cc.val; omega
  · unfold Gt
    congr 1
    refine congr (congr (congr (congrArg ix4 (Fin.ext ?_)) (Fin.ext ?_)) (Fin.ext ?_)) (Fin.ext ?_)
    · show 2 * t.val + 1 = 2 * t.val + (1 + 1 * 0); omega
    · show h.val = 0 + 1 * h.val; omega
    · show w.val = 0 + 1 * w.val; omega
    · show f.val = 0 + 1 * f.val; omega

/-- WHAT POINT `t` WRITES BACK is block `t` of `G`: its two stored pieces are images `2 t` and `2 t + 1`. -/
theorem flushed16_eq (c : Dev nD) (t : Fin cfg0.N) :
    (dats m 0 c).flushed 16 t = ((cfg0.win 16).blk t).view.read (Elt Ideal) (G m c) := by
  rw [flushed16]
  funext y
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = G m c (((cfg0.win 16).blk t).view.emb y)
  unfold out0_16
  refine (View.canon_apply_of_pieces (Gt m c t) _ ?_ y (cover0_16 _ _ y)).trans ?_
  · intro p hp x
    rcases List.mem_cons.mp hp with rfl | hp
    · exact (congrFun (KImg.second_image (F := Ideal) (k0_pay4 (View.ld (iblk m c 9 t) r0_3)) (k0_pay5 (View.ld (iblk m c 10 t) r0_4)) (View.ld (iblk m c 11 t) r0_5) (k0_pay6 (View.ld (iblk m c 12 t) r0_5) (View.ld (iblk m c 15 t) r0_5)) (View.ld (iblk m c 13 t) r0_5) (View.ld (iblk m c 14 t) r0_5) (View.ld (iblk m c 1 t) r0_0) (View.ld (iblk m c 2 t) r0_0) (k0_pay2 (View.ld (iblk m c 3 t) r0_1)) (View.ld (iblk m c 4 t) r0_2) (k0_pay3 (View.ld (iblk m c 5 t) r0_2) (View.ld (iblk m c 8 t) r0_2)) (View.ld (iblk m c 6 t) r0_2) (View.ld (iblk m c 7 t) r0_2) (View.ld (iblk m c 0 t) r0_7)) x).trans (piece1 m c t x)
    · rcases List.mem_cons.mp hp with rfl | hp
      · exact piece0 m c t x
      · exact absurd hp List.not_mem_nil
  · unfold Gt
    congr 1
    funext a; apply Fin.ext
    match a with
    | ⟨0, _⟩ => show 2 * t.val + (y 0).val = win0_16.index t (0 : Fin 4) * 2 + 1 * (y 0).val; rw [(KWin.idx_16 t).1]; omega
    | ⟨1, _⟩ => show (y 1).val = win0_16.index t (1 : Fin 4) * 32 + 1 * (y 1).val; rw [(KWin.idx_16 t).2.1]; omega
    | ⟨2, _⟩ => show (y 2).val = win0_16.index t (2 : Fin 4) * 32 + 1 * (y 2).val; rw [(KWin.idx_16 t).2.2.1]; omega
    | ⟨3, _⟩ => show (y 3).val = win0_16.index t (3 : Fin 4) * 384 + 1 * (y 3).val; rw [(KWin.idx_16 t).2.2.2]; omega

/-! ### The blocks tile the batch -/

/-- An index of the result array is in point `t`'s block iff each coordinate is in the block's range on its axis. -/
theorem mem_blk16 (t : Fin cfg0.N) (i : S64x32x32x384.Idx) :
    i ∈ ((cfg0.win 16).blk t).view.set ↔ ∀ a : Fin 4, win0_16.index t a * S2x32x32x384.size a ≤ (i a).val
      ∧ (i a).val < win0_16.index t a * S2x32x32x384.size a + S2x32x32x384.size a := by
  show i ∈ ((View.whole main_v8).slice (win0_16.rect t)).set ↔ _
  rw [View.set_slice_whole, Rect.mem_set_unit]
  exact Iff.rfl

/-- Image `b` lies in the block of point `b / 2`. -/
theorem cover16 (i : S64x32x32x384.Idx) :
    ∃ t : Fin cfg0.N, (cfg0.win 16).flush t = true ∧ i ∈ ((cfg0.win 16).blk t).view.set := by
  have hN : cfg0.N = 32 := N_0
  have h0 : (i 0).val < 64 := (i 0).isLt
  have h1 : (i 1).val < 32 := (i 1).isLt
  have h2 : (i 2).val < 32 := (i 2).isLt
  have h3 : (i 3).val < 384 := (i 3).isLt
  refine ⟨⟨(i 0).val / 2, by omega⟩, flush0_16 _, ?_⟩
  rw [mem_blk16]
  intro a
  match a with
  | ⟨0, _⟩ =>
    show win0_16.index ⟨(i 0).val / 2, _⟩ (0 : Fin 4) * 2 ≤ (i 0).val ∧ (i 0).val < win0_16.index ⟨(i 0).val / 2, _⟩ (0 : Fin 4) * 2 + 2
    rw [(KWin.idx_16 _).1]; show (i 0).val / 2 * 2 ≤ (i 0).val ∧ (i 0).val < (i 0).val / 2 * 2 + 2; omega
  | ⟨1, _⟩ =>
    show win0_16.index ⟨(i 0).val / 2, _⟩ (1 : Fin 4) * 32 ≤ (i 1).val ∧ (i 1).val < win0_16.index ⟨(i 0).val / 2, _⟩ (1 : Fin 4) * 32 + 32
    rw [(KWin.idx_16 _).2.1]; omega
  | ⟨2, _⟩ =>
    show win0_16.index ⟨(i 0).val / 2, _⟩ (2 : Fin 4) * 32 ≤ (i 2).val ∧ (i 2).val < win0_16.index ⟨(i 0).val / 2, _⟩ (2 : Fin 4) * 32 + 32
    rw [(KWin.idx_16 _).2.2.1]; omega
  | ⟨3, _⟩ =>
    show win0_16.index ⟨(i 0).val / 2, _⟩ (3 : Fin 4) * 384 ≤ (i 3).val ∧ (i 3).val < win0_16.index ⟨(i 0).val / 2, _⟩ (3 : Fin 4) * 384 + 384
    rw [(KWin.idx_16 _).2.2.2]; omega

/-- THE RESULT ARRAY after the run is the first writing of the layer on the whole batch. -/
theorem final16 (c : Dev nD) : (dats m 0 c).arrAt 16 cfg0.N = G m c :=
  (dats m 0 c).arrAt_eq_of_cover 16 (G m c) (fun t _ => flushed16_eq m c t) cover16

/-! ### The run, read -/

/-- Every weakly fair execution of the kernel's program ends with the result array at the first writing of the layer on
    the batch and the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final16 m c), (h c).2⟩) (run_blocks m ρ)

end Cert.Shsa.KBlocks

end
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«421979_j14285061226833_3_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefAfter.lean ====
/-
  The reference's run read back without opening its fold: the reference is a straight line of 97 host operations in
  which every operation writes a buffer of its own, so after the whole line each buffer holds its operation's function
  of its operand buffers' final contents, and the result buffer holds the stages' composition of the argument arrays.

  The buffers are ranked by their place in the buffer table: the fifteen argument arrays come first and operation
  number p writes buffer 15 + p, reading only buffers before it. So no operation writes a buffer an earlier one reads
  or writes, the arguments keep their contents, and the buffers are read one after the other in program order, each
  from the ones before it.
-/
import proofs.«421979_j14285061226833_3_alg».proof.Proof.RefRead
import proofs.«421979_j14285061226833_3_alg».proof.Proof.LibHostRank

noncomputable section

namespace Cert.Shsa.RefAfter

open Idealize.ShloMosaic Idealize.ShloMosaic.TcCoe Idealize.SL.Sem Idealize.ShloMosaic.StableHlo Cert.ReferenceIdeal Cert.ReferenceIdeal.Gen Cert.HostRead

/-! ### Ranking a line one operation at a time

A line that begins with a constant, a one-operand operation, a reshape or a two-operand operation is ranked from `n`
as soon as the operation's result has rank `n`, its operands have rank at most `n`, and the rest of the line is ranked
from `n + 1`. -/

section RankOne

variable {τ' : Topo} {sig' : RefSig} {Val : EltTy → Type} {rk : DevRef τ' sig' → Nat} {n : Nat}
  {l : List (HloOp τ' sig' Val)}

/-- A constant at the head of the line. -/
theorem ranked_nullary {y : Ref sig' .tc} {v : y.ty.Contents Val} {hy}
    (ry : rk (Proc.devRef (τ := τ') .tc y) = n) (hl : Ranked rk (n + 1) l) :
    Ranked rk n (nullary (τ := τ') y v hy :: l) := by
  refine ⟨fun b hb => ?_, fun b hb => ?_, hl⟩
  · rw [nullary_writes] at hb; rw [Finset.mem_singleton.mp hb]; exact ry
  · rw [nullary_bufs] at hb; rw [Finset.mem_singleton.mp hb]; exact ry.le

/-- An operation of one operand at the head of the line. -/
theorem ranked_unary {x y : Ref sig' .tc} {f : x.ty.Contents Val → y.ty.Contents Val} {hx hy}
    (ry : rk (Proc.devRef (τ := τ') .tc y) = n) (rx : rk (Proc.devRef (τ := τ') .tc x) ≤ n)
    (hl : Ranked rk (n + 1) l) : Ranked rk n (unary (τ := τ') x y f hx hy :: l) := by
  refine ⟨fun b hb => ?_, fun b hb => ?_, hl⟩
  · rw [unary_writes] at hb; rw [Finset.mem_singleton.mp hb]; exact ry
  · rw [unary_bufs] at hb
    rcases Finset.mem_insert.mp hb with rfl | hb
    · exact rx
    · rw [Finset.mem_singleton.mp hb]; exact ry.le

/-- A reshape at the head of the line. -/
theorem ranked_reshape {x y : Ref sig' .tc} {he hn hx hy}
    (ry : rk (Proc.devRef (τ := τ') .tc y) = n) (rx : rk (Proc.devRef (τ := τ') .tc x) ≤ n)
    (hl : Ranked rk (n + 1) l) : Ranked rk n (reshape (τ := τ') (Val := Val) x y he hn hx hy :: l) := by
  refine ⟨fun b hb => ?_, fun b hb => ?_, hl⟩
  · rw [reshape_writes] at hb; rw [Finset.mem_singleton.mp hb]; exact ry
  · rw [reshape_bufs] at hb
    rcases Finset.mem_insert.mp hb with rfl | hb
    · exact rx
    · rw [Finset.mem_singleton.mp hb]; exact ry.le

/-- An operation of two operands at the head of the line. -/
theorem ranked_binary {a b y : Ref sig' .tc} {f : a.ty.Contents Val → b.ty.Contents Val → y.ty.Contents Val} {ha hb hy}
    (ry : rk (Proc.devRef (τ := τ') .tc y) = n) (ra : rk (Proc.devRef (τ := τ') .tc a) ≤ n)
    (rb : rk (Proc.devRef (τ := τ') .tc b) ≤ n) (hl : Ranked rk (n + 1) l) :
    Ranked rk n (binary (τ := τ') a b y f ha hb hy :: l) := by
  refine ⟨fun c hc => ?_, fun c hc => ?_, hl⟩
  · rw [binary_writes] at hc; rw [Finset.mem_singleton.mp hc]; exact ry
  · rw [binary_bufs] at hc
    rcases Finset.mem_insert.mp hc with rfl | hc
    · exact ra
    rcases Finset.mem_insert.mp hc with rfl | hc
    · exact rb
    · rw [Finset.mem_singleton.mp hc]; exact ry.le

end RankOne

variable {F : FTy → Type} [FloatOps F]

/-! ### The reference's line is ranked by the buffers' place in the buffer table

The fifteen argument arrays are buffers 0 to 14 and operation number `p` writes buffer `15 + p`, reading only buffers
before it. -/

/-- A buffer's rank: its place in the buffer table. -/
abbrev bufRank : DevRef τ sig → Nat := fun b => b.idx.val

set_option maxRecDepth 8192 in
/-- Operation by operation: the result sits at the next place of the table and the operands before it. -/
theorem ops_ranked : Ranked bufRank 15 (Cert.ReferenceIdeal.ValueP.ops (F := F)) := by
  refine ranked_unary (by rfl) (by decide) ?_
  refine ranked_unary (by rfl) (by decide) ?_
  refine ranked_nullary (by rfl) ?_
  refine ranked_binary (by rfl) (by decide) (by decide) ?_
  refine ranked_unary (by rfl) (by decide) ?_
  refine ranked_nullary (by rfl) ?_
  refine ranked_unary (by rfl) (by decide) ?_
  refine ranked_binary (by rfl) (by decide) (by decide) ?_
  refine ranked_unary (by rfl) (by decide) ?_
  refine ranked_binary (by rfl) (by decide) (by decide) ?_
  refine ranked_binary (by rfl) (by decide) (by decide) ?_
  refine ranked_nullary (by rfl) ?_
  refine ranked_binary (by rfl) (by decide) (by decide) ?_
  refine ranked_unary (by rfl) (by decide) ?_
  refine ranked_nullary (by rfl) ?_
  refine ranked_unary (by rfl) (by decide) ?_
  refine ranked_binary (by rfl) (by decide) (by decide) ?_
  refine ranked_unary (by rfl) (by decide) ?_
  refine ranked_binary (by rfl) (by decide) (by decide) ?_
  refine ranked_nullary (by rfl) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_nullary (by rfl) ?_
  refine ranked_unary (by rfl) (by decide) ?_
  refine ranked_binary (by rfl) (by decide) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_reshape (by rfl) (by decide) ?_
  refine ranked_unary (by rfl) (by decide) ?_
  refine ranked_reshape (by rfl) (by decide) ?_
  refine ranked_unary (by rfl) (by decide) ?_
  refine ranked_reshape (by rfl) (by decide) ?_
  refine ranked_binary (by rfl) (by decide) (by decide) ?_
  refine ranked_nullary (by rfl) ?_
  refine ranked_unary (by rfl) (by decide) ?_
  refine ranked_binary (by rfl) (by decide) (by decide) ?_
  refine ranked_nullary (by rfl) ?_
  refine ranked_binary (by rfl) (by decide) (by decide) ?_
  refine ranked_nullary (by rfl) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_nullary (by rfl) ?_
  refine ranked_binary (by rfl) (by decide) (by decide) ?_
  refine ranked_unary (by rfl) (by decide) ?_
  refine ranked_unary (by rfl) (by decide) ?_
  refine ranked_binary (by rfl) (by decide) (by decide) ?_
  refine ranked_binary (by rfl) (by decide) (by decide) ?_
  refine ranked_reshape (by rfl) (by decide) ?_
  refine ranked_binary (by rfl) (by decide) (by decide) ?_
  refine ranked_nullary (by rfl) ?_
  refine ranked_unary (by rfl) (by decide) ?_
  refine ranked_binary (by rfl) (by decide) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_nullary (by rfl) ?_
  refine ranked_unary (by rfl) (by decide) ?_
  refine ranked_binary (by rfl) (by decide) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  refine ranked_unary (by rfl) (by decide) ?_
  refine ranked_unary (by rfl) (by decide) ?_
  refine ranked_binary (by rfl) (by decide) (by decide) ?_
  exact trivial

/-- No operation of the reference writes a buffer an earlier one reads or writes. -/
theorem ops_fresh : Fresh (Cert.ReferenceIdeal.ValueP.ops (F := F)) := Ranked.fresh bufRank 15 _ ops_ranked

/-- The line has 97 operations. -/
theorem lt_ops_length {p : Nat} (h : p < 97) : p < (Cert.ReferenceIdeal.ValueP.ops (F := F)).length := h

/-- An argument array is written by no operation: it keeps its contents. -/
theorem after_arg (V : Valuation τ sig (Elt F)) (b : Ref sig .tc) (h : bufRank (Proc.devRef (τ := τ) .tc b) < 15) :
    after (Cert.ReferenceIdeal.ValueP.ops (F := F)) V (Proc.devRef .tc b) = V (Proc.devRef .tc b) :=
  Ranked.after_of_lt bufRank 15 _ ops_ranked V _ h

/-- Operation 0 writes `main_v0`, a function of `main_arg0`: after the line the buffer holds its stage. -/
theorem after_v0 (V : Valuation τ sig (Elt F)) :
    after (Cert.ReferenceIdeal.ValueP.ops (F := F)) V (Proc.devRef .tc main_v0)
      = Cert.ReferenceIdeal.ReadP.val_main_v0 (F := F) (V (Proc.devRef .tc main_arg0)) := by
  have hop : (Cert.ReferenceIdeal.ValueP.ops (F := F))[0]'(lt_ops_length (by decide)) = unary main_arg0 main_v0 ((extractStridedSlice S64x32x32x96 ![0, 0, 0, 0] · slices_S64x32x32x384_S64x32x32x96_0_0_0_0) : (⟨S64x32x32x384, .f32⟩ : BufTy).Contents (Elt F) → (⟨S64x32x32x96, .f32⟩ : BufTy).Contents (Elt F)) := rfl
  rw [read_unary (x := main_arg0) (y := main_v0) ops_fresh 0 (hp := lt_ops_length (by decide)) (hop := hop), after_arg V main_arg0 (by decide)]
  rfl

/-- Operation 1 writes `main_v1`, a function of `main_arg0`: after the line the buffer holds its stage. -/
theorem after_v1 (V : Valuation τ sig (Elt F)) :
    after (Cert.ReferenceIdeal.ValueP.ops (F := F)) V (Proc.devRef .tc main_v1)
      = Cert.ReferenceIdeal.ReadP.val_main_v1 (F := F) (V (Proc.devRef .tc main_arg0)) := by
  have hop : (Cert.ReferenceIdeal.ValueP.ops (F := F))[1]'(lt_ops_length (by decide)) = unary main_arg0 main_v1 ((extractStridedSlice S64x32x32x288 ![0, 0, 0, 96] · slices_S64x32x32x384_S64x32x32x288_0_0_0_96) : (⟨S64x32x32x384, .f32⟩ : BufTy).Contents (Elt F) → (⟨S64x32x32x288, .f32⟩ : BufTy).Contents (Elt F)) := rfl
  rw [read_unary (x := main_arg0) (y := main_v1) ops_fresh 1 (hp := lt_ops_length (by decide)) (hop := hop), after_arg V main_arg0 (by decide)]
  rfl

/-- Operation 2 writes `main_cst`, a constant: after the line the buffer holds its stage. -/
theorem after_cst (V : Valuation τ sig (Elt F)) :
    after (Cert.ReferenceIdeal.ValueP.ops (F := F)) V (Proc.devRef .tc main_cst)
      = Cert.ReferenceIdeal.ReadP.val_main_cst (F := F) := by
  have hop : (Cert.ReferenceIdeal.ValueP.ops (F := F))[2]'(lt_ops_length (by decide)) = nullary main_cst (constant S_ .f32 0x00000000#32) := rfl
  exact (read_nullary (y := main_cst) ops_fresh 2 (hp := lt_ops_length (by decide)) (hop := hop)).trans rfl

/-- Operation 3 writes `main_v2`, a function of `main_v0` and `main_cst`: after the line the buffer holds its stage. -/
theorem after_v2 (V : Valuation τ sig (Elt F)) :
    after (Cert.ReferenceIdeal.ValueP.ops (F := F)) V (Proc.devRef .tc main_v2)
      = Cert.ReferenceIdeal.ReadP.val_main_v2 (F := F) (V (Proc.devRef .tc main_arg0)) := by
  have hop : (Cert.ReferenceIdeal.ValueP.ops (F := F))[3]'(lt_ops_length (by decide)) = binary main_v0 main_cst main_v2 ((fun x v => Host.reduceAdd x v reducesTo_S64x32x32x96_S64x32x32_d3 h_S_) : (⟨S64x32x32x96, .f32⟩ : BufTy).Contents (Elt F) → (⟨S_, .f32⟩ : BufTy).Contents (Elt F) → (⟨S64x32x32, .f32⟩ : BufTy).Contents (Elt F)) := rfl
  rw [read_binary (a := main_v0) (b := main_cst) (y := main_v2) ops_fresh 3 (hp := lt_ops_length (by decide)) (hop := hop), after_v0 V, after_cst V]
  rfl

/-- Operation 4 writes `main_v3`, a function of `main_v2`: after the line the buffer holds its stage. -/
theorem after_v3 (V : Valuation τ sig (Elt F)) :
    after (Cert.ReferenceIdeal.ValueP.ops (F := F)) V (Proc.devRef .tc main_v3)
      = Cert.ReferenceIdeal.ReadP.val_main_v3 (F := F) (V (Proc.devRef .tc main_arg0)) := by
  have hop : (Cert.ReferenceIdeal.ValueP.ops (F := F))[4]'(lt_ops_length (by decide)) = unary main_v2 main_v3 (broadcastInDim S64x32x32x1 ![0, 1, 2] bcast_S64x32x32_S64x32x32x1_0_1_2 : (⟨S64x32x32, .f32⟩ : BufTy).Contents (Elt F) → (⟨S64x32x32x1, .f32⟩ : BufTy).Contents (Elt F)) := rfl
  rw [read_unary (x := main_v2) (y := main_v3) ops_fresh 4 (hp := lt_ops_length (by decide)) (hop := hop), after_v2 V]
  rfl

/-- Operation 5 writes `main_cst_0`, a constant: after the line the buffer holds its stage. -/
theorem after_cst_0 (V : Valuation τ sig (Elt F)) :
    after (Cert.ReferenceIdeal.ValueP.ops (F := F)) V (Proc.devRef .tc main_cst_0)
      = Cert.ReferenceIdeal.ReadP.val_main_cst_0 (F := F) := by
  have hop : (Cert.ReferenceIdeal.ValueP.ops (F := F))[5]'(lt_ops_length (by decide)) = nullary main_cst_0 (constant S_ .f32 0x42C00000#32) := rfl
  exact (read_nullary (y := main_cst_0) ops_fresh 5 (hp := lt_ops_length (by decide)) (hop := hop)).trans rfl

/-- Operation 6 writes `main_v4`, a function of `main_cst_0`: after the line the buffer holds its stage. -/
theorem after_v4 (V : Valuation τ sig (Elt F)) :
    after (Cert.ReferenceIdeal.ValueP.ops (F := F)) V (Proc.devRef .tc main_v4)
      = Cert.ReferenceIdeal.ReadP.val_main_v4 (F := F) := by
  have hop : (Cert.ReferenceIdeal.ValueP.ops (F := F))[6]'(lt_ops_length (by decide)) = unary main_cst_0 main_v4 (broadcastInDim S64x32x32x1 ![] bcast_S_S64x32x32x1 : (⟨S_, .f32⟩ : BufTy).Contents (Elt F) → (⟨S64x32x32x1, .f32⟩ : BufTy).Contents (Elt F)) := rfl
  rw [read_unary (x := main_cst_0) (y := main_v4) ops_fresh 6 (hp := lt_ops_length (by decide)) (hop := hop), after_cst_0 V]
  rfl

/-- Operation 7 writes `main_v5`, a function of `main_v3` and `main_v4`: after the line the buffer holds its stage. -/
theorem after_v5 (V : Valuation τ sig (Elt F)) :
    after (Cert.ReferenceIdeal.ValueP.ops (F := F)) V (Proc.devRef .tc main_v5)
      = Cert.ReferenceIdeal.ReadP.val_main_v5 (F := F) (V (Proc.devRef .tc main_arg0)) := by
  have hop : (Cert.ReferenceIdeal.ValueP.ops (F := F))[7]'(lt_ops_length (by decide)) = binary main_v3 main_v4 main_v5 (Host.divf : (⟨S64x32x32x1, .f32⟩ : BufTy).Contents (Elt F) → (⟨S64x32x32x1, .f32⟩ : BufTy).Contents (Elt F) → (⟨S64x32x32x1, .f32⟩ : BufTy).Contents (Elt F)) := rfl
  rw [read_binary (a := main_v3) (b := main_v4) (y := main_v5) ops_fresh 7 (hp := lt_ops_length (by decide)) (hop := hop), after_v3 V, after_v4 V]
  rfl

/-- Operation 8 writes `main_v6`, a function of `main_v5`: after the line the buffer holds its stage. -/
theorem after_v6 (V : Valuation τ sig (Elt F)) :
    after (Cert.ReferenceIdeal.ValueP.ops (F := F)) V (Proc.devRef .tc main_v6)
      = Cert.ReferenceIdeal.ReadP.val_main_v6 (F := F) (V (Proc.devRef .tc main_arg0)) := by
  have hop : (Cert.ReferenceIdeal.ValueP.ops (F := F))[8]'(lt_ops_length (by decide)) = unary main_v5 main_v6 (broadcastInDim S64x32x32x96 ![0, 1, 2, 3] bcast_S64x32x32x1_S64x32x32x96_0_1_2_3 : (⟨S64x32x32x1, .f32⟩ : BufTy).Contents (Elt F) → (⟨S64x32x32x96, .f32⟩ : BufTy).Contents (Elt F)) := rfl
  rw [read_unary (x := main_v5) (y := main_v6) ops_fresh 8 (hp := lt_ops_length (by decide)) (hop := hop), after_v5 V]
  rfl

/-- Operation 9 writes `main_v7`, a function of `main_v0` and `main_v6`: after the line the buffer holds its stage. -/
theorem after_v7 (V : Valuation τ sig (Elt F)) :
    after (Cert.ReferenceIdeal.ValueP.ops (F := F)) V (Proc.devRef .tc main_v7)
      = Cert.ReferenceIdeal.ReadP.val_main_v7 (F := F) (V (Proc.devRef .tc main_arg0)) := by
  have hop : (Cert.ReferenceIdeal.ValueP.ops (F := F))[9]'(lt_ops_length (by decide)) = binary main_v0 main_v6 main_v7 (subf : (⟨S64x32x32x96, .f32⟩ : BufTy).Contents (Elt F) → (⟨S64x32x32x96, .f32⟩ : BufTy).Contents (Elt F) → (⟨S64x32x32x96, .f32⟩ : BufTy).Contents (Elt F)) := rfl
  rw [read_binary (a := main_v0) (b := main_v6) (y := main_v7) ops_fresh 9 (hp := lt_ops_length (by decide)) (hop := hop), after_v0 V, after_v6 V]
  rfl

/-- Operation 10 writes `main_v8`, a function of `main_v7` taken twice: after the line the buffer holds its stage. -/
theorem after_v8 (V : Valuation τ sig (Elt F)) :
    after (Cert.ReferenceIdeal.ValueP.ops (F := F)) V (Proc.devRef .tc main_v8)
      = Cert.ReferenceIdeal.ReadP.val_main_v8 (F := F) (V (Proc.devRef .tc main_arg0)) := by
  have hop : (Cert.ReferenceIdeal.ValueP.ops (F := F))[10]'(lt_ops_length (by decide)) = binary main_v7 main_v7 main_v8 (mulf : (⟨S64x32x32x96, .f32⟩ : BufTy).Contents (Elt F) → (⟨S64x32x32x96, .f32⟩ : BufTy).Contents (Elt F) → (⟨S64x32x32x96, .f32⟩ : BufTy).Contents (Elt F)) := rfl
  rw [read_binary (a := main_v7) (b := main_v7) (y := main_v8) ops_fresh 10 (hp := lt_ops_length (by decide)) (hop := hop), after_v7 V]
  rfl

/-- Operation 11 writes `main_cst_1`, a constant: after the line the buffer holds its stage. -/
theorem after_cst_1 (V : Valuation τ sig (Elt F)) :
    after (Cert.ReferenceIdeal.ValueP.ops (F := F)) V (Proc.devRef .tc main_cst_1)
      = Cert.ReferenceIdeal.ReadP.val_main_cst_1 (F := F) := by
  have hop : (Cert.ReferenceIdeal.ValueP.ops (F := F))[11]'(lt_ops_length (by decide)) = nullary main_cst_1 (constant S_ .f32 0x00000000#32) := rfl
  exact (read_nullary (y := main_cst_1) ops_fresh 11 (hp := lt_ops_length (by decide)) (hop := hop)).trans rfl

/-- Operation 12 writes `main_v9`, a function of `main_v8` and `main_cst_1`: after the line the buffer holds its stage. -/
theorem after_v9 (V : Valuation τ sig (Elt F)) :
    after (Cert.ReferenceIdeal.ValueP.ops (F := F)) V (Proc.devRef .tc main_v9)
      = Cert.ReferenceIdeal.ReadP.val_main_v9 (F := F) (V (Proc.devRef .tc main_arg0)) := by
  have hop : (Cert.ReferenceIdeal.ValueP.ops (F := F))[12]'(lt_ops_length (by decide)) = binary main_v8 main_cst_1 main_v9 ((fun x v => Host.reduceAdd x v reducesTo_S64x32x32x96_S64x32x32_d3 h_S_) : (⟨S64x32x32x96, .f32⟩ : BufTy).Contents (Elt F) → (⟨S_, .f32⟩ : BufTy).Contents (Elt F) → (⟨S64x32x32, .f32⟩ : BufTy).Contents (Elt F)) := rfl
  rw [read_binary (a := main_v8) (b := main_cst_1) (y := main_v9) ops_fresh 12 (hp := lt_ops_length (by decide)) (hop := hop), after_v8 V, after_cst_1 V]
  rfl

/-- Operation 13 writes `main_v10`, a function of `main_v9`: after the line the buffer holds its stage. -/
theorem after_v10 (V : Valuation τ sig (Elt F)) :
    after (Cert.ReferenceIdeal.ValueP.ops (F := F)) V (Proc.devRef .tc main_v10)
      = Cert.ReferenceIdeal.ReadP.val_main_v10 (F := F) (V (Proc.devRef .tc main_arg0)) := by
  have hop : (Cert.ReferenceIdeal.ValueP.ops (F := F))[13]'(lt_ops_length (by decide)) = unary main_v9 main_v10 (broadcastInDim S64x32x32x1 ![0, 1, 2] bcast_S64x32x32_S64x32x32x1_0_1_2 : (⟨S64x32x32, .f32⟩ : BufTy).Contents (Elt F) → (⟨S64x32x32x1, .f32⟩ : BufTy).Contents (Elt F)) := rfl
  rw [read_unary (x := main_v9) (y := main_v10) ops_fresh 13 (hp := lt_ops_length (by decide)) (hop := hop), after_v9 V]
  rfl

/-- Operation 14 writes `main_cst_2`, a constant: after the line the buffer holds its stage. -/
theorem after_cst_2 (V : Valuation τ sig (Elt F)) :
    after (Cert.ReferenceIdeal.ValueP.ops (F := F)) V (Proc.devRef .tc main_cst_2)
      = Cert.ReferenceIdeal.ReadP.val_main_cst_2 (F := F) := by
  have hop : (Cert.ReferenceIdeal.ValueP.ops (F := F))[14]'(lt_ops_length (by decide)) = nullary main_cst_2 (constant S_ .f32 0x42C00000#32) := rfl
  exact (read_nullary (y := main_cst_2) ops_fresh 14 (hp := lt_ops_length (by decide)) (hop := hop)).trans rfl

/-- Operation 15 writes `main_v11`, a function of `main_cst_2`: after the line the buffer holds its stage. -/
theorem after_v11 (V : Valuation τ sig (Elt F)) :
    after (Cert.ReferenceIdeal.ValueP.ops (F := F)) V (Proc.devRef .tc main_v11)
      = Cert.ReferenceIdeal.ReadP.val_main_v11 (F := F) := by
  have hop : (Cert.ReferenceIdeal.ValueP.ops (F := F))[15]'(lt_ops_length (by decide)) = unary main_cst_2 main_v11 (broadcastInDim S64x32x32x1 ![] bcast_S_S64x32x32x1 : (⟨S_, .f32⟩ : BufTy).Contents (Elt F) → (⟨S64x32x32x1, .f32⟩ : BufTy).Contents (Elt F)) := rfl
  rw [read_unary (x := main_cst_2) (y := main_v11) ops_fresh 15 (hp := lt_ops_length (by decide)) (hop := hop), after_cst_2 V]
  rfl

/-- Operation 16 writes `main_v12`, a function of `main_v10` and `main_v11`: after the line the buffer holds its stage. -/
theorem after_v12 (V : Valuation τ sig (Elt F)) :
    after (Cert.ReferenceIdeal.ValueP.ops (F := F)) V (Proc.devRef .tc main_v12)
      = Cert.ReferenceIdeal.ReadP.val_main_v12 (F := F) (V (Proc.devRef .tc main_arg0)) := by
  have hop : (Cert.ReferenceIdeal.ValueP.ops (F := F))[16]'(lt_ops_length (by decide)) = binary main_v10 main_v11 main_v12 (Host.divf : (⟨S64x32x32x1, .f32⟩ : BufTy).Contents (Elt F) → (⟨S64x32x32x1, .f32⟩ : BufTy).Contents (Elt F) → (⟨S64x32x32x1, .f32⟩ : BufTy).Contents (Elt F)) := rfl
  rw [read_binary (a := main_v10) (b := main_v11) (y := main_v12) ops_fresh 16 (hp := lt_ops_length (by decide)) (hop := hop), after_v10 V, after_v11 V]
  rfl

/-- Operation 17 writes `main_v13`, a function of `main_v5`: after the line the buffer holds its stage. -/
theorem after_v13 (V : Valuation τ sig (Elt F)) :
    after (Cert.ReferenceIdeal.ValueP.ops (F := F)) V (Proc.devRef .tc main_v13)
      = Cert.ReferenceIdeal.ReadP.val_main_v13 (F := F) (V (Proc.devRef .tc main_arg0)) := by
  have hop : (Cert.ReferenceIdeal.ValueP.ops (F := F))[17]'(lt_ops_length (by decide)) = unary main_v5 main_v13 (broadcastInDim S64x32x32x96 ![0, 1, 2, 3] bcast_S64x32x32x1_S64x32x32x96_0_1_2_3 : (⟨S64x32x32x1, .f32⟩ : BufTy).Contents (Elt F) → (⟨S64x32x32x96, .f32⟩ : BufTy).Contents (Elt F)) := rfl
  rw [read_unary (x := main_v5) (y := main_v13) ops_fresh 17 (hp := lt_ops_length (by decide)) (hop := hop), after_v5 V]
  rfl

/-- Operation 18 writes `main_v14`, a function of `main_v0` and `main_v13`: after the line the buffer holds its stage. -/
theorem after_v14 (V : Valuation τ sig (Elt F)) :
    after (Cert.ReferenceIdeal.ValueP.ops (F := F)) V (Proc.devRef .tc main_v14)
      = Cert.ReferenceIdeal.ReadP.val_main_v14 (F := F) (V (Proc.devRef .tc main_arg0)) := by
  have hop : (Cert.ReferenceIdeal.ValueP.ops (F := F))[18]'(lt_ops_length (by decide)) = binary main_v0 main_v13 main_v14 (subf : (⟨S64x32x32x96, .f32⟩ : BufTy).Contents (Elt F) → (⟨S64x32x32x96, .f32⟩ : BufTy).Contents (Elt F) → (⟨S64x32x32x96, .f32⟩ : BufTy).Contents (Elt F)) := rfl
  rw [read_binary (a := main_v0) (b := main_v13) (y := main_v14) ops_fresh 18 (hp := lt_ops_length (by decide)) (hop := hop), after_v0 V, after_v13 V]
  rfl

/-- Operation 19 writes `main_cst_3`, a constant: after the line the buffer holds its stage. -/
theorem after_cst_3 (V : Valuation τ sig (Elt F)) :
    after (Cert.ReferenceIdeal.ValueP.ops (F := F)) V (Proc.devRef .tc main_cst_3)
      = Cert.ReferenceIdeal.ReadP.val_main_cst_3 (F := F) := by
  have hop : (Cert.ReferenceIdeal.ValueP.ops (F := F))[19]'(lt_ops_length (by decide)) = nullary main_cst_3 (constant S_ .f32 0x3A83126F#32) := rfl
  exact (read_nullary (y := main_cst_3) ops_fresh 19 (hp := lt_ops_length (by decide)) (hop := hop)).trans rfl

/-- Operation 20 writes `main_v15`, a function of `main_cst_3`: after the line the buffer holds its stage. -/
theorem after_v15 (V : Valuation τ sig (Elt F)) :
    after (Cert.ReferenceIdeal.ValueP.ops (F := F)) V (Proc.devRef .tc main_v15)
      = Cert.ReferenceIdeal.ReadP.val_main_v15 (F := F) := by
  have hop : (Cert.ReferenceIdeal.ValueP.ops (F := F))[20]'(lt_ops_length (by decide)) = unary main_cst_3 main_v15 (broadcastInDim S64x32x32x1 ![] bcast_S_S64x32x32x1 : (⟨S_, .f32⟩ : BufTy).Contents (Elt F) → (⟨S64x32x32x1, .f32⟩ : BufTy).Contents (Elt F)) := rfl
  rw [read_unary (x := main_cst_3) (y := main_v15) ops_fresh 20 (hp := lt_ops_length (by decide)) (hop := hop), after_cst_3 V]
  rfl

/-- Operation 21 writes `main_v16`, a function of `main_v12` and `main_v15`: after the line the buffer holds its stage. -/
theorem after_v16 (V : Valuation τ sig (Elt F)) :
    after (Cert.ReferenceIdeal.ValueP.ops (F := F)) V (Proc.devRef .tc main_v16)
      = Cert.ReferenceIdeal.ReadP.val_main_v16 (F := F) (V (Proc.devRef .tc main_arg0)) := by
  have hop : (Cert.ReferenceIdeal.ValueP.ops (F := F))[21]'(lt_ops_length (by decide)) = binary main_v12 main_v15 main_v16 (addf : (⟨S64x32x32x1, .f32⟩ : BufTy).Contents (Elt F) → (⟨S64x32x32x1, .f32⟩ : BufTy).Contents (Elt F) → (⟨S64x32x32x1, .f32⟩ : BufTy).Contents (Elt F)) := rfl
  rw [read_binary (a := main_v12) (b := main_v15) (y := main_v16) ops_fresh 21 (hp := lt_ops_length (by decide)) (hop := hop), after_v12 V, after_v15 V]
  rfl

/-- Operation 22 writes `main_v17`, a function of `main_v16`: after the line the buffer holds its stage. -/
theorem after_v17 (V : Valuation τ sig (Elt F)) :
    after (Cert.ReferenceIdeal.ValueP.ops (F := F)) V (Proc.devRef .tc main_v17)
      = Cert.ReferenceIdeal.ReadP.val_main_v17 (F := F) (V (Proc.devRef .tc main_arg0)) := by
  have hop : (Cert.ReferenceIdeal.ValueP.ops (F := F))[22]'(lt_ops_length (by decide)) = unary main_v16 main_v17 (Host.rsqrt : (⟨S64x32x32x1, .f32⟩ : BufTy).Contents (Elt F) → (⟨S64x32x32x1, .f32⟩ : BufTy).Contents (Elt F)) := rfl
  rw [read_unary (x := main_v16) (y := main_v17) ops_fresh 22 (hp := lt_ops_length (by decide)) (hop := hop), after_v16 V]
  rfl

/-- Operation 23 writes `main_v18`, a function of `main_v17`: after the line the buffer holds its stage. -/
theorem after_v18 (V : Valuation τ sig (Elt F)) :
    after (Cert.ReferenceIdeal.ValueP.ops (F := F)) V (Proc.devRef .tc main_v18)
      = Cert.ReferenceIdeal.ReadP.val_main_v18 (F := F) (V (Proc.devRef .tc main_arg0)) := by
  have hop : (Cert.ReferenceIdeal.ValueP.ops (F := F))[23]'(lt_ops_length (by decide)) = unary main_v17 main_v18 (broadcastInDim S64x32x32x96 ![0, 1, 2, 3] bcast_S64x32x32x1_S64x32x32x96_0_1_2_3 : (⟨S64x32x32x1, .f32⟩ : BufTy).Contents (Elt F) → (⟨S64x32x32x96, .f32⟩ : BufTy).Contents (Elt F)) := rfl
  rw [read_unary (x := main_v17) (y := main_v18) ops_fresh 23 (hp := lt_ops_length (by decide)) (hop := hop), after_v17 V]
  rfl

/-- Operation 24 writes `main_v19`, a function of `main_v14` and `main_v18`: after the line the buffer holds its stage. -/
theorem after_v19 (V : Valuation τ sig (Elt F)) :
    after (Cert.ReferenceIdeal.ValueP.ops (F := F)) V (Proc.devRef .tc main_v19)
      = Cert.ReferenceIdeal.ReadP.val_main_v19 (F := F) (V (Proc.devRef .tc main_arg0)) := by
  have hop : (Cert.ReferenceIdeal.ValueP.ops (F := F))[24]'(lt_ops_length (by decide)) = binary main_v14 main_v18 main_v19 (mulf : (⟨S64x32x32x96, .f32⟩ : BufTy).Contents (Elt F) → (⟨S64x32x32x96, .f32⟩ : BufTy).Contents (Elt F) → (⟨S64x32x32x96, .f32⟩ : BufTy).Contents (Elt F)) := rfl
  rw [read_binary (a := main_v14) (b := main_v18) (y := main_v19) ops_fresh 24 (hp := lt_ops_length (by decide)) (hop := hop), after_v14 V, after_v18 V]
  rfl

/-- Operation 25 writes `main_v20`, a function of `main_arg1`: after the line the buffer holds its stage. -/
theorem after_v20 (V : Valuation τ sig (Elt F)) :
    after (Cert.ReferenceIdeal.ValueP.ops (F := F)) V (Proc.devRef .tc main_v20)
      = Cert.ReferenceIdeal.ReadP.val_main_v20 (F := F) (V (Proc.devRef .tc main_arg1)) := by
  have hop : (Cert.ReferenceIdeal.ValueP.ops (F := F))[25]'(lt_ops_length (by decide)) = unary main_arg1 main_v20 (broadcastInDim S1x1x1x96 ![3] bcast_S96_S1x1x1x96_3 : (⟨S96, .f32⟩ : BufTy).Contents (Elt F) → (⟨S1x1x1x96, .f32⟩ : BufTy).Contents (Elt F)) := rfl
  rw [read_unary (x := main_arg1) (y := main_v20) ops_fresh 25 (hp := lt_ops_length (by decide)) (hop := hop), after_arg V main_arg1 (by decide)]
  rfl

/-- Operation 26 writes `main_v21`, a function of `main_v20`: after the line the buffer holds its stage. -/
theorem after_v21 (V : Valuation τ sig (Elt F)) :
    after (Cert.ReferenceIdeal.ValueP.ops (F := F)) V (Proc.devRef .tc main_v21)
      = Cert.ReferenceIdeal.ReadP.val_main_v21 (F := F) (V (Proc.devRef .tc main_arg1)) := by
  have hop : (Cert.ReferenceIdeal.ValueP.ops (F := F))[26]'(lt_ops_length (by decide)) = unary main_v20 main_v21 (broadcastInDim S64x32x32x96 ![0, 1, 2, 3] bcast_S1x1x1x96_S64x32x32x96_0_1_2_3 : (⟨S1x1x1x96, .f32⟩ : BufTy).Contents (Elt F) → (⟨S64x32x32x96, .f32⟩ : BufTy).Contents (Elt F)) := rfl
  rw [read_unary (x := main_v20) (y := main_v21) ops_fresh 26 (hp := lt_ops_length (by decide)) (hop := hop), after_v20 V]
  rfl

/-- Operation 27 writes `main_v22`, a function of `main_v19` and `main_v21`: after the line the buffer holds its stage. -/
theorem after_v22 (V : Valuation τ sig (Elt F)) :
    after (Cert.ReferenceIdeal.ValueP.ops (F := F)) V (Proc.devRef .tc main_v22)
      = Cert.ReferenceIdeal.ReadP.val_main_v22 (F := F) (V (Proc.devRef .tc main_arg0)) (V (Proc.devRef .tc main_arg1)) := by
  have hop : (Cert.ReferenceIdeal.ValueP.ops (F := F))[27]'(lt_ops_length (by decide)) = binary main_v19 main_v21 main_v22 (mulf : (⟨S64x32x32x96, .f32⟩ : BufTy).Contents (Elt F) → (⟨S64x32x32x96, .f32⟩ : BufTy).Contents (Elt F) → (⟨S64x32x32x96, .f32⟩ : BufTy).Contents (Elt F)) := rfl
  rw [read_binary (a := main_v19) (b := main_v21) (y := main_v22) ops_fresh 27 (hp := lt_ops_length (by decide)) (hop := hop), after_v19 V, after_v21 V]
  rfl

/-- Operation 28 writes `main_v23`, a function of `main_arg2`: after the line the buffer holds its stage. -/
theorem after_v23 (V : Valuation τ sig (Elt F)) :
    after (Cert.ReferenceIdeal.ValueP.ops (F := F)) V (Proc.devRef .tc main_v23)
      = Cert.ReferenceIdeal.ReadP.val_main_v23 (F := F) (V (Proc.devRef .tc main_arg2)) := by
  have hop : (Cert.ReferenceIdeal.ValueP.ops (F := F))[28]'(lt_ops_length (by decide)) = unary main_arg2 main_v23 (broadcastInDim S1x1x1x96 ![3] bcast_S96_S1x1x1x96_3 : (⟨S96, .f32⟩ : BufTy).Contents (Elt F) → (⟨S1x1x1x96, .f32⟩ : BufTy).Contents (Elt F)) := rfl
  rw [read_unary (x := main_arg2) (y := main_v23) ops_fresh 28 (hp := lt_ops_length (by decide)) (hop := hop), after_arg V main_arg2 (by decide)]
  rfl

/-- Operation 29 writes `main_v24`, a function of `main_v23`: after the line the buffer holds its stage. -/
theorem after_v24 (V : Valuation τ sig (Elt F)) :
    after (Cert.ReferenceIdeal.ValueP.ops (F := F)) V (Proc.devRef .tc main_v24)
      = Cert.ReferenceIdeal.ReadP.val_main_v24 (F := F) (V (Proc.devRef .tc main_arg2)) := by
  have hop : (Cert.ReferenceIdeal.ValueP.ops (F := F))[29]'(lt_ops_length (by decide)) = unary main_v23 main_v24 (broadcastInDim S64x32x32x96 ![0, 1, 2, 3] bcast_S1x1x1x96_S64x32x32x96_0_1_2_3 : (⟨S1x1x1x96, .f32⟩ : BufTy).Contents (Elt F) → (⟨S64x32x32x96, .f32⟩ : BufTy).Contents (Elt F)) := rfl
  rw [read_unary (x := main_v23) (y := main_v24) ops_fresh 29 (hp := lt_ops_length (by decide)) (hop := hop), after_v23 V]
  rfl

/-- Operation 30 writes `main_v25`, a function of `main_v22` and `main_v24`: after the line the buffer holds its stage. -/
theorem after_v25 (V : Valuation τ sig (Elt F)) :
    after (Cert.ReferenceIdeal.ValueP.ops (F := F)) V (Proc.devRef .tc main_v25)
      = Cert.ReferenceIdeal.ReadP.val_main_v25 (F := F) (V (Proc.devRef .tc main_arg0)) (V (Proc.devRef .tc main_arg1)) (V (Proc.devRef .tc main_arg2)) := by
  have hop : (Cert.ReferenceIdeal.ValueP.ops (F := F))[30]'(lt_ops_length (by decide)) = binary main_v22 main_v24 main_v25 (addf : (⟨S64x32x32x96, .f32⟩ : BufTy).Contents (Elt F) → (⟨S64x32x32x96, .f32⟩ : BufTy).Contents (Elt F) → (⟨S64x32x32x96, .f32⟩ : BufTy).Contents (Elt F)) := rfl
  rw [read_binary (a := main_v22) (b := main_v24) (y := main_v25) ops_fresh 30 (hp := lt_ops_length (by decide)) (hop := hop), after_v22 V, after_v24 V]
  rfl

/-- Operation 31 writes `main_v26`, a function of `main_v25` and `main_arg3`: after the line the buffer holds its stage. -/
theorem after_v26 (V : Valuation τ sig (Elt F)) :
    after (Cert.ReferenceIdeal.ValueP.ops (F := F)) V (Proc.devRef .tc main_v26)
      = Cert.ReferenceIdeal.ReadP.val_main_v26 (F := F) (V (Proc.devRef .tc main_arg0)) (V (Proc.devRef .tc main_arg1)) (V (Proc.devRef .tc main_arg2)) (V (Proc.devRef .tc main_arg3)) := by
  have hop : (Cert.ReferenceIdeal.ValueP.ops (F := F))[31]'(lt_ops_length (by decide)) = binary main_v25 main_arg3 main_v26 ((fun l r => Host.dotGeneral dot_S64x32x32x96_S96x128_S64x32x32x128_3_0_012_1_n_n none l r) : (⟨S64x32x32x96, .f32⟩ : BufTy).Contents (Elt F) → (⟨S96x128, .f32⟩ : BufTy).Contents (Elt F) → (⟨S64x32x32x128, .f32⟩ : BufTy).Contents (Elt F)) := rfl
  rw [read_binary (a := main_v25) (b := main_arg3) (y := main_v26) ops_fresh 31 (hp := lt_ops_length (by decide)) (hop := hop), after_v25 V, after_arg V main_arg3 (by decide)]
  rfl

/-- Operation 32 writes `main_v27`, a function of `main_arg4`: after the line the buffer holds its stage. -/
theorem after_v27 (V : Valuation τ sig (Elt F)) :
    after (Cert.ReferenceIdeal.ValueP.ops (F := F)) V (Proc.devRef .tc main_v27)
      = Cert.ReferenceIdeal.ReadP.val_main_v27 (F := F) (V (Proc.devRef .tc main_arg4)) := by
  have hop : (Cert.ReferenceIdeal.ValueP.ops (F := F))[32]'(lt_ops_length (by decide)) = unary main_arg4 main_v27 (broadcastInDim S1x1x1x128 ![3] bcast_S128_S1x1x1x128_3 : (⟨S128, .f32⟩ : BufTy).Contents (Elt F) → (⟨S1x1x1x128, .f32⟩ : BufTy).Contents (Elt F)) := rfl
  rw [read_unary (x := main_arg4) (y := main_v27) ops_fresh 32 (hp := lt_ops_length (by decide)) (hop := hop), after_arg V main_arg4 (by decide)]
  rfl

/-- Operation 33 writes `main_v28`, a function of `main_v27`: after the line the buffer holds its stage. -/
theorem after_v28 (V : Valuation τ sig (Elt F)) :
    after (Cert.ReferenceIdeal.ValueP.ops (F := F)) V (Proc.devRef .tc main_v28)
      = Cert.ReferenceIdeal.ReadP.val_main_v28 (F := F) (V (Proc.devRef .tc main_arg4)) := by
  have hop : (Cert.ReferenceIdeal.ValueP.ops (F := F))[33]'(lt_ops_length (by decide)) = unary main_v27 main_v28 (broadcastInDim S64x32x32x128 ![0, 1, 2, 3] bcast_S1x1x1x128_S64x32x32x128_0_1_2_3 : (⟨S1x1x1x128, .f32⟩ : BufTy).Contents (Elt F) → (⟨S64x32x32x128, .f32⟩ : BufTy).Contents (Elt F)) := rfl
  rw [read_unary (x := main_v27) (y := main_v28) ops_fresh 33 (hp := lt_ops_length (by decide)) (hop := hop), after_v27 V]
  rfl

/-- Operation 34 writes `main_v29`, a function of `main_v26` and `main_v28`: after the line the buffer holds its stage. -/
theorem after_v29 (V : Valuation τ sig (Elt F)) :
    after (Cert.ReferenceIdeal.ValueP.ops (F := F)) V (Proc.devRef .tc main_v29)
      = Cert.ReferenceIdeal.ReadP.val_main_v29 (F := F) (V (Proc.devRef .tc main_arg0)) (V (Proc.devRef .tc main_arg1)) (V (Proc.devRef .tc main_arg2)) (V (Proc.devRef .tc main_arg3)) (V (Proc.devRef .tc main_arg4)) := by
  have hop : (Cert.ReferenceIdeal.ValueP.ops (F := F))[34]'(lt_ops_length (by decide)) = binary main_v26 main_v28 main_v29 (addf : (⟨S64x32x32x128, .f32⟩ : BufTy).Contents (Elt F) → (⟨S64x32x32x128, .f32⟩ : BufTy).Contents (Elt F) → (⟨S64x32x32x128, .f32⟩ : BufTy).Contents (Elt F)) := rfl
  rw [read_binary (a := main_v26) (b := main_v28) (y := main_v29) ops_fresh 34 (hp := lt_ops_length (by decide)) (hop := hop), after_v26 V, after_v28 V]
  rfl

/-- Operation 35 writes `main_v30`, a function of `main_arg7`: after the line the buffer holds its stage. -/
theorem after_v30 (V : Valuation τ sig (Elt F)) :
    after (Cert.ReferenceIdeal.ValueP.ops (F := F)) V (Proc.devRef .tc main_v30)
      = Cert.ReferenceIdeal.ReadP.val_main_v30 (F := F) (V (Proc.devRef .tc main_arg7)) := by
  have hop : (Cert.ReferenceIdeal.ValueP.ops (F := F))[35]'(lt_ops_length (by decide)) = unary main_arg7 main_v30 (broadcastInDim S1x1x1x128 ![3] bcast_S128_S1x1x1x128_3 : (⟨S128, .f32⟩ : BufTy).Contents (Elt F) → (⟨S1x1x1x128, .f32⟩ : BufTy).Contents (Elt F)) := rfl
  rw [read_unary (x := main_arg7) (y := main_v30) ops_fresh 35 (hp := lt_ops_length (by decide)) (hop := hop), after_arg V main_arg7 (by decide)]
  rfl

/-- Operation 36 writes `main_v31`, a function of `main_v30`: after the line the buffer holds its stage. -/
theorem after_v31 (V : Valuation τ sig (Elt F)) :
    after (Cert.ReferenceIdeal.ValueP.ops (F := F)) V (Proc.devRef .tc main_v31)
      = Cert.ReferenceIdeal.ReadP.val_main_v31 (F := F) (V (Proc.devRef .tc main_arg7)) := by
  have hop : (Cert.ReferenceIdeal.ValueP.ops (F := F))[36]'(lt_ops_length (by decide)) = unary main_v30 main_v31 (broadcastInDim S64x32x32x128 ![0, 1, 2, 3] bcast_S1x1x1x128_S64x32x32x128_0_1_2_3 : (⟨S1x1x1x128, .f32⟩ : BufTy).Contents (Elt F) → (⟨S64x32x32x128, .f32⟩ : BufTy).Contents (Elt F)) := rfl
  rw [read_unary (x := main_v30) (y := main_v31) ops_fresh 36 (hp := lt_ops_length (by decide)) (hop := hop), after_v30 V]
  rfl

/-- Operation 37 writes `main_v32`, a function of `main_v29` and `main_v31`: after the line the buffer holds its stage. -/
theorem after_v32 (V : Valuation τ sig (Elt F)) :
    after (Cert.ReferenceIdeal.ValueP.ops (F := F)) V (Proc.devRef .tc main_v32)
      = Cert.ReferenceIdeal.ReadP.val_main_v32 (F := F) (V (Proc.devRef .tc main_arg0)) (V (Proc.devRef .tc main_arg1)) (V (Proc.devRef .tc main_arg2)) (V (Proc.devRef .tc main_arg3)) (V (Proc.devRef .tc main_arg4)) (V (Proc.devRef .tc main_arg7)) := by
  have hop : (Cert.ReferenceIdeal.ValueP.ops (F := F))[37]'(lt_ops_length (by decide)) = binary main_v29 main_v31 main_v32 (subf : (⟨S64x32x32x128, .f32⟩ : BufTy).Contents (Elt F) → (⟨S64x32x32x128, .f32⟩ : BufTy).Contents (Elt F) → (⟨S64x32x32x128, .f32⟩ : BufTy).Contents (Elt F)) := rfl
  rw [read_binary (a := main_v29) (b := main_v31) (y := main_v32) ops_fresh 37 (hp := lt_ops_length (by decide)) (hop := hop), after_v29 V, after_v31 V]
  rfl

/-- Operation 38 writes `main_cst_4`, a constant: after the line the buffer holds its stage. -/
theorem after_cst_4 (V : Valuation τ sig (Elt F)) :
    after (Cert.ReferenceIdeal.ValueP.ops (F := F)) V (Proc.devRef .tc main_cst_4)
      = Cert.ReferenceIdeal.ReadP.val_main_cst_4 (F := F) := by
  have hop : (Cert.ReferenceIdeal.ValueP.ops (F := F))[38]'(lt_ops_length (by decide)) = nullary main_cst_4 (constant S_ .f32 0x3A83126F#32) := rfl
  exact (read_nullary (y := main_cst_4) ops_fresh 38 (hp := lt_ops_length (by decide)) (hop := hop)).trans rfl

/-- Operation 39 writes `main_v33`, a function of `main_cst_4`: after the line the buffer holds its stage. -/
theorem after_v33 (V : Valuation τ sig (Elt F)) :
    after (Cert.ReferenceIdeal.ValueP.ops (F := F)) V (Proc.devRef .tc main_v33)
      = Cert.ReferenceIdeal.ReadP.val_main_v33 (F := F) := by
  have hop : (Cert.ReferenceIdeal.ValueP.ops (F := F))[39]'(lt_ops_length (by decide)) = unary main_cst_4 main_v33 (broadcastInDim S128 ![] bcast_S_S128 : (⟨S_, .f32⟩ : BufTy).Contents (Elt F) → (⟨S128, .f32⟩ : BufTy).Contents (Elt F)) := rfl
  rw [read_unary (x := main_cst_4) (y := main_v33) ops_fresh 39 (hp := lt_ops_length (by decide)) (hop := hop), after_cst_4 V]
  rfl

/-- Operation 40 writes `main_v34`, a function of `main_arg8` and `main_v33`: after the line the buffer holds its stage. -/
theorem after_v34 (V : Valuation τ sig (Elt F)) :
    after (Cert.ReferenceIdeal.ValueP.ops (F := F)) V (Proc.devRef .tc main_v34)
      = Cert.ReferenceIdeal.ReadP.val_main_v34 (F := F) (V (Proc.devRef .tc main_arg8)) := by
  have hop : (Cert.ReferenceIdeal.ValueP.ops (F := F))[40]'(lt_ops_length (by decide)) = binary main_arg8 main_v33 main_v34 (addf : (⟨S128, .f32⟩ : BufTy).Contents (Elt F) → (⟨S128, .f32⟩ : BufTy).Contents (Elt F) → (⟨S128, .f32⟩ : BufTy).Contents (Elt F)) := rfl
  rw [read_binary (a := main_arg8) (b := main_v33) (y := main_v34) ops_fresh 40 (hp := lt_ops_length (by decide)) (hop := hop), after_arg V main_arg8 (by decide), after_v33 V]
  rfl

/-- Operation 41 writes `main_v35`, a function of `main_v34`: after the line the buffer holds its stage. -/
theorem after_v35 (V : Valuation τ sig (Elt F)) :
    after (Cert.ReferenceIdeal.ValueP.ops (F := F)) V (Proc.devRef .tc main_v35)
      = Cert.ReferenceIdeal.ReadP.val_main_v35 (F := F) (V (Proc.devRef .tc main_arg8)) := by
  have hop : (Cert.ReferenceIdeal.ValueP.ops (F := F))[41]'(lt_ops_length (by decide)) = unary main_v34 main_v35 (Host.rsqrt : (⟨S128, .f32⟩ : BufTy).Contents (Elt F) → (⟨S128, .f32⟩ : BufTy).Contents (Elt F)) := rfl
  rw [read_unary (x := main_v34) (y := main_v35) ops_fresh 41 (hp := lt_ops_length (by decide)) (hop := hop), after_v34 V]
  rfl

/-- Operation 42 writes `main_v36`, a function of `main_arg5` and `main_v35`: after the line the buffer holds its stage. -/
theorem after_v36 (V : Valuation τ sig (Elt F)) :
    after (Cert.ReferenceIdeal.ValueP.ops (F := F)) V (Proc.devRef .tc main_v36)
      = Cert.ReferenceIdeal.ReadP.val_main_v36 (F := F) (V (Proc.devRef .tc main_arg5)) (V (Proc.devRef .tc main_arg8)) := by
  have hop : (Cert.ReferenceIdeal.ValueP.ops (F := F))[42]'(lt_ops_length (by decide)) = binary main_arg5 main_v35 main_v36 (mulf : (⟨S128, .f32⟩ : BufTy).Contents (Elt F) → (⟨S128, .f32⟩ : BufTy).Contents (Elt F) → (⟨S128, .f32⟩ : BufTy).Contents (Elt F)) := rfl
  rw [read_binary (a := main_arg5) (b := main_v35) (y := main_v36) ops_fresh 42 (hp := lt_ops_length (by decide)) (hop := hop), after_arg V main_arg5 (by decide), after_v35 V]
  rfl

/-- Operation 43 writes `main_v37`, a function of `main_v36`: after the line the buffer holds its stage. -/
theorem after_v37 (V : Valuation τ sig (Elt F)) :
    after (Cert.ReferenceIdeal.ValueP.ops (F := F)) V (Proc.devRef .tc main_v37)
      = Cert.ReferenceIdeal.ReadP.val_main_v37 (F := F) (V (Proc.devRef .tc main_arg5)) (V (Proc.devRef .tc main_arg8)) := by
  have hop : (Cert.ReferenceIdeal.ValueP.ops (F := F))[43]'(lt_ops_length (by decide)) = unary main_v36 main_v37 (broadcastInDim S1x1x1x128 ![3] bcast_S128_S1x1x1x128_3 : (⟨S128, .f32⟩ : BufTy).Contents (Elt F) → (⟨S1x1x1x128, .f32⟩ : BufTy).Contents (Elt F)) := rfl
  rw [read_unary (x := main_v36) (y := main_v37) ops_fresh 43 (hp := lt_ops_length (by decide)) (hop := hop), after_v36 V]
  rfl

/-- Operation 44 writes `main_v38`, a function of `main_v37`: after the line the buffer holds its stage. -/
theorem after_v38 (V : Valuation τ sig (Elt F)) :
    after (Cert.ReferenceIdeal.ValueP.ops (F := F)) V (Proc.devRef .tc main_v38)
      = Cert.ReferenceIdeal.ReadP.val_main_v38 (F := F) (V (Proc.devRef .tc main_arg5)) (V (Proc.devRef .tc main_arg8)) := by
  have hop : (Cert.ReferenceIdeal.ValueP.ops (F := F))[44]'(lt_ops_length (by decide)) = unary main_v37 main_v38 (broadcastInDim S64x32x32x128 ![0, 1, 2, 3] bcast_S1x1x1x128_S64x32x32x128_0_1_2_3 : (⟨S1x1x1x128, .f32⟩ : BufTy).Contents (Elt F) → (⟨S64x32x32x128, .f32⟩ : BufTy).Contents (Elt F)) := rfl
  rw [read_unary (x := main_v37) (y := main_v38) ops_fresh 44 (hp := lt_ops_length (by decide)) (hop := hop), after_v37 V]
  rfl

/-- Operation 45 writes `main_v39`, a function of `main_v32` and `main_v38`: after the line the buffer holds its stage. -/
theorem after_v39 (V : Valuation τ sig (Elt F)) :
    after (Cert.ReferenceIdeal.ValueP.ops (F := F)) V (Proc.devRef .tc main_v39)
      = Cert.ReferenceIdeal.ReadP.val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) := by
  have hop : (Cert.ReferenceIdeal.ValueP.ops (F := F))[45]'(lt_ops_length (by decide)) = binary main_v32 main_v38 main_v39 (mulf : (⟨S64x32x32x128, .f32⟩ : BufTy).Contents (Elt F) → (⟨S64x32x32x128, .f32⟩ : BufTy).Contents (Elt F) → (⟨S64x32x32x128, .f32⟩ : BufTy).Contents (Elt F)) := rfl
  rw [read_binary (a := main_v32) (b := main_v38) (y := main_v39) ops_fresh 45 (hp := lt_ops_length (by decide)) (hop := hop), after_v32 V, after_v38 V]
  rfl

/-- Operation 46 writes `main_v40`, a function of `main_arg6`: after the line the buffer holds its stage. -/
theorem after_v40 (V : Valuation τ sig (Elt F)) :
    after (Cert.ReferenceIdeal.ValueP.ops (F := F)) V (Proc.devRef .tc main_v40)
      = Cert.ReferenceIdeal.ReadP.val_main_v40 (F := F) (V (Proc.devRef .tc main_arg6)) := by
  have hop : (Cert.ReferenceIdeal.ValueP.ops (F := F))[46]'(lt_ops_length (by decide)) = unary main_arg6 main_v40 (broadcastInDim S1x1x1x128 ![3] bcast_S128_S1x1x1x128_3 : (⟨S128, .f32⟩ : BufTy).Contents (Elt F) → (⟨S1x1x1x128, .f32⟩ : BufTy).Contents (Elt F)) := rfl
  rw [read_unary (x := main_arg6) (y := main_v40) ops_fresh 46 (hp := lt_ops_length (by decide)) (hop := hop), after_arg V main_arg6 (by decide)]
  rfl

/-- Operation 47 writes `main_v41`, a function of `main_v40`: after the line the buffer holds its stage. -/
theorem after_v41 (V : Valuation τ sig (Elt F)) :
    after (Cert.ReferenceIdeal.ValueP.ops (F := F)) V (Proc.devRef .tc main_v41)
      = Cert.ReferenceIdeal.ReadP.val_main_v41 (F := F) (V (Proc.devRef .tc main_arg6)) := by
  have hop : (Cert.ReferenceIdeal.ValueP.ops (F := F))[47]'(lt_ops_length (by decide)) = unary main_v40 main_v41 (broadcastInDim S64x32x32x128 ![0, 1, 2, 3] bcast_S1x1x1x128_S64x32x32x128_0_1_2_3 : (⟨S1x1x1x128, .f32⟩ : BufTy).Contents (Elt F) → (⟨S64x32x32x128, .f32⟩ : BufTy).Contents (Elt F)) := rfl
  rw [read_unary (x := main_v40) (y := main_v41) ops_fresh 47 (hp := lt_ops_length (by decide)) (hop := hop), after_v40 V]
  rfl

/-- Operation 48 writes `main_v42`, a function of `main_v39` and `main_v41`: after the line the buffer holds its stage. -/
theorem after_v42 (V : Valuation τ sig (Elt F)) :
    after (Cert.ReferenceIdeal.ValueP.ops (F := F)) V (Proc.devRef .tc main_v42)
      = Cert.ReferenceIdeal.ReadP.val_main_v42 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[48]'(lt_ops_length (by decide)) = binary main_v39 main_v41 main_v42 (addf : (⟨S64x32x32x128, .f32⟩ : BufTy).Contents (Elt F) → (⟨S64x32x32x128, .f32⟩ : BufTy).Contents (Elt F) → (⟨S64x32x32x128, .f32⟩ : BufTy).Contents (Elt F)) := rfl
  rw [read_binary (a := main_v39) (b := main_v41) (y := main_v42) ops_fresh 48 (hp := lt_ops_length (by decide)) (hop := hop), after_v39 V, after_v41 V]
  rfl

/-- Operation 49 writes `main_v43`, a function of `main_v42`: after the line the buffer holds its stage. -/
theorem after_v43 (V : Valuation τ sig (Elt F)) :
    after (Cert.ReferenceIdeal.ValueP.ops (F := F)) V (Proc.devRef .tc main_v43)
      = Cert.ReferenceIdeal.ReadP.val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[49]'(lt_ops_length (by decide)) = unary main_v42 main_v43 ((extractStridedSlice S64x32x32x16 ![0, 0, 0, 0] · slices_S64x32x32x128_S64x32x32x16_0_0_0_0) : (⟨S64x32x32x128, .f32⟩ : BufTy).Contents (Elt F) → (⟨S64x32x32x16, .f32⟩ : BufTy).Contents (Elt F)) := rfl
  rw [read_unary (x := main_v42) (y := main_v43) ops_fresh 49 (hp := lt_ops_length (by decide)) (hop := hop), after_v42 V]
  rfl

/-- Operation 50 writes `main_v44`, the reshape of `main_v43`: after the line the buffer holds its stage. -/
theorem after_v44 (V : Valuation τ sig (Elt F)) :
    after (Cert.ReferenceIdeal.ValueP.ops (F := F)) V (Proc.devRef .tc main_v44)
      = Cert.ReferenceIdeal.ReadP.val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[50]'(lt_ops_length (by decide)) = reshape main_v43 main_v44 rfl shapeCasts_S64x32x32x16_S64x1024x16 := rfl
  rw [read_reshape (x := main_v43) (y := main_v44) (he := rfl) (hn := shapeCasts_S64x32x32x16_S64x1024x16) ops_fresh 50 (hp := lt_ops_length (by decide)) (hop := hop), after_v43 V]
  rfl

/-- Operation 51 writes `main_v45`, a function of `main_v42`: after the line the buffer holds its stage. -/
theorem after_v45 (V : Valuation τ sig (Elt F)) :
    after (Cert.ReferenceIdeal.ValueP.ops (F := F)) V (Proc.devRef .tc main_v45)
      = Cert.ReferenceIdeal.ReadP.val_main_v45 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[51]'(lt_ops_length (by decide)) = unary main_v42 main_v45 ((extractStridedSlice S64x32x32x16 ![0, 0, 0, 16] · slices_S64x32x32x128_S64x32x32x16_0_0_0_16) : (⟨S64x32x32x128, .f32⟩ : BufTy).Contents (Elt F) → (⟨S64x32x32x16, .f32⟩ : BufTy).Contents (Elt F)) := rfl
  rw [read_unary (x := main_v42) (y := main_v45) ops_fresh 51 (hp := lt_ops_length (by decide)) (hop := hop), after_v42 V]
  rfl

/-- Operation 52 writes `main_v46`, the reshape of `main_v45`: after the line the buffer holds its stage. -/
theorem after_v46 (V : Valuation τ sig (Elt F)) :
    after (Cert.ReferenceIdeal.ValueP.ops (F := F)) V (Proc.devRef .tc main_v46)
      = Cert.ReferenceIdeal.ReadP.val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[52]'(lt_ops_length (by decide)) = reshape main_v45 main_v46 rfl shapeCasts_S64x32x32x16_S64x1024x16 := rfl
  rw [read_reshape (x := main_v45) (y := main_v46) (he := rfl) (hn := shapeCasts_S64x32x32x16_S64x1024x16) ops_fresh 52 (hp := lt_ops_length (by decide)) (hop := hop), after_v45 V]
  rfl

/-- Operation 53 writes `main_v47`, a function of `main_v42`: after the line the buffer holds its stage. -/
theorem after_v47 (V : Valuation τ sig (Elt F)) :
    after (Cert.ReferenceIdeal.ValueP.ops (F := F)) V (Proc.devRef .tc main_v47)
      = Cert.ReferenceIdeal.ReadP.val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[53]'(lt_ops_length (by decide)) = unary main_v42 main_v47 ((extractStridedSlice S64x32x32x96 ![0, 0, 0, 32] · slices_S64x32x32x128_S64x32x32x96_0_0_0_32) : (⟨S64x32x32x128, .f32⟩ : BufTy).Contents (Elt F) → (⟨S64x32x32x96, .f32⟩ : BufTy).Contents (Elt F)) := rfl
  rw [read_unary (x := main_v42) (y := main_v47) ops_fresh 53 (hp := lt_ops_length (by decide)) (hop := hop), after_v42 V]
  rfl

/-- Operation 54 writes `main_v48`, the reshape of `main_v47`: after the line the buffer holds its stage. -/
theorem after_v48 (V : Valuation τ sig (Elt F)) :
    after (Cert.ReferenceIdeal.ValueP.ops (F := F)) V (Proc.devRef .tc main_v48)
      = Cert.ReferenceIdeal.ReadP.val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[54]'(lt_ops_length (by decide)) = reshape main_v47 main_v48 rfl shapeCasts_S64x32x32x96_S64x1024x96 := rfl
  rw [read_reshape (x := main_v47) (y := main_v48) (he := rfl) (hn := shapeCasts_S64x32x32x96_S64x1024x96) ops_fresh 54 (hp := lt_ops_length (by decide)) (hop := hop), after_v47 V]
  rfl

/-- Operation 55 writes `main_v49`, a function of `main_v44` and `main_v46`: after the line the buffer holds its stage. -/
theorem after_v49 (V : Valuation τ sig (Elt F)) :
    after (Cert.ReferenceIdeal.ValueP.ops (F := F)) V (Proc.devRef .tc main_v49)
      = Cert.ReferenceIdeal.ReadP.val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[55]'(lt_ops_length (by decide)) = binary main_v44 main_v46 main_v49 ((fun l r => Host.dotGeneral dot_S64x1024x16_S64x1024x16_S64x1024x1024_2_2_1_1_0_0 none l r) : (⟨S64x1024x16, .f32⟩ : BufTy).Contents (Elt F) → (⟨S64x1024x16, .f32⟩ : BufTy).Contents (Elt F) → (⟨S64x1024x1024, .f32⟩ : BufTy).Contents (Elt F)) := rfl
  rw [read_binary (a := main_v44) (b := main_v46) (y := main_v49) ops_fresh 55 (hp := lt_ops_length (by decide)) (hop := hop), after_v44 V, after_v46 V]
  rfl

/-- Operation 56 writes `main_cst_5`, a constant: after the line the buffer holds its stage. -/
theorem after_cst_5 (V : Valuation τ sig (Elt F)) :
    after (Cert.ReferenceIdeal.ValueP.ops (F := F)) V (Proc.devRef .tc main_cst_5)
      = Cert.ReferenceIdeal.ReadP.val_main_cst_5 (F := F) := by
  have hop : (Cert.ReferenceIdeal.ValueP.ops (F := F))[56]'(lt_ops_length (by decide)) = nullary main_cst_5 (constant S_ .f32 0x3E800000#32) := rfl
  exact (read_nullary (y := main_cst_5) ops_fresh 56 (hp := lt_ops_length (by decide)) (hop := hop)).trans rfl

/-- Operation 57 writes `main_v50`, a function of `main_cst_5`: after the line the buffer holds its stage. -/
theorem after_v50 (V : Valuation τ sig (Elt F)) :
    after (Cert.ReferenceIdeal.ValueP.ops (F := F)) V (Proc.devRef .tc main_v50)
      = Cert.ReferenceIdeal.ReadP.val_main_v50 (F := F) := by
  have hop : (Cert.ReferenceIdeal.ValueP.ops (F := F))[57]'(lt_ops_length (by decide)) = unary main_cst_5 main_v50 (broadcastInDim S64x1024x1024 ![] bcast_S_S64x1024x1024 : (⟨S_, .f32⟩ : BufTy).Contents (Elt F) → (⟨S64x1024x1024, .f32⟩ : BufTy).Contents (Elt F)) := rfl
  rw [read_unary (x := main_cst_5) (y := main_v50) ops_fresh 57 (hp := lt_ops_length (by decide)) (hop := hop), after_cst_5 V]
  rfl

/-- Operation 58 writes `main_v51`, a function of `main_v49` and `main_v50`: after the line the buffer holds its stage. -/
theorem after_v51 (V : Valuation τ sig (Elt F)) :
    after (Cert.ReferenceIdeal.ValueP.ops (F := F)) V (Proc.devRef .tc main_v51)
      = Cert.ReferenceIdeal.ReadP.val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[58]'(lt_ops_length (by decide)) = binary main_v49 main_v50 main_v51 (mulf : (⟨S64x1024x1024, .f32⟩ : BufTy).Contents (Elt F) → (⟨S64x1024x1024, .f32⟩ : BufTy).Contents (Elt F) → (⟨S64x1024x1024, .f32⟩ : BufTy).Contents (Elt F)) := rfl
  rw [read_binary (a := main_v49) (b := main_v50) (y := main_v51) ops_fresh 58 (hp := lt_ops_length (by decide)) (hop := hop), after_v49 V, after_v50 V]
  rfl

/-- Operation 59 writes `main_cst_6`, a constant: after the line the buffer holds its stage. -/
theorem after_cst_6 (V : Valuation τ sig (Elt F)) :
    after (Cert.ReferenceIdeal.ValueP.ops (F := F)) V (Proc.devRef .tc main_cst_6)
      = Cert.ReferenceIdeal.ReadP.val_main_cst_6 (F := F) := by
  have hop : (Cert.ReferenceIdeal.ValueP.ops (F := F))[59]'(lt_ops_length (by decide)) = nullary main_cst_6 (constant S_ .f32 0xFF800000#32) := rfl
  exact (read_nullary (y := main_cst_6) ops_fresh 59 (hp := lt_ops_length (by decide)) (hop := hop)).trans rfl

/-- Operation 60 writes `main_v52`, a function of `main_v51` and `main_cst_6`: after the line the buffer holds its stage. -/
theorem after_v52 (V : Valuation τ sig (Elt F)) :
    after (Cert.ReferenceIdeal.ValueP.ops (F := F)) V (Proc.devRef .tc main_v52)
      = Cert.ReferenceIdeal.ReadP.val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[60]'(lt_ops_length (by decide)) = binary main_v51 main_cst_6 main_v52 ((fun x v => Host.reduce FloatOps.maximumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)) := rfl
  rw [read_binary (a := main_v51) (b := main_cst_6) (y := main_v52) ops_fresh 60 (hp := lt_ops_length (by decide)) (hop := hop), after_v51 V, after_cst_6 V]
  rfl

/-- Operation 61 writes `main_cst_7`, a constant: after the line the buffer holds its stage. -/
theorem after_cst_7 (V : Valuation τ sig (Elt F)) :
    after (Cert.ReferenceIdeal.ValueP.ops (F := F)) V (Proc.devRef .tc main_cst_7)
      = Cert.ReferenceIdeal.ReadP.val_main_cst_7 (F := F) := by
  have hop : (Cert.ReferenceIdeal.ValueP.ops (F := F))[61]'(lt_ops_length (by decide)) = nullary main_cst_7 (constant S_ .f32 0xFF800000#32) := rfl
  exact (read_nullary (y := main_cst_7) ops_fresh 61 (hp := lt_ops_length (by decide)) (hop := hop)).trans rfl

/-- Operation 62 writes `main_v53`, a function of `main_cst_7`: after the line the buffer holds its stage. -/
theorem after_v53 (V : Valuation τ sig (Elt F)) :
    after (Cert.ReferenceIdeal.ValueP.ops (F := F)) V (Proc.devRef .tc main_v53)
      = Cert.ReferenceIdeal.ReadP.val_main_v53 (F := F) := by
  have hop : (Cert.ReferenceIdeal.ValueP.ops (F := F))[62]'(lt_ops_length (by decide)) = unary main_cst_7 main_v53 (broadcastInDim S64x1024 ![] bcast_S_S64x1024 : (⟨S_, .f32⟩ : BufTy).Contents (Elt F) → (⟨S64x1024, .f32⟩ : BufTy).Contents (Elt F)) := rfl
  rw [read_unary (x := main_cst_7) (y := main_v53) ops_fresh 62 (hp := lt_ops_length (by decide)) (hop := hop), after_cst_7 V]
  rfl

/-- Operation 63 writes `main_v54`, a function of `main_v53` and `main_v52`: after the line the buffer holds its stage. -/
theorem after_v54 (V : Valuation τ sig (Elt F)) :
    after (Cert.ReferenceIdeal.ValueP.ops (F := F)) V (Proc.devRef .tc main_v54)
      = Cert.ReferenceIdeal.ReadP.val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[63]'(lt_ops_length (by decide)) = binary main_v53 main_v52 main_v54 (maximumf : (⟨S64x1024, .f32⟩ : BufTy).Contents (Elt F) → (⟨S64x1024, .f32⟩ : BufTy).Contents (Elt F) → (⟨S64x1024, .f32⟩ : BufTy).Contents (Elt F)) := rfl
  rw [read_binary (a := main_v53) (b := main_v52) (y := main_v54) ops_fresh 63 (hp := lt_ops_length (by decide)) (hop := hop), after_v53 V, after_v52 V]
  rfl

/-- Operation 64 writes `main_v55`, a function of `main_v54`: after the line the buffer holds its stage. -/
theorem after_v55 (V : Valuation τ sig (Elt F)) :
    after (Cert.ReferenceIdeal.ValueP.ops (F := F)) V (Proc.devRef .tc main_v55)
      = Cert.ReferenceIdeal.ReadP.val_main_v55 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[64]'(lt_ops_length (by decide)) = unary main_v54 main_v55 (broadcastInDim S64x1024x1 ![0, 1] bcast_S64x1024_S64x1024x1_0_1 : (⟨S64x1024, .f32⟩ : BufTy).Contents (Elt F) → (⟨S64x1024x1, .f32⟩ : BufTy).Contents (Elt F)) := rfl
  rw [read_unary (x := main_v54) (y := main_v55) ops_fresh 64 (hp := lt_ops_length (by decide)) (hop := hop), after_v54 V]
  rfl

/-- Operation 65 writes `main_v56`, a function of `main_v55`: after the line the buffer holds its stage. -/
theorem after_v56 (V : Valuation τ sig (Elt F)) :
    after (Cert.ReferenceIdeal.ValueP.ops (F := F)) V (Proc.devRef .tc main_v56)
      = Cert.ReferenceIdeal.ReadP.val_main_v56 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[65]'(lt_ops_length (by decide)) = unary main_v55 main_v56 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)) := rfl
  rw [read_unary (x := main_v55) (y := main_v56) ops_fresh 65 (hp := lt_ops_length (by decide)) (hop := hop), after_v55 V]
  rfl

/-- Operation 66 writes `main_v57`, a function of `main_v51` and `main_v56`: after the line the buffer holds its stage. -/
theorem after_v57 (V : Valuation τ sig (Elt F)) :
    after (Cert.ReferenceIdeal.ValueP.ops (F := F)) V (Proc.devRef .tc main_v57)
      = Cert.ReferenceIdeal.ReadP.val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[66]'(lt_ops_length (by decide)) = binary main_v51 main_v56 main_v57 (subf : (⟨S64x1024x1024, .f32⟩ : BufTy).Contents (Elt F) → (⟨S64x1024x1024, .f32⟩ : BufTy).Contents (Elt F) → (⟨S64x1024x1024, .f32⟩ : BufTy).Contents (Elt F)) := rfl
  rw [read_binary (a := main_v51) (b := main_v56) (y := main_v57) ops_fresh 66 (hp := lt_ops_length (by decide)) (hop := hop), after_v51 V, after_v56 V]
  rfl

/-- Operation 67 writes `main_v58`, a function of `main_v57`: after the line the buffer holds its stage. -/
theorem after_v58 (V : Valuation τ sig (Elt F)) :
    after (Cert.ReferenceIdeal.ValueP.ops (F := F)) V (Proc.devRef .tc main_v58)
      = Cert.ReferenceIdeal.ReadP.val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[67]'(lt_ops_length (by decide)) = unary main_v57 main_v58 (Host.exp : (⟨S64x1024x1024, .f32⟩ : BufTy).Contents (Elt F) → (⟨S64x1024x1024, .f32⟩ : BufTy).Contents (Elt F)) := rfl
  rw [read_unary (x := main_v57) (y := main_v58) ops_fresh 67 (hp := lt_ops_length (by decide)) (hop := hop), after_v57 V]
  rfl

/-- Operation 68 writes `main_cst_8`, a constant: after the line the buffer holds its stage. -/
theorem after_cst_8 (V : Valuation τ sig (Elt F)) :
    after (Cert.ReferenceIdeal.ValueP.ops (F := F)) V (Proc.devRef .tc main_cst_8)
      = Cert.ReferenceIdeal.ReadP.val_main_cst_8 (F := F) := by
  have hop : (Cert.ReferenceIdeal.ValueP.ops (F := F))[68]'(lt_ops_length (by decide)) = nullary main_cst_8 (constant S_ .f32 0x00000000#32) := rfl
  exact (read_nullary (y := main_cst_8) ops_fresh 68 (hp := lt_ops_length (by decide)) (hop := hop)).trans rfl

/-- Operation 69 writes `main_v59`, a function of `main_v58` and `main_cst_8`: after the line the buffer holds its stage. -/
theorem after_v59 (V : Valuation τ sig (Elt F)) :
    after (Cert.ReferenceIdeal.ValueP.ops (F := F)) V (Proc.devRef .tc main_v59)
      = Cert.ReferenceIdeal.ReadP.val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[69]'(lt_ops_length (by decide)) = binary main_v58 main_cst_8 main_v59 ((fun x v => Host.reduceAdd x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)) := rfl
  rw [read_binary (a := main_v58) (b := main_cst_8) (y := main_v59) ops_fresh 69 (hp := lt_ops_length (by decide)) (hop := hop), after_v58 V, after_cst_8 V]
  rfl

/-- Operation 70 writes `main_v60`, a function of `main_v59`: after the line the buffer holds its stage. -/
theorem after_v60 (V : Valuation τ sig (Elt F)) :
    after (Cert.ReferenceIdeal.ValueP.ops (F := F)) V (Proc.devRef .tc main_v60)
      = Cert.ReferenceIdeal.ReadP.val_main_v60 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[70]'(lt_ops_length (by decide)) = unary main_v59 main_v60 (broadcastInDim S64x1024x1 ![0, 1] bcast_S64x1024_S64x1024x1_0_1 : (⟨S64x1024, .f32⟩ : BufTy).Contents (Elt F) → (⟨S64x1024x1, .f32⟩ : BufTy).Contents (Elt F)) := rfl
  rw [read_unary (x := main_v59) (y := main_v60) ops_fresh 70 (hp := lt_ops_length (by decide)) (hop := hop), after_v59 V]
  rfl

/-- Operation 71 writes `main_v61`, a function of `main_v60`: after the line the buffer holds its stage. -/
theorem after_v61 (V : Valuation τ sig (Elt F)) :
    after (Cert.ReferenceIdeal.ValueP.ops (F := F)) V (Proc.devRef .tc main_v61)
      = Cert.ReferenceIdeal.ReadP.val_main_v61 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[71]'(lt_ops_length (by decide)) = unary main_v60 main_v61 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)) := rfl
  rw [read_unary (x := main_v60) (y := main_v61) ops_fresh 71 (hp := lt_ops_length (by decide)) (hop := hop), after_v60 V]
  rfl

/-- Operation 72 writes `main_v62`, a function of `main_v58` and `main_v61`: after the line the buffer holds its stage. -/
theorem after_v62 (V : Valuation τ sig (Elt F)) :
    after (Cert.ReferenceIdeal.ValueP.ops (F := F)) V (Proc.devRef .tc main_v62)
      = Cert.ReferenceIdeal.ReadP.val_main_v62 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[72]'(lt_ops_length (by decide)) = binary main_v58 main_v61 main_v62 (Host.divf : (⟨S64x1024x1024, .f32⟩ : BufTy).Contents (Elt F) → (⟨S64x1024x1024, .f32⟩ : BufTy).Contents (Elt F) → (⟨S64x1024x1024, .f32⟩ : BufTy).Contents (Elt F)) := rfl
  rw [read_binary (a := main_v58) (b := main_v61) (y := main_v62) ops_fresh 72 (hp := lt_ops_length (by decide)) (hop := hop), after_v58 V, after_v61 V]
  rfl

/-- Operation 73 writes `main_v63`, a function of `main_v62` and `main_v48`: after the line the buffer holds its stage. -/
theorem after_v63 (V : Valuation τ sig (Elt F)) :
    after (Cert.ReferenceIdeal.ValueP.ops (F := F)) V (Proc.devRef .tc main_v63)
      = Cert.ReferenceIdeal.ReadP.val_main_v63 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[73]'(lt_ops_length (by decide)) = binary main_v62 main_v48 main_v63 ((fun l r => Host.dotGeneral dot_S64x1024x1024_S64x1024x96_S64x1024x96_2_1_1_2_0_0 none l r) : (⟨S64x1024x1024, .f32⟩ : BufTy).Contents (Elt F) → (⟨S64x1024x96, .f32⟩ : BufTy).Contents (Elt F) → (⟨S64x1024x96, .f32⟩ : BufTy).Contents (Elt F)) := rfl
  rw [read_binary (a := main_v62) (b := main_v48) (y := main_v63) ops_fresh 73 (hp := lt_ops_length (by decide)) (hop := hop), after_v62 V, after_v48 V]
  rfl

/-- Operation 74 writes `main_v64`, the reshape of `main_v63`: after the line the buffer holds its stage. -/
theorem after_v64 (V : Valuation τ sig (Elt F)) :
    after (Cert.ReferenceIdeal.ValueP.ops (F := F)) V (Proc.devRef .tc main_v64)
      = Cert.ReferenceIdeal.ReadP.val_main_v64 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[74]'(lt_ops_length (by decide)) = reshape main_v63 main_v64 rfl shapeCasts_S64x1024x96_S64x32x32x96 := rfl
  rw [read_reshape (x := main_v63) (y := main_v64) (he := rfl) (hn := shapeCasts_S64x1024x96_S64x32x32x96) ops_fresh 74 (hp := lt_ops_length (by decide)) (hop := hop), after_v63 V]
  rfl

/-- Operation 75 writes `main_v65`, a function of `main_v64` and `main_v1`: after the line the buffer holds its stage. -/
theorem after_v65 (V : Valuation τ sig (Elt F)) :
    after (Cert.ReferenceIdeal.ValueP.ops (F := F)) V (Proc.devRef .tc main_v65)
      = Cert.ReferenceIdeal.ReadP.val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[75]'(lt_ops_length (by decide)) = binary main_v64 main_v1 main_v65 ((fun a b => concatenate S64x32x32x384 3 [⟨S64x32x32x96, a⟩, ⟨S64x32x32x288, b⟩] concatenates_S64x32x32x96_S64x32x32x288_S64x32x32x384_d3) : (⟨S64x32x32x96, .f32⟩ : BufTy).Contents (Elt F) → (⟨S64x32x32x288, .f32⟩ : BufTy).Contents (Elt F) → (⟨S64x32x32x384, .f32⟩ : BufTy).Contents (Elt F)) := rfl
  rw [read_binary (a := main_v64) (b := main_v1) (y := main_v65) ops_fresh 75 (hp := lt_ops_length (by decide)) (hop := hop), after_v64 V, after_v1 V]
  rfl

/-- Operation 76 writes `main_call0_cst`, a constant: after the line the buffer holds its stage. -/
theorem after_call0_cst (V : Valuation τ sig (Elt F)) :
    after (Cert.ReferenceIdeal.ValueP.ops (F := F)) V (Proc.devRef .tc main_call0_cst)
      = Cert.ReferenceIdeal.ReadP.val_main_call0_cst (F := F) := by
  have hop : (Cert.ReferenceIdeal.ValueP.ops (F := F))[76]'(lt_ops_length (by decide)) = TRef.nullary (TRef.of (T := ⟨S_, .f32⟩) main_call0_cst) (constant S_ .f32 0x00000000#32) := rfl
  exact (read_nullary (y := main_call0_cst) ops_fresh 76 (hp := lt_ops_length (by decide)) (hop := hop)).trans rfl

/-- Operation 77 writes `main_call0_v0`, a function of `main_call0_cst`: after the line the buffer holds its stage. -/
theorem after_call0_v0 (V : Valuation τ sig (Elt F)) :
    after (Cert.ReferenceIdeal.ValueP.ops (F := F)) V (Proc.devRef .tc main_call0_v0)
      = Cert.ReferenceIdeal.ReadP.val_main_call0_v0 (F := F) := by
  have hop : (Cert.ReferenceIdeal.ValueP.ops (F := F))[77]'(lt_ops_length (by decide)) = TRef.unary (TRef.of (T := ⟨S_, .f32⟩) main_call0_cst) (TRef.of (T := ⟨S64x32x32x384, .f32⟩) main_call0_v0) (broadcastInDim S64x32x32x384 ![] bcast_S_S64x32x32x384) := rfl
  rw [read_unary (x := main_call0_cst) (y := main_call0_v0) ops_fresh 77 (hp := lt_ops_length (by decide)) (hop := hop), after_call0_cst V]
  rfl

/-- Operation 78 writes `main_v66`, a function of `main_v65` and `main_call0_v0`: after the line the buffer holds its stage. -/
theorem after_v66 (V : Valuation τ sig (Elt F)) :
    after (Cert.ReferenceIdeal.ValueP.ops (F := F)) V (Proc.devRef .tc main_v66)
      = Cert.ReferenceIdeal.ReadP.val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hop : (Cert.ReferenceIdeal.ValueP.ops (F := F))[78]'(lt_ops_length (by decide)) = TRef.binary (TRef.of (T := ⟨S64x32x32x384, .f32⟩) main_v65) (TRef.of (T := ⟨S64x32x32x384, .f32⟩) main_call0_v0) (TRef.of (T := ⟨S64x32x32x384, .f32⟩) main_v66) maximumf := rfl
  rw [read_binary (a := main_v65) (b := main_call0_v0) (y := main_v66) ops_fresh 78 (hp := lt_ops_length (by decide)) (hop := hop), after_v65 V, after_call0_v0 V]
  rfl

/-- Operation 79 writes `main_v67`, a function of `main_v66` and `main_arg9`: after the line the buffer holds its stage. -/
theorem after_v67 (V : Valuation τ sig (Elt F)) :
    after (Cert.ReferenceIdeal.ValueP.ops (F := F)) V (Proc.devRef .tc main_v67)
      = Cert.ReferenceIdeal.ReadP.val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  have hop : (Cert.ReferenceIdeal.ValueP.ops (F := F))[79]'(lt_ops_length (by decide)) = binary main_v66 main_arg9 main_v67 ((fun l r => Host.dotGeneral dot_S64x32x32x384_S384x384_S64x32x32x384_3_0_012_1_n_n none l r) : (⟨S64x32x32x384, .f32⟩ : BufTy).Contents (Elt F) → (⟨S384x384, .f32⟩ : BufTy).Contents (Elt F) → (⟨S64x32x32x384, .f32⟩ : BufTy).Contents (Elt F)) := rfl
  rw [read_binary (a := main_v66) (b := main_arg9) (y := main_v67) ops_fresh 79 (hp := lt_ops_length (by decide)) (hop := hop), after_v66 V, after_arg V main_arg9 (by decide)]
  rfl

/-- Operation 80 writes `main_v68`, a function of `main_arg10`: after the line the buffer holds its stage. -/
theorem after_v68 (V : Valuation τ sig (Elt F)) :
    after (Cert.ReferenceIdeal.ValueP.ops (F := F)) V (Proc.devRef .tc main_v68)
      = Cert.ReferenceIdeal.ReadP.val_main_v68 (F := F) (V (Proc.devRef .tc main_arg10)) := by
  have hop : (Cert.ReferenceIdeal.ValueP.ops (F := F))[80]'(lt_ops_length (by decide)) = unary main_arg10 main_v68 (broadcastInDim S1x1x1x384 ![3] bcast_S384_S1x1x1x384_3 : (⟨S384, .f32⟩ : BufTy).Contents (Elt F) → (⟨S1x1x1x384, .f32⟩ : BufTy).Contents (Elt F)) := rfl
  rw [read_unary (x := main_arg10) (y := main_v68) ops_fresh 80 (hp := lt_ops_length (by decide)) (hop := hop), after_arg V main_arg10 (by decide)]
  rfl

/-- Operation 81 writes `main_v69`, a function of `main_v68`: after the line the buffer holds its stage. -/
theorem after_v69 (V : Valuation τ sig (Elt F)) :
    after (Cert.ReferenceIdeal.ValueP.ops (F := F)) V (Proc.devRef .tc main_v69)
      = Cert.ReferenceIdeal.ReadP.val_main_v69 (F := F) (V (Proc.devRef .tc main_arg10)) := by
  have hop : (Cert.ReferenceIdeal.ValueP.ops (F := F))[81]'(lt_ops_length (by decide)) = unary main_v68 main_v69 (broadcastInDim S64x32x32x384 ![0, 1, 2, 3] bcast_S1x1x1x384_S64x32x32x384_0_1_2_3 : (⟨S1x1x1x384, .f32⟩ : BufTy).Contents (Elt F) → (⟨S64x32x32x384, .f32⟩ : BufTy).Contents (Elt F)) := rfl
  rw [read_unary (x := main_v68) (y := main_v69) ops_fresh 81 (hp := lt_ops_length (by decide)) (hop := hop), after_v68 V]
  rfl

/-- Operation 82 writes `main_v70`, a function of `main_v67` and `main_v69`: after the line the buffer holds its stage. -/
theorem after_v70 (V : Valuation τ sig (Elt F)) :
    after (Cert.ReferenceIdeal.ValueP.ops (F := F)) V (Proc.devRef .tc main_v70)
      = Cert.ReferenceIdeal.ReadP.val_main_v70 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  have hop : (Cert.ReferenceIdeal.ValueP.ops (F := F))[82]'(lt_ops_length (by decide)) = binary main_v67 main_v69 main_v70 (addf : (⟨S64x32x32x384, .f32⟩ : BufTy).Contents (Elt F) → (⟨S64x32x32x384, .f32⟩ : BufTy).Contents (Elt F) → (⟨S64x32x32x384, .f32⟩ : BufTy).Contents (Elt F)) := rfl
  rw [read_binary (a := main_v67) (b := main_v69) (y := main_v70) ops_fresh 82 (hp := lt_ops_length (by decide)) (hop := hop), after_v67 V, after_v69 V]
  rfl

/-- Operation 83 writes `main_v71`, a function of `main_arg13`: after the line the buffer holds its stage. -/
theorem after_v71 (V : Valuation τ sig (Elt F)) :
    after (Cert.ReferenceIdeal.ValueP.ops (F := F)) V (Proc.devRef .tc main_v71)
      = Cert.ReferenceIdeal.ReadP.val_main_v71 (F := F) (V (Proc.devRef .tc main_arg13)) := by
  have hop : (Cert.ReferenceIdeal.ValueP.ops (F := F))[83]'(lt_ops_length (by decide)) = unary main_arg13 main_v71 (broadcastInDim S1x1x1x384 ![3] bcast_S384_S1x1x1x384_3 : (⟨S384, .f32⟩ : BufTy).Contents (Elt F) → (⟨S1x1x1x384, .f32⟩ : BufTy).Contents (Elt F)) := rfl
  rw [read_unary (x := main_arg13) (y := main_v71) ops_fresh 83 (hp := lt_ops_length (by decide)) (hop := hop), after_arg V main_arg13 (by decide)]
  rfl

/-- Operation 84 writes `main_v72`, a function of `main_v71`: after the line the buffer holds its stage. -/
theorem after_v72 (V : Valuation τ sig (Elt F)) :
    after (Cert.ReferenceIdeal.ValueP.ops (F := F)) V (Proc.devRef .tc main_v72)
      = Cert.ReferenceIdeal.ReadP.val_main_v72 (F := F) (V (Proc.devRef .tc main_arg13)) := by
  have hop : (Cert.ReferenceIdeal.ValueP.ops (F := F))[84]'(lt_ops_length (by decide)) = unary main_v71 main_v72 (broadcastInDim S64x32x32x384 ![0, 1, 2, 3] bcast_S1x1x1x384_S64x32x32x384_0_1_2_3 : (⟨S1x1x1x384, .f32⟩ : BufTy).Contents (Elt F) → (⟨S64x32x32x384, .f32⟩ : BufTy).Contents (Elt F)) := rfl
  rw [read_unary (x := main_v71) (y := main_v72) ops_fresh 84 (hp := lt_ops_length (by decide)) (hop := hop), after_v71 V]
  rfl

/-- Operation 85 writes `main_v73`, a function of `main_v70` and `main_v72`: after the line the buffer holds its stage. -/
theorem after_v73 (V : Valuation τ sig (Elt F)) :
    after (Cert.ReferenceIdeal.ValueP.ops (F := F)) V (Proc.devRef .tc main_v73)
      = Cert.ReferenceIdeal.ReadP.val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg13)) := by
  have hop : (Cert.ReferenceIdeal.ValueP.ops (F := F))[85]'(lt_ops_length (by decide)) = binary main_v70 main_v72 main_v73 (subf : (⟨S64x32x32x384, .f32⟩ : BufTy).Contents (Elt F) → (⟨S64x32x32x384, .f32⟩ : BufTy).Contents (Elt F) → (⟨S64x32x32x384, .f32⟩ : BufTy).Contents (Elt F)) := rfl
  rw [read_binary (a := main_v70) (b := main_v72) (y := main_v73) ops_fresh 85 (hp := lt_ops_length (by decide)) (hop := hop), after_v70 V, after_v72 V]
  rfl

/-- Operation 86 writes `main_cst_9`, a constant: after the line the buffer holds its stage. -/
theorem after_cst_9 (V : Valuation τ sig (Elt F)) :
    after (Cert.ReferenceIdeal.ValueP.ops (F := F)) V (Proc.devRef .tc main_cst_9)
      = Cert.ReferenceIdeal.ReadP.val_main_cst_9 (F := F) := by
  have hop : (Cert.ReferenceIdeal.ValueP.ops (F := F))[86]'(lt_ops_length (by decide)) = nullary main_cst_9 (constant S_ .f32 0x3A83126F#32) := rfl
  exact (read_nullary (y := main_cst_9) ops_fresh 86 (hp := lt_ops_length (by decide)) (hop := hop)).trans rfl

/-- Operation 87 writes `main_v74`, a function of `main_cst_9`: after the line the buffer holds its stage. -/
theorem after_v74 (V : Valuation τ sig (Elt F)) :
    after (Cert.ReferenceIdeal.ValueP.ops (F := F)) V (Proc.devRef .tc main_v74)
      = Cert.ReferenceIdeal.ReadP.val_main_v74 (F := F) := by
  have hop : (Cert.ReferenceIdeal.ValueP.ops (F := F))[87]'(lt_ops_length (by decide)) = unary main_cst_9 main_v74 (broadcastInDim S384 ![] bcast_S_S384 : (⟨S_, .f32⟩ : BufTy).Contents (Elt F) → (⟨S384, .f32⟩ : BufTy).Contents (Elt F)) := rfl
  rw [read_unary (x := main_cst_9) (y := main_v74) ops_fresh 87 (hp := lt_ops_length (by decide)) (hop := hop), after_cst_9 V]
  rfl

/-- Operation 88 writes `main_v75`, a function of `main_arg14` and `main_v74`: after the line the buffer holds its stage. -/
theorem after_v75 (V : Valuation τ sig (Elt F)) :
    after (Cert.ReferenceIdeal.ValueP.ops (F := F)) V (Proc.devRef .tc main_v75)
      = Cert.ReferenceIdeal.ReadP.val_main_v75 (F := F) (V (Proc.devRef .tc main_arg14)) := by
  have hop : (Cert.ReferenceIdeal.ValueP.ops (F := F))[88]'(lt_ops_length (by decide)) = binary main_arg14 main_v74 main_v75 (addf : (⟨S384, .f32⟩ : BufTy).Contents (Elt F) → (⟨S384, .f32⟩ : BufTy).Contents (Elt F) → (⟨S384, .f32⟩ : BufTy).Contents (Elt F)) := rfl
  rw [read_binary (a := main_arg14) (b := main_v74) (y := main_v75) ops_fresh 88 (hp := lt_ops_length (by decide)) (hop := hop), after_arg V main_arg14 (by decide), after_v74 V]
  rfl

/-- Operation 89 writes `main_v76`, a function of `main_v75`: after the line the buffer holds its stage. -/
theorem after_v76 (V : Valuation τ sig (Elt F)) :
    after (Cert.ReferenceIdeal.ValueP.ops (F := F)) V (Proc.devRef .tc main_v76)
      = Cert.ReferenceIdeal.ReadP.val_main_v76 (F := F) (V (Proc.devRef .tc main_arg14)) := by
  have hop : (Cert.ReferenceIdeal.ValueP.ops (F := F))[89]'(lt_ops_length (by decide)) = unary main_v75 main_v76 (Host.rsqrt : (⟨S384, .f32⟩ : BufTy).Contents (Elt F) → (⟨S384, .f32⟩ : BufTy).Contents (Elt F)) := rfl
  rw [read_unary (x := main_v75) (y := main_v76) ops_fresh 89 (hp := lt_ops_length (by decide)) (hop := hop), after_v75 V]
  rfl

/-- Operation 90 writes `main_v77`, a function of `main_arg11` and `main_v76`: after the line the buffer holds its stage. -/
theorem after_v77 (V : Valuation τ sig (Elt F)) :
    after (Cert.ReferenceIdeal.ValueP.ops (F := F)) V (Proc.devRef .tc main_v77)
      = Cert.ReferenceIdeal.ReadP.val_main_v77 (F := F) (V (Proc.devRef .tc main_arg11)) (V (Proc.devRef .tc main_arg14)) := by
  have hop : (Cert.ReferenceIdeal.ValueP.ops (F := F))[90]'(lt_ops_length (by decide)) = binary main_arg11 main_v76 main_v77 (mulf : (⟨S384, .f32⟩ : BufTy).Contents (Elt F) → (⟨S384, .f32⟩ : BufTy).Contents (Elt F) → (⟨S384, .f32⟩ : BufTy).Contents (Elt F)) := rfl
  rw [read_binary (a := main_arg11) (b := main_v76) (y := main_v77) ops_fresh 90 (hp := lt_ops_length (by decide)) (hop := hop), after_arg V main_arg11 (by decide), after_v76 V]
  rfl

/-- Operation 91 writes `main_v78`, a function of `main_v77`: after the line the buffer holds its stage. -/
theorem after_v78 (V : Valuation τ sig (Elt F)) :
    after (Cert.ReferenceIdeal.ValueP.ops (F := F)) V (Proc.devRef .tc main_v78)
      = Cert.ReferenceIdeal.ReadP.val_main_v78 (F := F) (V (Proc.devRef .tc main_arg11)) (V (Proc.devRef .tc main_arg14)) := by
  have hop : (Cert.ReferenceIdeal.ValueP.ops (F := F))[91]'(lt_ops_length (by decide)) = unary main_v77 main_v78 (broadcastInDim S1x1x1x384 ![3] bcast_S384_S1x1x1x384_3 : (⟨S384, .f32⟩ : BufTy).Contents (Elt F) → (⟨S1x1x1x384, .f32⟩ : BufTy).Contents (Elt F)) := rfl
  rw [read_unary (x := main_v77) (y := main_v78) ops_fresh 91 (hp := lt_ops_length (by decide)) (hop := hop), after_v77 V]
  rfl

/-- Operation 92 writes `main_v79`, a function of `main_v78`: after the line the buffer holds its stage. -/
theorem after_v79 (V : Valuation τ sig (Elt F)) :
    after (Cert.ReferenceIdeal.ValueP.ops (F := F)) V (Proc.devRef .tc main_v79)
      = Cert.ReferenceIdeal.ReadP.val_main_v79 (F := F) (V (Proc.devRef .tc main_arg11)) (V (Proc.devRef .tc main_arg14)) := by
  have hop : (Cert.ReferenceIdeal.ValueP.ops (F := F))[92]'(lt_ops_length (by decide)) = unary main_v78 main_v79 (broadcastInDim S64x32x32x384 ![0, 1, 2, 3] bcast_S1x1x1x384_S64x32x32x384_0_1_2_3 : (⟨S1x1x1x384, .f32⟩ : BufTy).Contents (Elt F) → (⟨S64x32x32x384, .f32⟩ : BufTy).Contents (Elt F)) := rfl
  rw [read_unary (x := main_v78) (y := main_v79) ops_fresh 92 (hp := lt_ops_length (by decide)) (hop := hop), after_v78 V]
  rfl

/-- Operation 93 writes `main_v80`, a function of `main_v73` and `main_v79`: after the line the buffer holds its stage. -/
theorem after_v80 (V : Valuation τ sig (Elt F)) :
    after (Cert.ReferenceIdeal.ValueP.ops (F := F)) V (Proc.devRef .tc main_v80)
      = Cert.ReferenceIdeal.ReadP.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg13)) (V (Proc.devRef .tc main_arg14)) := by
  have hop : (Cert.ReferenceIdeal.ValueP.ops (F := F))[93]'(lt_ops_length (by decide)) = binary main_v73 main_v79 main_v80 (mulf : (⟨S64x32x32x384, .f32⟩ : BufTy).Contents (Elt F) → (⟨S64x32x32x384, .f32⟩ : BufTy).Contents (Elt F) → (⟨S64x32x32x384, .f32⟩ : BufTy).Contents (Elt F)) := rfl
  rw [read_binary (a := main_v73) (b := main_v79) (y := main_v80) ops_fresh 93 (hp := lt_ops_length (by decide)) (hop := hop), after_v73 V, after_v79 V]
  rfl

/-- Operation 94 writes `main_v81`, a function of `main_arg12`: after the line the buffer holds its stage. -/
theorem after_v81 (V : Valuation τ sig (Elt F)) :
    after (Cert.ReferenceIdeal.ValueP.ops (F := F)) V (Proc.devRef .tc main_v81)
      = Cert.ReferenceIdeal.ReadP.val_main_v81 (F := F) (V (Proc.devRef .tc main_arg12)) := by
  have hop : (Cert.ReferenceIdeal.ValueP.ops (F := F))[94]'(lt_ops_length (by decide)) = unary main_arg12 main_v81 (broadcastInDim S1x1x1x384 ![3] bcast_S384_S1x1x1x384_3 : (⟨S384, .f32⟩ : BufTy).Contents (Elt F) → (⟨S1x1x1x384, .f32⟩ : BufTy).Contents (Elt F)) := rfl
  rw [read_unary (x := main_arg12) (y := main_v81) ops_fresh 94 (hp := lt_ops_length (by decide)) (hop := hop), after_arg V main_arg12 (by decide)]
  rfl

/-- Operation 95 writes `main_v82`, a function of `main_v81`: after the line the buffer holds its stage. -/
theorem after_v82 (V : Valuation τ sig (Elt F)) :
    after (Cert.ReferenceIdeal.ValueP.ops (F := F)) V (Proc.devRef .tc main_v82)
      = Cert.ReferenceIdeal.ReadP.val_main_v82 (F := F) (V (Proc.devRef .tc main_arg12)) := by
  have hop : (Cert.ReferenceIdeal.ValueP.ops (F := F))[95]'(lt_ops_length (by decide)) = unary main_v81 main_v82 (broadcastInDim S64x32x32x384 ![0, 1, 2, 3] bcast_S1x1x1x384_S64x32x32x384_0_1_2_3 : (⟨S1x1x1x384, .f32⟩ : BufTy).Contents (Elt F) → (⟨S64x32x32x384, .f32⟩ : BufTy).Contents (Elt F)) := rfl
  rw [read_unary (x := main_v81) (y := main_v82) ops_fresh 95 (hp := lt_ops_length (by decide)) (hop := hop), after_v81 V]
  rfl

/-- After the reference's 97 operations the result buffer holds the stages' composition of the fifteen argument arrays. -/
theorem after_v83 (V : Valuation τ sig (Elt F)) :
    after (Cert.ReferenceIdeal.ValueP.ops (F := F)) V (Proc.devRef .tc main_v83)
      = Cert.ReferenceIdeal.ReadP.val_main_v83 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  have hop : (Cert.ReferenceIdeal.ValueP.ops (F := F))[96]'(lt_ops_length (by decide)) = binary main_v80 main_v82 main_v83 (addf : (⟨S64x32x32x384, .f32⟩ : BufTy).Contents (Elt F) → (⟨S64x32x32x384, .f32⟩ : BufTy).Contents (Elt F) → (⟨S64x32x32x384, .f32⟩ : BufTy).Contents (Elt F)) := rfl
  rw [read_binary (a := main_v80) (b := main_v82) (y := main_v83) ops_fresh 96 (hp := lt_ops_length (by decide)) (hop := hop), after_v80 V, after_v82 V]
  rfl

end Cert.Shsa.RefAfter

end
-- ==== Proof.RefQkv.lean ====
/-
  The reference's normalisation, 96 → 128 map and running normalisation, read entry by entry: its 128 channels at
  image `b`, row `h`, column `w` are the layer's `qkv` of image `b` at position 32 h + w.
-/
import proofs.«421979_j14285061226833_3_alg».proof.Proof.RefRead
import proofs.«421979_j14285061226833_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Shsa.RefQkv

open Idealize.ShloMosaic Idealize.ShloMosaic.ValueIdx Cert.ReferenceIdeal Cert.ReferenceIdeal.Gen Cert.ReferenceIdeal.ReadP Cert.Shsa

section Normalise

variable (x0 : (⟨S64x32x32x384, .f32⟩ : BufTy).Contents (Elt Ideal))

/-- The slice keeps channel `c < 96`: its entry (b, h, w, c) is channel `c` of image `b` at position 32 h + w. -/
theorem v0_at (b : Fin 64) (h w : Fin 32) (c : Fin 96) :
    val_main_v0 (F := Ideal) x0 (ix4 b h w c) = Cert.Shsa.x1 (imgOf x0 b) (posOf h w) c := by
  rw [val_main_v0_apply]
  show x0 _ = x0 (ix4 b (rowOf (posOf h w)) (colOf (posOf h w)) (lo96 c))
  rw [rowOf_posOf, colOf_posOf]
  exact congrArg x0 (funext fun a => Fin.ext (by
    match a with | ⟨0, _⟩ => rfl | ⟨1, _⟩ => rfl | ⟨2, _⟩ => rfl | ⟨3, _⟩ => rfl))

/-- The first reduction is the sum of a position's 96 channels. -/
theorem v2_at (b : Fin 64) (h w : Fin 32) :
    val_main_v2 (F := Ideal) x0 (ix3 b h w) = ∑ c : Fin 96, Cert.Shsa.x1 (imgOf x0 b) (posOf h w) c := by
  rw [val_main_v2_apply, val_main_cst_apply, Ideal.ofBits_def, Ideal.ofBits_zero_f32, zero_add]
  refine Finset.sum_congr rfl fun k _ => ?_
  rw [← v0_at]
  exact congrArg (val_main_v0 (F := Ideal) x0) (funext fun a => Fin.ext (by
    match a with | ⟨0, _⟩ => rfl | ⟨1, _⟩ => rfl | ⟨2, _⟩ => rfl | ⟨3, _⟩ => rfl))

/-- Divided by 96 it is the position's mean (the array keeps a last axis of length one). -/
theorem v5_at (b : Fin 64) (h w : Fin 32) (z : Fin 1) :
    val_main_v5 (F := Ideal) x0 (ix4 b h w z) = mu (imgOf x0 b) (posOf h w) := by
  have e3 : idx_main_v3 (ix4 b h w z) = ix3 b h w := funext fun a => Fin.ext (by
    match a with | ⟨0, _⟩ => rfl | ⟨1, _⟩ => rfl | ⟨2, _⟩ => rfl)
  rw [val_main_v5_apply, val_main_v3_apply, e3, v2_at, val_main_v4_apply, val_main_cst_0_apply]
  rfl

/-- Subtracting the mean, spread back over the 96 channels, gives the deviation. -/
theorem v7_at (b : Fin 64) (h w : Fin 32) (c : Fin 96) :
    val_main_v7 (F := Ideal) x0 (ix4 b h w c) = dev (imgOf x0 b) (posOf h w) c := by
  have e6 : idx_main_v6 (ix4 b h w c) = ix4 b h w (⟨0, Nat.one_pos⟩ : Fin 1) := funext fun a => Fin.ext (by
    match a with | ⟨0, _⟩ => rfl | ⟨1, _⟩ => rfl | ⟨2, _⟩ => rfl | ⟨3, _⟩ => rfl)
  rw [val_main_v7_apply, val_main_v6_apply, e6, v5_at, v0_at]
  rfl

/-- The program forms the deviation a second time, for the normalised value. -/
theorem v14_at (b : Fin 64) (h w : Fin 32) (c : Fin 96) :
    val_main_v14 (F := Ideal) x0 (ix4 b h w c) = dev (imgOf x0 b) (posOf h w) c := by
  have e13 : idx_main_v13 (ix4 b h w c) = ix4 b h w (⟨0, Nat.one_pos⟩ : Fin 1) := funext fun a => Fin.ext (by
    match a with | ⟨0, _⟩ => rfl | ⟨1, _⟩ => rfl | ⟨2, _⟩ => rfl | ⟨3, _⟩ => rfl)
  rw [val_main_v14_apply, val_main_v13_apply, e13, v5_at, v0_at]
  rfl

/-- The second reduction is the sum of the squared deviations. -/
theorem v9_at (b : Fin 64) (h w : Fin 32) :
    val_main_v9 (F := Ideal) x0 (ix3 b h w)
      = ∑ c : Fin 96, dev (imgOf x0 b) (posOf h w) c * dev (imgOf x0 b) (posOf h w) c := by
  rw [val_main_v9_apply, val_main_cst_1_apply, Ideal.ofBits_def, Ideal.ofBits_zero_f32, zero_add]
  refine Finset.sum_congr rfl fun k _ => ?_
  have e9 : idx_main_v9 (ix3 b h w) k = ix4 b h w k := funext fun a => Fin.ext (by
    match a with | ⟨0, _⟩ => rfl | ⟨1, _⟩ => rfl | ⟨2, _⟩ => rfl | ⟨3, _⟩ => rfl)
  rw [e9, val_main_v8_apply, v7_at]
  rfl

/-- Divided by 96 it is the position's variance. -/
theorem v12_at (b : Fin 64) (h w : Fin 32) (z : Fin 1) :
    val_main_v12 (F := Ideal) x0 (ix4 b h w z) = vr (imgOf x0 b) (posOf h w) := by
  have e10 : idx_main_v10 (ix4 b h w z) = ix3 b h w := funext fun a => Fin.ext (by
    match a with | ⟨0, _⟩ => rfl | ⟨1, _⟩ => rfl | ⟨2, _⟩ => rfl)
  rw [val_main_v12_apply, val_main_v10_apply, e10, v9_at, val_main_v11_apply, val_main_cst_2_apply]
  rfl

/-- The regularised inverse standard deviation of the position. -/
theorem v17_at (b : Fin 64) (h w : Fin 32) (z : Fin 1) :
    val_main_v17 (F := Ideal) x0 (ix4 b h w z) = rstd (imgOf x0 b) (posOf h w) := by
  rw [val_main_v17_apply, val_main_v16_apply, v12_at, val_main_v15_apply, val_main_cst_3_apply]
  rfl

/-- The deviation times the inverse standard deviation. -/
theorem v19_at (b : Fin 64) (h w : Fin 32) (c : Fin 96) :
    val_main_v19 (F := Ideal) x0 (ix4 b h w c)
      = dev (imgOf x0 b) (posOf h w) c * rstd (imgOf x0 b) (posOf h w) := by
  have e18 : idx_main_v18 (ix4 b h w c) = ix4 b h w (⟨0, Nat.one_pos⟩ : Fin 1) := funext fun a => Fin.ext (by
    match a with | ⟨0, _⟩ => rfl | ⟨1, _⟩ => rfl | ⟨2, _⟩ => rfl | ⟨3, _⟩ => rfl)
  rw [val_main_v19_apply, v14_at, val_main_v18_apply, e18, v17_at]
  rfl

end Normalise

section Affine

variable (x0 : (⟨S64x32x32x384, .f32⟩ : BufTy).Contents (Elt Ideal))
  (x1 x2 : (⟨S96, .f32⟩ : BufTy).Contents (Elt Ideal)) (x3 : (⟨S96x128, .f32⟩ : BufTy).Contents (Elt Ideal))
  (x4 x5 x6 x7 x8 : (⟨S128, .f32⟩ : BufTy).Contents (Elt Ideal)) (x9 : (⟨S384x384, .f32⟩ : BufTy).Contents (Elt Ideal))
  (x10 x11 x12 x13 x14 : (⟨S384, .f32⟩ : BufTy).Contents (Elt Ideal))

/-- A vector of 96 channels spread over batch, rows and columns reads the vector at the channel. -/
theorem v21_at (b : Fin 64) (h w : Fin 32) (c : Fin 96) :
    val_main_v21 (F := Ideal) x1 (ix4 b h w c) = x1 (ix1 c) := by
  rw [val_main_v21_apply, val_main_v20_apply]
  exact congrArg x1 (funext fun a => Fin.ext (by match a with | ⟨0, _⟩ => rfl))

/-- Likewise for the first normalisation's bias. -/
theorem v24_at (b : Fin 64) (h w : Fin 32) (c : Fin 96) :
    val_main_v24 (F := Ideal) x2 (ix4 b h w c) = x2 (ix1 c) := by
  rw [val_main_v24_apply, val_main_v23_apply]
  exact congrArg x2 (funext fun a => Fin.ext (by match a with | ⟨0, _⟩ => rfl))

/-- Scaled by the first normalisation's weight and shifted by its bias: the normalised channels. -/
theorem v25_at (b : Fin 64) (h w : Fin 32) (c : Fin 96) :
    val_main_v25 (F := Ideal) x0 x1 x2 (ix4 b h w c)
      = x1n (paramsOf x1 x2 x3 x4 x5 x6 x7 x8 x9 x10 x11 x12 x13 x14) (imgOf x0 b) (posOf h w) c := by
  rw [val_main_v25_apply, val_main_v22_apply, v19_at, v21_at, v24_at]
  rfl

/-- The contraction over the 96 channels with the 96 × 128 matrix. -/
theorem v26_at (b : Fin 64) (h w : Fin 32) (j : Fin 128) :
    val_main_v26 (F := Ideal) x0 x1 x2 x3 (ix4 b h w j)
      = ∑ c : Fin 96, x1n (paramsOf x1 x2 x3 x4 x5 x6 x7 x8 x9 x10 x11 x12 x13 x14) (imgOf x0 b) (posOf h w) c
          * (paramsOf x1 x2 x3 x4 x5 x6 x7 x8 x9 x10 x11 x12 x13 x14).W c j := by
  rw [val_main_v26_apply]
  refine Finset.sum_congr rfl fun k _ => ?_
  have el : lidx_main_v26 (ix4 b h w j) k = ix4 b h w k := funext fun a => Fin.ext (by
    match a with | ⟨0, _⟩ => rfl | ⟨1, _⟩ => rfl | ⟨2, _⟩ => rfl | ⟨3, _⟩ => rfl)
  have er : ridx_main_v26 (ix4 b h w j) k = ix2 k j := funext fun a => Fin.ext (by
    match a with | ⟨0, _⟩ => rfl | ⟨1, _⟩ => rfl)
  rw [el, er, v25_at x0 x1 x2 x3 x4 x5 x6 x7 x8 x9 x10 x11 x12 x13 x14]
  rfl

/-- A vector of 128 channels spread over batch, rows and columns reads the vector at the channel. -/
theorem v28_at (b : Fin 64) (h w : Fin 32) (j : Fin 128) :
    val_main_v28 (F := Ideal) x4 (ix4 b h w j) = x4 (ix1 j) := by
  rw [val_main_v28_apply, val_main_v27_apply]
  exact congrArg x4 (funext fun a => Fin.ext (by match a with | ⟨0, _⟩ => rfl))

/-- Likewise for the running mean. -/
theorem v31_at (b : Fin 64) (h w : Fin 32) (j : Fin 128) :
    val_main_v31 (F := Ideal) x7 (ix4 b h w j) = x7 (ix1 j) := by
  rw [val_main_v31_apply, val_main_v30_apply]
  exact congrArg x7 (funext fun a => Fin.ext (by match a with | ⟨0, _⟩ => rfl))

/-- Likewise for the running normalisation's shift. -/
theorem v41_at (b : Fin 64) (h w : Fin 32) (j : Fin 128) :
    val_main_v41 (F := Ideal) x6 (ix4 b h w j) = x6 (ix1 j) := by
  rw [val_main_v41_apply, val_main_v40_apply]
  exact congrArg x6 (funext fun a => Fin.ext (by match a with | ⟨0, _⟩ => rfl))

/-- With the bias added: the affine map to 128 channels. -/
theorem v29_at (b : Fin 64) (h w : Fin 32) (j : Fin 128) :
    val_main_v29 (F := Ideal) x0 x1 x2 x3 x4 (ix4 b h w j)
      = pre (paramsOf x1 x2 x3 x4 x5 x6 x7 x8 x9 x10 x11 x12 x13 x14) (imgOf x0 b) (posOf h w) j := by
  rw [val_main_v29_apply, v26_at x0 x1 x2 x3 x4 x5 x6 x7 x8 x9 x10 x11 x12 x13 x14, v28_at]
  rfl

/-- The running normalisation's scale: the weight times the inverse root of the regularised running variance. -/
theorem v36_at (j : Fin 128) :
    val_main_v36 (F := Ideal) x5 x8 (ix1 j)
      = sc (paramsOf x1 x2 x3 x4 x5 x6 x7 x8 x9 x10 x11 x12 x13 x14) j := by
  rw [val_main_v36_apply, val_main_v35_apply, val_main_v34_apply, val_main_v33_apply, val_main_cst_4_apply]
  rfl

/-- The scale spread over batch, rows and columns. -/
theorem v38_at (b : Fin 64) (h w : Fin 32) (j : Fin 128) :
    val_main_v38 (F := Ideal) x5 x8 (ix4 b h w j)
      = sc (paramsOf x1 x2 x3 x4 x5 x6 x7 x8 x9 x10 x11 x12 x13 x14) j := by
  rw [val_main_v38_apply, val_main_v37_apply, ← v36_at x1 x2 x3 x4 x5 x6 x7 x8 x9 x10 x11 x12 x13 x14 j]
  exact congrArg (val_main_v36 (F := Ideal) x5 x8) (funext fun a => Fin.ext (by match a with | ⟨0, _⟩ => rfl))

end Affine

/-- The reference's 128 channels. -/
theorem ref_qkv (x0 : (⟨S64x32x32x384, .f32⟩ : BufTy).Contents (Elt Ideal)) (x1 x2 : (⟨S96, .f32⟩ : BufTy).Contents (Elt Ideal)) (x3 : (⟨S96x128, .f32⟩ : BufTy).Contents (Elt Ideal)) (x4 x5 x6 x7 x8 : (⟨S128, .f32⟩ : BufTy).Contents (Elt Ideal)) (x9 : (⟨S384x384, .f32⟩ : BufTy).Contents (Elt Ideal)) (x10 x11 x12 x13 x14 : (⟨S384, .f32⟩ : BufTy).Contents (Elt Ideal))
    (b : Fin 64) (h w : Fin 32) (j : Fin 128) :
    val_main_v42 (F := Ideal) x0 x1 x2 x3 x4 x5 x6 x7 x8 (ix4 b h w j)
      = qkv (paramsOf x1 x2 x3 x4 x5 x6 x7 x8 x9 x10 x11 x12 x13 x14) (imgOf x0 b) (posOf h w) j := by
  rw [val_main_v42_apply, val_main_v39_apply, val_main_v32_apply,
    v29_at x0 x1 x2 x3 x4 x5 x6 x7 x8 x9 x10 x11 x12 x13 x14, v31_at,
    v38_at x1 x2 x3 x4 x5 x6 x7 x8 x9 x10 x11 x12 x13 x14, v41_at]
  rfl

end Cert.Shsa.RefQkv

end
-- ==== Proof.RefValue.lean ====
/-
  The reference's attention, output map and output normalisation, read entry by entry over its 128 channels: the
  result at image `b`, row `h`, column `w`, channel `f` is the layer's second writing `outR` of image `b`.
-/
import proofs.«421979_j14285061226833_3_alg».proof.Proof.RefQkv
import Idealize.ShloMosaic.PureOps.Reduce

noncomputable section

open scoped BigOperators

namespace Cert.Shsa.RefValue

open Idealize.ShloMosaic Idealize.ShloMosaic.ValueIdx Cert.ReferenceIdeal Cert.ReferenceIdeal.Gen Cert.ReferenceIdeal.ReadP Cert.Shsa

section Stages

variable (x0 : (⟨S64x32x32x384, .f32⟩ : BufTy).Contents (Elt Ideal)) (x1 x2 : (⟨S96, .f32⟩ : BufTy).Contents (Elt Ideal)) (x3 : (⟨S96x128, .f32⟩ : BufTy).Contents (Elt Ideal)) (x4 x5 x6 x7 x8 : (⟨S128, .f32⟩ : BufTy).Contents (Elt Ideal)) (x9 : (⟨S384x384, .f32⟩ : BufTy).Contents (Elt Ideal)) (x10 x11 x12 x13 x14 : (⟨S384, .f32⟩ : BufTy).Contents (Elt Ideal))

/-- The query at image `b`, position `n`: channels 0 … 15 of the 128, the reshape sending position `n` to row
    `n / 32`, column `n % 32`. -/
theorem q_ref (b : Fin 64) (n : Fin 1024) (d : Fin 16) :
    val_main_v44 (F := Ideal) x0 x1 x2 x3 x4 x5 x6 x7 x8 (ix3 b n d) = q (paramsOf x1 x2 x3 x4 x5 x6 x7 x8 x9 x10 x11 x12 x13 x14) (imgOf x0 b) n d := by
  rw [val_main_v44_apply, val_main_v43_apply]
  have e : idx_main_v43 (idx_main_v44 (ix3 b n d))
      = ix4 b (rowOf n) (colOf n) (⟨d.val, by have := d.isLt; omega⟩ : Fin 128) :=
    funext fun a => Fin.ext (by
      have hb := b.isLt; have hn := n.isLt; have hd := d.isLt
      match a with
      | ⟨0, _⟩ => show ((b.val * 1024 + n.val) * 16 + d.val) / 16384 = b.val; omega
      | ⟨1, _⟩ => show ((b.val * 1024 + n.val) * 16 + d.val) / 512 % 32 = n.val / 32; omega
      | ⟨2, _⟩ => show ((b.val * 1024 + n.val) * 16 + d.val) / 16 % 32 = n.val % 32; omega
      | ⟨3, _⟩ => show ((b.val * 1024 + n.val) * 16 + d.val) % 16 = d.val; omega)
  rw [e, RefQkv.ref_qkv x0 x1 x2 x3 x4 x5 x6 x7 x8 x9 x10 x11 x12 x13 x14, posOf_rowOf_colOf]
  rfl

/-- The key at image `b`, position `m`: channels 16 … 31 of the 128. -/
theorem k_ref (b : Fin 64) (m : Fin 1024) (d : Fin 16) :
    val_main_v46 (F := Ideal) x0 x1 x2 x3 x4 x5 x6 x7 x8 (ix3 b m d) = k (paramsOf x1 x2 x3 x4 x5 x6 x7 x8 x9 x10 x11 x12 x13 x14) (imgOf x0 b) m d := by
  rw [val_main_v46_apply, val_main_v45_apply]
  have e : idx_main_v45 (idx_main_v46 (ix3 b m d))
      = ix4 b (rowOf m) (colOf m) (⟨16 + d.val, by have := d.isLt; omega⟩ : Fin 128) :=
    funext fun a => Fin.ext (by
      have hb := b.isLt; have hm := m.isLt; have hd := d.isLt
      match a with
      | ⟨0, _⟩ => show ((b.val * 1024 + m.val) * 16 + d.val) / 16384 = b.val; omega
      | ⟨1, _⟩ => show ((b.val * 1024 + m.val) * 16 + d.val) / 512 % 32 = m.val / 32; omega
      | ⟨2, _⟩ => show ((b.val * 1024 + m.val) * 16 + d.val) / 16 % 32 = m.val % 32; omega
      | ⟨3, _⟩ => show 16 + ((b.val * 1024 + m.val) * 16 + d.val) % 16 = 16 + d.val; omega)
  rw [e, RefQkv.ref_qkv x0 x1 x2 x3 x4 x5 x6 x7 x8 x9 x10 x11 x12 x13 x14, posOf_rowOf_colOf]
  rfl

/-- The value at image `b`, position `m`: channels 32 … 127 of the 128. -/
theorem v_ref (b : Fin 64) (m : Fin 1024) (c : Fin 96) :
    val_main_v48 (F := Ideal) x0 x1 x2 x3 x4 x5 x6 x7 x8 (ix3 b m c) = v (paramsOf x1 x2 x3 x4 x5 x6 x7 x8 x9 x10 x11 x12 x13 x14) (imgOf x0 b) m c := by
  rw [val_main_v48_apply, val_main_v47_apply]
  have e : idx_main_v47 (idx_main_v48 (ix3 b m c))
      = ix4 b (rowOf m) (colOf m) (⟨32 + c.val, by have := c.isLt; omega⟩ : Fin 128) :=
    funext fun a => Fin.ext (by
      have hb := b.isLt; have hm := m.isLt; have hc := c.isLt
      match a with
      | ⟨0, _⟩ => show ((b.val * 1024 + m.val) * 96 + c.val) / 98304 = b.val; omega
      | ⟨1, _⟩ => show ((b.val * 1024 + m.val) * 96 + c.val) / 3072 % 32 = m.val / 32; omega
      | ⟨2, _⟩ => show ((b.val * 1024 + m.val) * 96 + c.val) / 96 % 32 = m.val % 32; omega
      | ⟨3, _⟩ => show 32 + ((b.val * 1024 + m.val) * 96 + c.val) % 96 = 32 + c.val; omega)
  rw [e, RefQkv.ref_qkv x0 x1 x2 x3 x4 x5 x6 x7 x8 x9 x10 x11 x12 x13 x14, posOf_rowOf_colOf]
  rfl

/-- The scores: the contraction of query and key over their 16 channels, scaled by 1/4 afterwards. -/
theorem score_ref (b : Fin 64) (n m : Fin 1024) :
    val_main_v51 (F := Ideal) x0 x1 x2 x3 x4 x5 x6 x7 x8 (ix3 b n m) = sRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n m := by
  rw [val_main_v51_apply, val_main_v49_apply, val_main_v50_apply, val_main_cst_5_apply]
  show (∑ d : Fin 16, _) * wQuarter = (∑ d : Fin 16, _) * wQuarter
  refine congrArg (· * wQuarter) (Finset.sum_congr rfl fun d _ => ?_)
  have el : lidx_main_v49 (ix3 b n m) d = ix3 b n d :=
    funext fun a => Fin.ext (by match a with | ⟨0, _⟩ => rfl | ⟨1, _⟩ => rfl | ⟨2, _⟩ => rfl)
  have er : ridx_main_v49 (ix3 b n m) d = ix3 b m d :=
    funext fun a => Fin.ext (by match a with | ⟨0, _⟩ => rfl | ⟨1, _⟩ => rfl | ⟨2, _⟩ => rfl)
  rw [el, er, q_ref, k_ref]

/-- The row maximum of the scores, started at minus infinity: the reduction over the last axis is the fold of `max`
    over that axis's 1024 coordinates. -/
theorem rowmax_ref (b : Fin 64) (n : Fin 1024) :
    val_main_v52 (F := Ideal) x0 x1 x2 x3 x4 x5 x6 x7 x8 (ix2 b n) = rmax (sRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n) := by
  have h : S64x1024x1024.Reduces [2] S64x1024 := by decide
  unfold val_main_v52
  rw [Host.reduce_eq_fold_single FloatOps.maximumf _ _ _ h _ (ix2 b n)]
  have hf : (val_main_v51 (F := Ideal) x0 x1 x2 x3 x4 x5 x6 x7 x8) ∘ h.lift (ix2 b n) = sRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n :=
    funext fun (m : Fin 1024) => by
      have e : h.lift (ix2 b n) m = ix3 b n m :=
        funext fun a => Fin.ext (by match a with | ⟨0, _⟩ => rfl | ⟨1, _⟩ => rfl | ⟨2, _⟩ => rfl)
      show val_main_v51 (F := Ideal) x0 x1 x2 x3 x4 x5 x6 x7 x8 (h.lift (ix2 b n) m) = _
      rw [e]
      exact score_ref x0 x1 x2 x3 x4 x5 x6 x7 x8 x9 x10 x11 x12 x13 x14 b n m
  rw [hf]
  rfl

/-- The maximum the softmax subtracts: the row maximum joined once more with minus infinity. -/
theorem mrow_ref (b : Fin 64) (n : Fin 1024) :
    val_main_v54 (F := Ideal) x0 x1 x2 x3 x4 x5 x6 x7 x8 (ix2 b n) = mRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n := by
  rw [val_main_v54_apply, val_main_v53_apply, val_main_cst_7_apply, rowmax_ref]
  rfl

/-- The unnormalised weights: the exponential of a score less its row's maximum. -/
theorem weight_ref (b : Fin 64) (n m : Fin 1024) :
    val_main_v58 (F := Ideal) x0 x1 x2 x3 x4 x5 x6 x7 x8 (ix3 b n m) = pRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n m := by
  rw [val_main_v58_apply, val_main_v57_apply, val_main_v56_apply, val_main_v55_apply]
  have e : idx_main_v55 (idx_main_v56 (ix3 b n m)) = ix2 b n :=
    funext fun a => Fin.ext (by match a with | ⟨0, _⟩ => rfl | ⟨1, _⟩ => rfl)
  rw [e, mrow_ref, score_ref]
  rfl

/-- The sum of a row's weights. -/
theorem sum_ref (b : Fin 64) (n : Fin 1024) :
    val_main_v59 (F := Ideal) x0 x1 x2 x3 x4 x5 x6 x7 x8 (ix2 b n) = lRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n := by
  rw [val_main_v59_apply, val_main_cst_8_apply]
  rw [Ideal.ofBits_def, Ideal.ofBits_zero_f32, zero_add]
  refine Finset.sum_congr rfl fun m _ => ?_
  have e : idx_main_v59 (ix2 b n) m = ix3 b n m :=
    funext fun a => Fin.ext (by match a with | ⟨0, _⟩ => rfl | ⟨1, _⟩ => rfl | ⟨2, _⟩ => rfl)
  rw [e, weight_ref]

/-- The normalised weights: every weight divided by its row's sum. -/
theorem prob_ref (b : Fin 64) (n m : Fin 1024) :
    val_main_v62 (F := Ideal) x0 x1 x2 x3 x4 x5 x6 x7 x8 (ix3 b n m)
      = Ideal.div (pRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n m) (lRg (q (paramsOf x1 x2 x3 x4 x5 x6 x7 x8 x9 x10 x11 x12 x13 x14) (imgOf x0 b)) (k (paramsOf x1 x2 x3 x4 x5 x6 x7 x8 x9 x10 x11 x12 x13 x14) (imgOf x0 b)) n) := by
  rw [val_main_v62_apply, val_main_v61_apply, val_main_v60_apply]
  have e : idx_main_v60 (idx_main_v61 (ix3 b n m)) = ix2 b n :=
    funext fun a => Fin.ext (by match a with | ⟨0, _⟩ => rfl | ⟨1, _⟩ => rfl)
  rw [e, sum_ref, weight_ref]
  rfl

/-- The attended channels at image `b`, position `n`: the normalised weights contracted with the values over the
    1024 positions. -/
theorem attended_ref (b : Fin 64) (n : Fin 1024) (c : Fin 96) :
    val_main_v63 (F := Ideal) x0 x1 x2 x3 x4 x5 x6 x7 x8 (ix3 b n c) = oR (paramsOf x1 x2 x3 x4 x5 x6 x7 x8 x9 x10 x11 x12 x13 x14) (imgOf x0 b) n c := by
  rw [val_main_v63_apply]
  unfold oR oRg
  refine Finset.sum_congr rfl fun m _ => ?_
  have el : lidx_main_v63 (ix3 b n c) m = ix3 b n m :=
    funext fun a => Fin.ext (by match a with | ⟨0, _⟩ => rfl | ⟨1, _⟩ => rfl | ⟨2, _⟩ => rfl)
  have er : ridx_main_v63 (ix3 b n c) m = ix3 b m c :=
    funext fun a => Fin.ext (by match a with | ⟨0, _⟩ => rfl | ⟨1, _⟩ => rfl | ⟨2, _⟩ => rfl)
  rw [el, er, prob_ref, v_ref]

/-- Back on the 32 × 32 grid: the attended channels at row `h`, column `w` are those of position `32 h + w`. -/
theorem attended4_ref (b : Fin 64) (h w : Fin 32) (c : Fin 96) :
    val_main_v64 (F := Ideal) x0 x1 x2 x3 x4 x5 x6 x7 x8 (ix4 b h w c) = oR (paramsOf x1 x2 x3 x4 x5 x6 x7 x8 x9 x10 x11 x12 x13 x14) (imgOf x0 b) (posOf h w) c := by
  rw [val_main_v64_apply]
  have e : idx_main_v64 (ix4 b h w c) = ix3 b (posOf h w) c :=
    funext fun a => Fin.ext (by
      have hb := b.isLt; have hh := h.isLt; have hw := w.isLt; have hc := c.isLt
      match a with
      | ⟨0, _⟩ => show (((b.val * 32 + h.val) * 32 + w.val) * 96 + c.val) / 98304 = b.val; omega
      | ⟨1, _⟩ => show (((b.val * 32 + h.val) * 32 + w.val) * 96 + c.val) / 96 % 1024 = h.val * 32 + w.val; omega
      | ⟨2, _⟩ => show (((b.val * 32 + h.val) * 32 + w.val) * 96 + c.val) % 96 = c.val; omega)
  rw [e, attended_ref]

/-- The 384 channels the output map reads: the attended ones in place of the first 96 input channels, the input's
    channels 96 … 383 after them. -/
theorem concat_ref (b : Fin 64) (h w : Fin 32) (c : Fin 384) :
    val_main_v65 (F := Ideal) x0 x1 x2 x3 x4 x5 x6 x7 x8 (ix4 b h w c)
      = xcg (oR (paramsOf x1 x2 x3 x4 x5 x6 x7 x8 x9 x10 x11 x12 x13 x14) (imgOf x0 b)) (imgOf x0 b) (posOf h w) c := by
  unfold val_main_v65 xcg
  by_cases hc : c.val < 96
  · rw [dif_pos hc]
    refine (concatenate_pair_apply_left (t := S64x32x32x384) (s₁ := S64x32x32x96) (s₂ := S64x32x32x288) _ _ _ _ (ix4 b h w c) rfl (ix4 b h w (⟨c.val, hc⟩ : Fin 96)) (fun a => ?_)).trans ?_
    · match a with | ⟨0, _⟩ => rfl | ⟨1, _⟩ => rfl | ⟨2, _⟩ => rfl | ⟨3, _⟩ => rfl
    · exact attended4_ref x0 x1 x2 x3 x4 x5 x6 x7 x8 x9 x10 x11 x12 x13 x14 b h w ⟨c.val, hc⟩
  · rw [dif_neg hc]
    have hc' : c.val - 96 < 288 := by have := c.isLt; omega
    refine (concatenate_pair_apply_right (t := S64x32x32x384) (s₁ := S64x32x32x96) (s₂ := S64x32x32x288) _ _ _ _ (ix4 b h w c) rfl rfl (ix4 b h w (⟨c.val - 96, hc'⟩ : Fin 288)) (fun a ha => ?_) ?_).trans ?_
    · match a with
      | ⟨0, _⟩ => rfl
      | ⟨1, _⟩ => rfl
      | ⟨2, _⟩ => rfl
      | ⟨3, _⟩ => exact absurd rfl ha
    · show c.val - 96 + 96 = c.val; omega
    · rw [val_main_v1_apply]
      show x0 _ = x0 (ix4 b (rowOf (posOf h w)) (colOf (posOf h w)) c)
      rw [rowOf_posOf, colOf_posOf]
      refine congrArg x0 (funext fun a => Fin.ext ?_)
      match a with
      | ⟨0, _⟩ => rfl
      | ⟨1, _⟩ => rfl
      | ⟨2, _⟩ => rfl
      | ⟨3, _⟩ => show 96 + (c.val - 96) = c.val; omega

/-- Those channels after the rectifier. -/
theorem relu_ref (b : Fin 64) (h w : Fin 32) (c : Fin 384) :
    val_main_v66 (F := Ideal) x0 x1 x2 x3 x4 x5 x6 x7 x8 (ix4 b h w c)
      = max (xcg (oR (paramsOf x1 x2 x3 x4 x5 x6 x7 x8 x9 x10 x11 x12 x13 x14) (imgOf x0 b)) (imgOf x0 b) (posOf h w) c) 0 := by
  rw [val_main_v66_apply, val_main_call0_v0_apply, val_main_call0_cst_apply, concat_ref]
  show max _ (Ideal.ofBits .f32 0x00000000#32) = _
  rw [Ideal.ofBits_zero_f32]

/-- The output map over the 384 channels, with its bias. -/
theorem proj_ref (b : Fin 64) (h w : Fin 32) (f : Fin 384) :
    val_main_v70 (F := Ideal) x0 x1 x2 x3 x4 x5 x6 x7 x8 x9 x10 (ix4 b h w f)
      = projRg (oR (paramsOf x1 x2 x3 x4 x5 x6 x7 x8 x9 x10 x11 x12 x13 x14) (imgOf x0 b)) (imgOf x0 b) (paramsOf x1 x2 x3 x4 x5 x6 x7 x8 x9 x10 x11 x12 x13 x14).PW (paramsOf x1 x2 x3 x4 x5 x6 x7 x8 x9 x10 x11 x12 x13 x14).pb (posOf h w) f := by
  rw [val_main_v70_apply, val_main_v67_apply, val_main_v69_apply, val_main_v68_apply]
  show (∑ c : Fin 384, _) + _ = (∑ c : Fin 384, _) + _
  have eb : idx_main_v68 (idx_main_v69 (ix4 b h w f)) = ix1 f :=
    funext fun a => Fin.ext (by match a with | ⟨0, _⟩ => rfl)
  rw [eb]
  refine congrArg (· + x10 (ix1 f)) (Finset.sum_congr rfl fun c _ => ?_)
  have el : lidx_main_v67 (ix4 b h w f) c = ix4 b h w c :=
    funext fun a => Fin.ext (by match a with | ⟨0, _⟩ => rfl | ⟨1, _⟩ => rfl | ⟨2, _⟩ => rfl | ⟨3, _⟩ => rfl)
  have er : ridx_main_v67 (ix4 b h w f) c = ix2 c f :=
    funext fun a => Fin.ext (by match a with | ⟨0, _⟩ => rfl | ⟨1, _⟩ => rfl)
  rw [el, er, relu_ref]
  rfl

end Stages

/-- The reference's result, entry by entry. -/
theorem ref_value (x0 : (⟨S64x32x32x384, .f32⟩ : BufTy).Contents (Elt Ideal)) (x1 x2 : (⟨S96, .f32⟩ : BufTy).Contents (Elt Ideal)) (x3 : (⟨S96x128, .f32⟩ : BufTy).Contents (Elt Ideal)) (x4 x5 x6 x7 x8 : (⟨S128, .f32⟩ : BufTy).Contents (Elt Ideal)) (x9 : (⟨S384x384, .f32⟩ : BufTy).Contents (Elt Ideal)) (x10 x11 x12 x13 x14 : (⟨S384, .f32⟩ : BufTy).Contents (Elt Ideal))
    (b : Fin 64) (h w : Fin 32) (f : Fin 384) :
    val_main_v83 (F := Ideal) x0 x1 x2 x3 x4 x5 x6 x7 x8 x9 x10 x11 x12 x13 x14 (ix4 b h w f)
      = outR (paramsOf x1 x2 x3 x4 x5 x6 x7 x8 x9 x10 x11 x12 x13 x14) (imgOf x0 b) (posOf h w) f := by
  rw [val_main_v83_apply, val_main_v80_apply, val_main_v73_apply, val_main_v72_apply, val_main_v71_apply,
    val_main_v79_apply, val_main_v78_apply, val_main_v77_apply, val_main_v76_apply, val_main_v75_apply,
    val_main_v74_apply, val_main_cst_9_apply, val_main_v82_apply, val_main_v81_apply,
    proj_ref x0 x1 x2 x3 x4 x5 x6 x7 x8 x9 x10 x11 x12 x13 x14]
  have e13 : idx_main_v71 (idx_main_v72 (ix4 b h w f)) = ix1 f :=
    funext fun a => Fin.ext (by match a with | ⟨0, _⟩ => rfl)
  have e11 : idx_main_v78 (idx_main_v79 (ix4 b h w f)) = ix1 f :=
    funext fun a => Fin.ext (by match a with | ⟨0, _⟩ => rfl)
  have e12 : idx_main_v81 (idx_main_v82 (ix4 b h w f)) = ix1 f :=
    funext fun a => Fin.ext (by match a with | ⟨0, _⟩ => rfl)
  rw [e13, e11, e12]
  rfl

/-- The reference's result as one array. -/
theorem ref_result (x0 : (⟨S64x32x32x384, .f32⟩ : BufTy).Contents (Elt Ideal)) (x1 x2 : (⟨S96, .f32⟩ : BufTy).Contents (Elt Ideal)) (x3 : (⟨S96x128, .f32⟩ : BufTy).Contents (Elt Ideal)) (x4 x5 x6 x7 x8 : (⟨S128, .f32⟩ : BufTy).Contents (Elt Ideal)) (x9 : (⟨S384x384, .f32⟩ : BufTy).Contents (Elt Ideal)) (x10 x11 x12 x13 x14 : (⟨S384, .f32⟩ : BufTy).Contents (Elt Ideal)) :
    val_main_v83 (F := Ideal) x0 x1 x2 x3 x4 x5 x6 x7 x8 x9 x10 x11 x12 x13 x14
      = resultR x0 x1 x2 x3 x4 x5 x6 x7 x8 x9 x10 x11 x12 x13 x14 := by
  funext i
  rw [eq_ix4 i]
  exact ref_value x0 x1 x2 x3 x4 x5 x6 x7 x8 x9 x10 x11 x12 x13 x14 _ _ _ _

end Cert.Shsa.RefValue

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.Admissible.lean ====
/-
  The inputs on which the two writings of the layer agree: every entry of the image and of the first normalisation's
  and the 96 → 128 map's parameters a real number, and every running variance of the 128 channels a nonnegative real.
  (Nothing is asked of the output map's parameters: the two writings treat them alike.)
-/
import proofs.«421979_j14285061226833_3_alg».proof.Proof.Spec
import proofs.«421979_j14285061226833_3_alg».proof.Proof.LibERealSage

noncomputable section

namespace Cert.Shsa

open Cert.LibERealSage

/-- The image and the parameters up to the 128 channels are real, the running variances nonnegative. -/
structure Admissible (p : Params) (X : Fin 1024 → Fin 384 → EReal) : Prop where
  x : ∀ n c, IsReal (X n c)
  g : ∀ c, IsReal (p.g c)
  be : ∀ c, IsReal (p.be c)
  W : ∀ c j, IsReal (p.W c j)
  b : ∀ j, IsReal (p.b j)
  gam : ∀ j, IsReal (p.gam j)
  beta : ∀ j, IsReal (p.beta j)
  mean : ∀ j, IsReal (p.mean j)
  var : ∀ j, ∃ r : ℝ, 0 ≤ r ∧ p.var j = (r : EReal)

end Cert.Shsa

end
-- ==== Proof.Consts.lean ====
/-
  The float words the two programs spell, as the extended reals they denote: zero, the row length 96, the
  regulariser 0.001 (the nearest single-precision number, 8589935 / 2^33, a positive real), the softmax scale
  1/4, and the two infinities (the running maximum's start and the finiteness test's bound).
-/
import Idealize.ShloMosaic.PureOps.Ideal

noncomputable section

namespace Cert.Shsa.Consts

open Idealize.ShloMosaic

/-- The word of `+0.0` is the real zero. -/
theorem ofBits_zero : Ideal.ofBits .f32 0x00000000#32 = 0 := by
  simp [Ideal.ofBits, Ideal.ieee]

/-- The word of `96.0`, the number of normalised channels, is the real 96. -/
theorem ofBits_96 : Ideal.ofBits .f32 0x42C00000#32 = ((96 : ℝ) : EReal) := by
  simp [Ideal.ofBits, Ideal.ieee, -EReal.coe_mul]; norm_num

/-- The word of `0.001` is the positive dyadic 8589935 / 2^33. -/
theorem ofBits_eps : Ideal.ofBits .f32 0x3A83126F#32 = ((8589935 / 8589934592 : ℝ) : EReal) := by
  simp [Ideal.ofBits, Ideal.ieee, -EReal.coe_mul]; norm_num

/-- The word of `0.25`, the inverse square root of the key width 16, is the real 1/4. -/
theorem ofBits_quarter : Ideal.ofBits .f32 0x3E800000#32 = ((1 / 4 : ℝ) : EReal) := by
  simp [Ideal.ofBits, Ideal.ieee, -EReal.coe_mul]; norm_num

/-- The word of `-inf` is the bottom of the extended reals. -/
theorem ofBits_neg_inf : Ideal.ofBits .f32 0xFF800000#32 = ⊥ := by
  simp [Ideal.ofBits, Ideal.ieee]

/-- The word of `+inf` is the top of the extended reals. -/
theorem ofBits_pos_inf : Ideal.ofBits .f32 0x7F800000#32 = ⊤ := by
  simp [Ideal.ofBits, Ideal.ieee]

end Cert.Shsa.Consts

end
-- ==== Proof.PreDecode.lean ====
/-
  The precondition read back. The statement assumes that a predicate of the fifteen argument arrays is one:
  the conjunction, array by array, of "every entry is smaller in absolute value than plus infinity" and, for the
  running variances of the 128 channels, of "every entry is at least zero". Read at the extended reals the first says
  that every entry is a real number and the second that it is nonnegative, which for the image and the parameters up
  to the 128 channels is what the equality of the layer's two writings needs.
-/
import proofs.«421979_j14285061226833_3_alg».proof.Pre_finite_inputs
import proofs.«421979_j14285061226833_3_alg».proof.Proof.Admissible
import proofs.«421979_j14285061226833_3_alg».proof.Proof.Consts
import Idealize.ShloMosaic.Lib.ReduceAll
import Idealize.ShloMosaic.Lib.ValueIdx
import Idealize.ShloMosaic.PureOps.Ideal.Laws
import Mathlib.Data.EReal.Basic
import Mathlib.Data.EReal.Operations

noncomputable section

namespace Cert.Shsa

open Idealize.ShloMosaic Idealize.ShloMosaic.ValueIdx Cert.LibERealSage Cert.Pre_finite_inputs

/-- The shape without axes has exactly one index. -/
local instance scalarIdx_subsingleton : Subsingleton S_.Idx := ⟨fun _ _ => funext fun d => d.elim0⟩

/-! ### One entry -/

/-- The one-bit word of a decidable proposition is one only when the proposition holds. -/
theorem of_bit_eq_one {p : Prop} [Decidable p] (h : BitVec.ofBool (decide p) = 1#1) : p := by
  by_cases hp : p
  · exact hp
  · rw [decide_eq_false hp] at h
    exact absurd h (by decide)

/-- An extended real whose absolute value, the greater of it and its negation, lies below plus infinity is a real
    number: plus infinity is its own absolute value and minus infinity's. -/
theorem isReal_of_abs_lt_top (x : EReal) (h : Ideal.cmp .olt (max x (-x)) ⊤ = 1#1) : IsReal x := by
  have h' : max x (-x) < ⊤ := of_bit_eq_one h
  rw [max_lt_iff] at h'
  rw [isReal_iff]
  refine ⟨ne_of_lt h'.1, ?_⟩
  rintro rfl
  simp at h'

/-- The comparison "at least zero" being one says the entry is at least zero. -/
theorem nonneg_of_ge_zero (x : EReal) (h : Ideal.cmp .oge x 0 = 1#1) : 0 ≤ x :=
  of_bit_eq_one h

/-- A nonnegative real extended real is the image of a nonnegative real number. -/
theorem exists_nonneg_of_isReal {x : EReal} (hx : IsReal x) (h0 : 0 ≤ x) : ∃ r : ℝ, 0 ≤ r ∧ x = (r : EReal) := by
  obtain ⟨r, rfl⟩ := hx
  exact ⟨r, EReal.coe_nonneg.mp h0, rfl⟩

/-! ### One array -/

section Array

variable {s : Shape} {axes : List (Fin s.rank)}

/-- If the conjunction over a whole array of "the entry's absolute value is below plus infinity" is one, every entry
    of the array is a real number. -/
theorem isReal_of_all_finite (x : FVec Ideal s .f32) (hb : S_.BroadcastsInDim s (![] : Fin 0 → Fin s.rank))
    (hr : s.ReducesTo axes S_) (hu : 0 < S_.numel) (init : IVec S_ 1)
    (h : Host.reduce IntOp.andi (cmpf .olt (Host.absf x) (broadcastInDim s ![] hb (constant S_ .f32 0x7F800000#32)))
      init hr hu ix0 = 1#1) (i : s.Idx) : IsReal (x i) := by
  have e := Host.reduce_andi_all _ _ hr hu ix0 h i
  refine isReal_of_abs_lt_top (x i) ?_
  rw [← Consts.ofBits_pos_inf]
  exact e

/-- If the conjunction over a whole array of "the entry is at least zero" is one, every entry is at least zero. -/
theorem nonneg_of_all_ge_zero (x : FVec Ideal s .f32) (hb : S_.BroadcastsInDim s (![] : Fin 0 → Fin s.rank))
    (hr : s.ReducesTo axes S_) (hu : 0 < S_.numel) (init : IVec S_ 1)
    (h : Host.reduce IntOp.andi (cmpf .oge x (broadcastInDim s ![] hb (constant S_ .f32 0x00000000#32)))
      init hr hu ix0 = 1#1) (i : s.Idx) : 0 ≤ x i := by
  have e := Host.reduce_andi_all _ _ hr hu ix0 h i
  refine nonneg_of_ge_zero (x i) ?_
  rw [← Consts.ofBits_zero]
  exact e

/-- A conjunction of two one-bit arrays that is one at an index has both bits one there. -/
theorem andi_split (x y : IVec s 1) (i : s.Idx) (h : andi x y i = 1#1) : x i = 1#1 ∧ y i = 1#1 :=
  IntOp.andi_eq_one.1 h

end Array

/-! ### The predicate, part by part, from its last conjunct inwards -/

section Parts

variable [Facts]

/-- The last part joins the bits it is handed with the last output parameter's and with the running variances' sign
    test: if it is one, the first bit it was handed is one and every running variance is at least zero. -/
theorem part4_decode (a8 : FVec Ideal S128 .f32) (a14 : FVec Ideal S384 .f32) (v63 v67 : IVec S_ 1)
    (h : fn_part4 (F := Ideal) a8 a14 v63 v67 ix0 = 1#1) : v63 ix0 = 1#1 ∧ ∀ i, 0 ≤ a8 i := by
  unfold fn_part4 at h
  dsimp only at h
  obtain ⟨h73, h8⟩ := andi_split _ _ _ h
  obtain ⟨h68, -⟩ := andi_split _ _ _ h73
  obtain ⟨h63, -⟩ := andi_split _ _ _ h68
  exact ⟨h63, nonneg_of_all_ge_zero a8 _ _ _ _ h8⟩

/-- The part before it adds only tests of the output map's parameters: the bit it is handed is one, and the sign
    fact passes through. -/
theorem part3_decode (a8 : FVec Ideal S128 .f32) (a11 a12 a13 a14 : FVec Ideal S384 .f32) (v48 : IVec S_ 1)
    (v49 v50 : FVec Ideal S384 .f32)
    (h : fn_part3 (F := Ideal) a8 a11 a12 a13 a14 v48 v49 v50 ix0 = 1#1) : v48 ix0 = 1#1 ∧ ∀ i, 0 ≤ a8 i := by
  unfold fn_part3 at h
  dsimp only at h
  obtain ⟨h63, h8⟩ := part4_decode _ _ _ _ h
  obtain ⟨h58, -⟩ := andi_split _ _ _ h63
  obtain ⟨h53, -⟩ := andi_split _ _ _ h58
  obtain ⟨h48, -⟩ := andi_split _ _ _ h53
  exact ⟨h48, h8⟩

/-- The second part tests the running means and the running variances of the 128 channels: both arrays are real. -/
theorem part2_decode (a7 a8 : FVec Ideal S128 .f32) (a9 : FVec Ideal S384x384 .f32)
    (a10 a11 a12 a13 a14 : FVec Ideal S384 .f32) (v33 : IVec S_ 1)
    (h : fn_part2 (F := Ideal) a7 a8 a9 a10 a11 a12 a13 a14 v33 ix0 = 1#1) :
    v33 ix0 = 1#1 ∧ (∀ i, IsReal (a7 i)) ∧ (∀ i, IsReal (a8 i)) ∧ ∀ i, 0 ≤ a8 i := by
  unfold fn_part2 at h
  dsimp only at h
  obtain ⟨h48, h8⟩ := part3_decode _ _ _ _ _ _ _ _ h
  obtain ⟨h43, -⟩ := andi_split _ _ _ h48
  obtain ⟨h38, h8f⟩ := andi_split _ _ _ h43
  obtain ⟨h33, h7f⟩ := andi_split _ _ _ h38
  exact ⟨h33, isReal_of_all_finite a7 _ _ _ _ h7f, isReal_of_all_finite a8 _ _ _ _ h8f, h8⟩

/-- The first part closes the test of the 96 → 128 matrix, whose entrywise bits it is handed, and tests the map's
    shift and the running normalisation's scale and shift. -/
theorem part1_decode (a4 a5 a6 a7 a8 : FVec Ideal S128 .f32) (a9 : FVec Ideal S384x384 .f32)
    (a10 a11 a12 a13 a14 : FVec Ideal S384 .f32) (v13 : IVec S_ 1) (v16 : IVec S96x128 1)
    (h : fn_part1 (F := Ideal) a4 a5 a6 a7 a8 a9 a10 a11 a12 a13 a14 v13 v16 ix0 = 1#1) :
    v13 ix0 = 1#1 ∧ (∀ i, v16 i = 1#1) ∧ (∀ i, IsReal (a4 i)) ∧ (∀ i, IsReal (a5 i)) ∧ (∀ i, IsReal (a6 i))
      ∧ (∀ i, IsReal (a7 i)) ∧ (∀ i, IsReal (a8 i)) ∧ ∀ i, 0 ≤ a8 i := by
  unfold fn_part1 at h
  dsimp only at h
  obtain ⟨h33, h7, h8, h8n⟩ := part2_decode _ _ _ _ _ _ _ _ _ h
  obtain ⟨h28, h6f⟩ := andi_split _ _ _ h33
  obtain ⟨h23, h5f⟩ := andi_split _ _ _ h28
  obtain ⟨h18, h4f⟩ := andi_split _ _ _ h23
  obtain ⟨h13, h3f⟩ := andi_split _ _ _ h18
  exact ⟨h13, Host.reduce_andi_all _ _ _ _ ix0 h3f, isReal_of_all_finite a4 _ _ _ _ h4f,
    isReal_of_all_finite a5 _ _ _ _ h5f, isReal_of_all_finite a6 _ _ _ _ h6f, h7, h8, h8n⟩

/-- The whole predicate: if it is one, the image and the nine arrays up to the running variances are real, and the
    running variances are at least zero. -/
theorem pre_decode (x0 : FVec Ideal S64x32x32x384 .f32) (x1 x2 : FVec Ideal S96 .f32) (x3 : FVec Ideal S96x128 .f32)
    (x4 x5 x6 x7 x8 : FVec Ideal S128 .f32) (x9 : FVec Ideal S384x384 .f32)
    (x10 x11 x12 x13 x14 : FVec Ideal S384 .f32)
    (h : fn (F := Ideal) x0 x1 x2 x3 x4 x5 x6 x7 x8 x9 x10 x11 x12 x13 x14 ix0 = 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i))
      ∧ ∀ i, 0 ≤ x8 i := by
  unfold fn at h
  dsimp only at h
  obtain ⟨h13, h3, h4, h5, h6, h7, h8, h8n⟩ := part1_decode _ _ _ _ _ _ _ _ _ _ _ _ _ h
  obtain ⟨h8', h2f⟩ := andi_split _ _ _ h13
  obtain ⟨h0f, h1f⟩ := andi_split _ _ _ h8'
  refine ⟨isReal_of_all_finite x0 _ _ _ _ h0f, isReal_of_all_finite x1 _ _ _ _ h1f,
    isReal_of_all_finite x2 _ _ _ _ h2f, fun i => ?_, h4, h5, h6, h7, h8, h8n⟩
  refine isReal_of_abs_lt_top (x3 i) ?_
  rw [← Consts.ofBits_pos_inf]
  exact h3 i

end Parts

/-! ### The statement's inputs are admissible -/

/-- Under the statement's precondition every image of the batch, with the parameters read off the fourteen parameter
    arrays, is an admissible input of the layer: real entries up to the 128 channels' statistics, and nonnegative
    real running variances. -/
theorem admissible_of_pre [Cert.Pre_finite_inputs.Facts]
    (x0 : FVec Ideal Cert.Pre_finite_inputs.S64x32x32x384 .f32) (x1 x2 : FVec Ideal Cert.Pre_finite_inputs.S96 .f32)
    (x3 : FVec Ideal Cert.Pre_finite_inputs.S96x128 .f32) (x4 x5 x6 x7 x8 : FVec Ideal Cert.Pre_finite_inputs.S128 .f32)
    (x9 : FVec Ideal Cert.Pre_finite_inputs.S384x384 .f32) (x10 x11 x12 x13 x14 : FVec Ideal Cert.Pre_finite_inputs.S384 .f32)
    (h : Cert.Pre_finite_inputs.fn (F := Ideal) x0 x1 x2 x3 x4 x5 x6 x7 x8 x9 x10 x11 x12 x13 x14 = fun _ => 1#1) (b : Fin 64) :
    Cert.Shsa.Admissible (Cert.Shsa.paramsOf x1 x2 x3 x4 x5 x6 x7 x8 x9 x10 x11 x12 x13 x14) (Cert.Shsa.imgOf x0 b) := by
  obtain ⟨h0, h1, h2, h3, h4, h5, h6, h7, h8, h8n⟩ :=
    pre_decode x0 x1 x2 x3 x4 x5 x6 x7 x8 x9 x10 x11 x12 x13 x14 (congrFun h ix0)
  exact
    { x := fun _ _ => h0 _
      g := fun _ => h1 _
      be := fun _ => h2 _
      W := fun _ _ => h3 _
      b := fun _ => h4 _
      gam := fun _ => h5 _
      beta := fun _ => h6 _
      mean := fun _ => h7 _
      var := fun _ => exists_nonneg_of_isReal (h8 _) (h8n _) }

end Cert.Shsa

end
-- ==== Proof.SpecLaws.lean ====
/-
  The two writings of the layer agree on admissible inputs.

  The road. On admissible inputs every query, key and value entry is a real number: the first normalisation divides by
  the real 96 and takes the inverse square root of a nonnegative variance plus a positive regulariser, and the running
  normalisation does the same with a nonnegative running variance. Scaling the query before the contraction or the
  contraction afterwards gives the same scores (the factor 1/4 is nonnegative and finite, so it distributes over the
  sum), hence the same row maxima, weights and weight sums. Each weight is the exponential of a real, so the weight sum
  is a positive real; dividing by it is multiplying by a nonnegative real, which distributes over the weighted sum of
  values. Last, the output map: on the first 96 channels the zeroed matrix kills the input's contribution and the
  first 96 rows carry the attended channels, on the other 288 the two writings read the same entries.
-/
import proofs.«421979_j14285061226833_3_alg».proof.Proof.Admissible
import proofs.«421979_j14285061226833_3_alg».proof.Proof.Consts
import Mathlib.Data.Finset.Fold
import Mathlib.Algebra.BigOperators.Fin
import Mathlib.Algebra.Order.BigOperators.Group.Finset
import Mathlib.Analysis.SpecialFunctions.Exp

noncomputable section

open scoped BigOperators

namespace Cert.Shsa

open Idealize.ShloMosaic Cert.LibERealSage

namespace Laws

/-! ### The constants as extended reals -/

/-- The row length is the real 96. -/
theorem w96_eq : w96 = ((96 : ℝ) : EReal) := Consts.ofBits_96

/-- The regulariser is a positive dyadic real. -/
theorem wEps_eq : wEps = ((8589935 / 8589934592 : ℝ) : EReal) := Consts.ofBits_eps

/-- The softmax scale is the real 1/4. -/
theorem wQuarter_eq : wQuarter = ((1 / 4 : ℝ) : EReal) := Consts.ofBits_quarter

/-- The running maximum starts at the bottom of the extended reals. -/
theorem wNegInf_eq : wNegInf = ⊥ := Consts.ofBits_neg_inf

/-- The softmax scale is nonnegative. -/
theorem wQuarter_nonneg : 0 ≤ wQuarter := by
  rw [wQuarter_eq]; exact EReal.coe_nonneg.mpr (by norm_num)

/-- The softmax scale is finite. -/
theorem wQuarter_ne_top : wQuarter ≠ ⊤ := by
  rw [wQuarter_eq]; exact EReal.coe_ne_top _

/-! ### Finite sums of extended reals -/

/-- The image of a finite sum of reals is the sum of the images. -/
theorem coe_sum {ι : Type*} (S : Finset ι) (a : ι → ℝ) :
    ((∑ i ∈ S, a i : ℝ) : EReal) = ∑ i ∈ S, (a i : EReal) := by
  classical
  induction S using Finset.induction_on with
  | empty => simp
  | insert i s hi ih => rw [Finset.sum_insert hi, Finset.sum_insert hi, EReal.coe_add, ih]

/-- A finite sum times a nonnegative finite factor is the sum of the products, whatever the summands. -/
theorem sum_mul_of_nonneg_of_ne_top {ι : Type*} (S : Finset ι) (a : ι → EReal) {c : EReal} (h0 : 0 ≤ c)
    (ht : c ≠ ⊤) : (∑ i ∈ S, a i) * c = ∑ i ∈ S, a i * c := by
  classical
  induction S using Finset.induction_on with
  | empty => simp
  | insert i s hi ih =>
    rw [Finset.sum_insert hi, Finset.sum_insert hi, EReal.right_distrib_of_nonneg_of_ne_top h0 ht, ih]

/-- The difference of two reals is real. -/
theorem isReal_sub {x y : EReal} (hx : IsReal x) (hy : IsReal y) : IsReal (x - y) := by
  rw [sub_eq_add_neg]; exact isReal_add hx (isReal_neg hy)

/-- The inverse square root of a positive real is real. -/
theorem isReal_rsqrt_of_pos {r : ℝ} (hr : 0 < r) : IsReal (Ideal.rsqrt (r : EReal)) := by
  rw [Ideal.rsqrt_coe, if_neg (not_lt.mpr hr.le), if_neg hr.ne']
  exact isReal_coe _

/-- The regularised inverse square root of a nonnegative real is real. -/
theorem isReal_rsqrt_add_eps {x : EReal} (hx : ∃ r : ℝ, 0 ≤ r ∧ x = (r : EReal)) :
    IsReal (Ideal.rsqrt (x + wEps)) := by
  obtain ⟨r, hr, rfl⟩ := hx
  rw [wEps_eq, ← EReal.coe_add]
  have he : (0 : ℝ) < 8589935 / 8589934592 := by norm_num
  exact isReal_rsqrt_of_pos (by linarith)

/-! ### Query, key and value are real -/

section Real

variable {p : Params} {X : Fin 1024 → Fin 384 → EReal}

/-- The normalised part of an admissible image is real. -/
theorem isReal_x1 (h : Admissible p X) (n : Fin 1024) (c : Fin 96) : IsReal (x1 X n c) := h.x n (lo96 c)

/-- The mean of a position's channels is real. -/
theorem isReal_mu (h : Admissible p X) (n : Fin 1024) : IsReal (mu X n) := by
  rw [mu, w96_eq]
  exact isReal_div (isReal_sum_univ _ (isReal_x1 h n)) (by norm_num)

/-- Every deviation from the mean is real. -/
theorem isReal_dev (h : Admissible p X) (n : Fin 1024) (c : Fin 96) : IsReal (dev X n c) :=
  isReal_sub (isReal_x1 h n c) (isReal_mu h n)

/-- The variance of a position's channels is a nonnegative real: a sum of squares of reals over 96. -/
theorem vr_nonneg_real (h : Admissible p X) (n : Fin 1024) : ∃ r : ℝ, 0 ≤ r ∧ vr X n = (r : EReal) := by
  have hd : ∀ c, ∃ a : ℝ, dev X n c = (a : EReal) := isReal_dev h n
  choose a ha using hd
  refine ⟨(∑ c, a c * a c) * (1 / 96), ?_, ?_⟩
  · exact mul_nonneg (Finset.sum_nonneg (fun c _ => mul_self_nonneg _)) (by norm_num)
  · rw [vr, w96_eq, Ideal.div_coe (by norm_num), EReal.coe_mul, coe_sum]
    congr 1
    exact Finset.sum_congr rfl (fun c _ => by rw [ha c, EReal.coe_mul])

/-- The regularised inverse standard deviation is real. -/
theorem isReal_rstd (h : Admissible p X) (n : Fin 1024) : IsReal (rstd X n) :=
  isReal_rsqrt_add_eps (vr_nonneg_real h n)

/-- The normalised, scaled and shifted channels are real. -/
theorem isReal_x1n (h : Admissible p X) (n : Fin 1024) (c : Fin 96) : IsReal (x1n p X n c) :=
  isReal_add (isReal_mul (isReal_mul (isReal_dev h n c) (isReal_rstd h n)) (h.g c)) (h.be c)

/-- The affine map to 128 channels gives reals. -/
theorem isReal_pre (h : Admissible p X) (n : Fin 1024) (j : Fin 128) : IsReal (pre p X n j) :=
  isReal_add (isReal_sum_univ _ (fun c => isReal_mul (isReal_x1n h n c) (h.W c j))) (h.b j)

/-- The running normalisation's scale is real: the running variance is nonnegative, the regulariser positive. -/
theorem isReal_sc (h : Admissible p X) (j : Fin 128) : IsReal (sc p j) :=
  isReal_mul (h.gam j) (isReal_rsqrt_add_eps (h.var j))

/-- All 128 channels are real after the running normalisation. -/
theorem isReal_qkv (h : Admissible p X) (n : Fin 1024) (j : Fin 128) : IsReal (qkv p X n j) :=
  isReal_add (isReal_mul (isReal_sub (isReal_pre h n j) (h.mean j)) (isReal_sc h j)) (h.beta j)

/-- The query is real. -/
theorem isReal_q (h : Admissible p X) (n : Fin 1024) (d : Fin 16) : IsReal (q p X n d) := isReal_qkv h n _

/-- The key is real. -/
theorem isReal_k (h : Admissible p X) (m : Fin 1024) (d : Fin 16) : IsReal (k p X m d) := isReal_qkv h m _

end Real

/-! ### The two attentions over a given query, key and value -/

section Attention

variable (Qs Q K : Fin 1024 → Fin 16 → EReal) (V : Fin 1024 → Fin 96 → EReal)

/-- Scaling the query by 1/4 before the contraction, or the contraction by 1/4, gives the same score: the factor is
    nonnegative and finite, so it distributes over the sum, at the infinities too. -/
theorem sKg_eq_sRg (hQ : ∀ n d, Qs n d = Q n d * wQuarter) (n m : Fin 1024) : sKg Qs K n m = sRg Q K n m := by
  rw [sKg, sRg, sum_mul_of_nonneg_of_ne_top _ _ wQuarter_nonneg wQuarter_ne_top]
  exact Finset.sum_congr rfl (fun d _ => by rw [hQ n d, mul_right_comm])

/-- Joining a row's maximum once more with minus infinity changes nothing. -/
theorem mRg_eq_rmax (n : Fin 1024) : mRg Q K n = rmax (sRg Q K n) := by
  rw [mRg, wNegInf_eq]; exact max_eq_right bot_le

/-- The unnormalised weights of the two writings agree. -/
theorem pKg_eq_pRg (hQ : ∀ n d, Qs n d = Q n d * wQuarter) (n m : Fin 1024) : pKg Qs K n m = pRg Q K n m := by
  have hrow : sKg Qs K n = sRg Q K n := funext (sKg_eq_sRg Qs Q K hQ n)
  rw [pKg, pRg, mRg_eq_rmax, hrow]

/-- So do their sums. -/
theorem lKg_eq_lRg (hQ : ∀ n d, Qs n d = Q n d * wQuarter) (n : Fin 1024) : lKg Qs K n = lRg Q K n := by
  rw [lKg, lRg]
  exact Finset.sum_congr rfl (fun m _ => pKg_eq_pRg Qs Q K hQ n m)

/-- The maximum of a row of reals is real: it lies below the top because every entry does, and above the bottom
    because some entry does. -/
theorem isReal_rmax (s : Fin 1024 → EReal) (hs : ∀ m, IsReal (s m)) : IsReal (rmax s) := by
  rw [isReal_iff]
  constructor
  · apply ne_of_lt
    rw [rmax, Finset.fold_max_lt]
    refine ⟨?_, fun m _ => ?_⟩
    · rw [wNegInf_eq]; exact bot_lt_top
    · exact lt_top_iff_ne_top.mpr ((isReal_iff _).mp (hs m)).1
  · apply ne_of_gt
    show ⊥ < rmax s
    rw [rmax, Finset.lt_fold_max]
    exact Or.inr ⟨0, Finset.mem_univ _, bot_lt_iff_ne_bot.mpr ((isReal_iff _).mp (hs 0)).2⟩

/-- Over real scores every weight is the exponential of a real, a positive real. -/
theorem pRg_pos_real (hs : ∀ n m, IsReal (sRg Q K n m)) (n m : Fin 1024) :
    ∃ r : ℝ, 0 < r ∧ pRg Q K n m = (r : EReal) := by
  obtain ⟨a, ha⟩ := hs n m
  obtain ⟨b, hb⟩ := isReal_rmax (sRg Q K n) (hs n)
  refine ⟨Real.exp (a - b), Real.exp_pos _, ?_⟩
  rw [pRg, mRg_eq_rmax, ha, hb, ← EReal.coe_sub, Ideal.exp_coe]

/-- Over real scores the sum of a row's weights is a positive real. -/
theorem lRg_pos_real (hs : ∀ n m, IsReal (sRg Q K n m)) (n : Fin 1024) :
    ∃ r : ℝ, 0 < r ∧ lRg Q K n = (r : EReal) := by
  choose w hw0 hw using pRg_pos_real Q K hs n
  refine ⟨∑ m, w m, Finset.sum_pos (fun m _ => hw0 m) Finset.univ_nonempty, ?_⟩
  rw [lRg, coe_sum]
  exact Finset.sum_congr rfl (fun m _ => hw m)

/-- Dividing a weighted sum by a positive real is dividing every weight: the quotient is the product with the
    nonnegative real 1/r, which distributes over the sum whatever the summands. -/
theorem div_sum_mul {ι : Type*} [Fintype ι] (P W : ι → EReal) {r : ℝ} (hr : 0 < r) :
    Ideal.div (∑ m, P m * W m) (r : EReal) = ∑ m, Ideal.div (P m) (r : EReal) * W m := by
  have h0 : (0 : EReal) ≤ ((1 / r : ℝ) : EReal) := EReal.coe_nonneg.mpr (by positivity)
  rw [Ideal.div_coe hr.ne', sum_mul_of_nonneg_of_ne_top _ _ h0 (EReal.coe_ne_top _)]
  exact Finset.sum_congr rfl (fun m _ => by rw [Ideal.div_coe hr.ne', mul_right_comm])

/-- Over real scores the attended channels of the two writings agree, whatever the values. -/
theorem oKg_eq_oRg (hQ : ∀ n d, Qs n d = Q n d * wQuarter) (hs : ∀ n m, IsReal (sRg Q K n m)) (n : Fin 1024)
    (c : Fin 96) : oKg Qs K V n c = oRg Q K V n c := by
  obtain ⟨r, hr, hl⟩ := lRg_pos_real Q K hs n
  have hnum : (∑ m, pKg Qs K n m * V m c) = ∑ m, pRg Q K n m * V m c :=
    Finset.sum_congr rfl (fun m _ => by rw [pKg_eq_pRg Qs Q K hQ n m])
  rw [oKg, oRg, lKg_eq_lRg Qs Q K hQ n, hl, hnum]
  exact div_sum_mul (fun m => pRg Q K n m) (fun m => V m c) hr

end Attention

/-! ### The output map -/

/-- Channel 96 + c among the 384, for c < 288. -/
def hi288 (c : Fin 288) : Fin 384 := ⟨96 + c.val, by have := c.isLt; omega⟩

/-- A sum over the 384 channels is the sum over the first 96 plus the sum over the other 288. -/
theorem sum_split (g : Fin 384 → EReal) :
    ∑ c, g c = (∑ c : Fin 96, g (lo96 c)) + ∑ c : Fin 288, g (hi288 c) :=
  Fin.sum_univ_add (a := 96) (b := 288) g

/-- The first 96 channels are masked out. -/
theorem mask_lo96 (c : Fin 96) : mask (lo96 c) = 0 := if_neg (not_le.mpr c.isLt)

/-- The other 288 channels pass. -/
theorem mask_hi288 (c : Fin 288) : mask (hi288 c) = 1 := if_pos (Nat.le_add_right 96 c.val)

section Proj

variable (o : Fin 1024 → Fin 96 → EReal) (X : Fin 1024 → Fin 384 → EReal)

/-- In the second writing's input the first 96 channels are the attended ones. -/
theorem xcg_lo96 (n : Fin 1024) (c : Fin 96) : xcg o X n (lo96 c) = o n c :=
  dif_pos (show (lo96 c).val < 96 from c.isLt)

/-- In the second writing's input the other 288 channels are the image's. -/
theorem xcg_hi288 (n : Fin 1024) (c : Fin 288) : xcg o X n (hi288 c) = X n (hi288 c) :=
  dif_neg (show ¬ (96 + c.val < 96) by omega)

/-- The two output maps agree over any attended channels: on the first 96 channels the zeroed matrix contributes
    nothing and the first 96 rows carry the attended channels; on the other 288 both read the image through the
    matrix's own rows. -/
theorem projKg_eq_projRg (p : Params) (n : Fin 1024) (f : Fin 384) :
    projKg o X (pw1 p) (pw2 p) p.pb n f = projRg o X p.PW p.pb n f := by
  have hlo : (∑ c : Fin 96, max (X n (lo96 c)) 0 * pw2 p (lo96 c) f) = 0 :=
    Finset.sum_eq_zero (fun c _ => by rw [pw2, mask_lo96, mul_zero, mul_zero])
  have hhi : (∑ c : Fin 288, max (X n (hi288 c)) 0 * pw2 p (hi288 c) f)
      = ∑ c : Fin 288, max (xcg o X n (hi288 c)) 0 * p.PW (hi288 c) f :=
    Finset.sum_congr rfl (fun c _ => by rw [pw2, mask_hi288, mul_one, xcg_hi288])
  have hat : (∑ c : Fin 96, max (o n c) 0 * pw1 p c f)
      = ∑ c : Fin 96, max (xcg o X n (lo96 c)) 0 * p.PW (lo96 c) f :=
    Finset.sum_congr rfl (fun c _ => by rw [pw1, xcg_lo96])
  rw [projKg, projRg, sum_split (fun c => max (X n c) 0 * pw2 p c f),
    sum_split (fun c => max (xcg o X n c) 0 * p.PW c f), hlo, hhi, hat, zero_add]

end Proj

/-! ### The layer -/

section Layer

variable {p : Params} {X : Fin 1024 → Fin 384 → EReal}

/-- On admissible inputs every score is real. -/
theorem isReal_sRg (h : Admissible p X) (n m : Fin 1024) : IsReal (sRg (q p X) (k p X) n m) :=
  isReal_mul (isReal_sum_univ _ (fun d => isReal_mul (isReal_q h n d) (isReal_k h m d)))
    ⟨1 / 4, wQuarter_eq⟩

/-- On admissible inputs the attended channels of the two writings agree. -/
theorem oK_eq_oR (h : Admissible p X) : oK p X = oR p X :=
  funext fun n => funext fun c =>
    oKg_eq_oRg (qs p X) (q p X) (k p X) (v p X) (fun _ _ => rfl) (isReal_sRg h) n c

end Layer

end Laws

open Laws in
/-- On admissible inputs the first writing's result is the second's, entry by entry. -/
theorem outK_eq_outR (p : Params) (X : Fin 1024 → Fin 384 → EReal) (h : Admissible p X) (n : Fin 1024) (f : Fin 384) :
    outK p X n f = outR p X n f := by
  rw [outK, outKg, outR, projKg_eq_projRg, oK_eq_oR h]

end Cert.Shsa

end
-- ==== Proof.lean ====
/-
  Single-head self-attention on the first 96 of 384 channels of 64 images of 32 × 32 positions, a fused kernel
  against its array-level reference, over the extended reals.

  Both programs normalise each position's first 96 channels, map them to 128 channels with a running normalisation,
  attend with a query and key of width 16 and a value of width 96 (scores `q · k / 4`, a softmax over the 1024
  positions), and send the attended channels together with the untouched channels 96 … 383 through a 384 × 384 output
  map with its own running normalisation. The kernel treats two images per grid point, scales the query instead of the
  scores, divides the weighted sum of values by the sum of the exponentials instead of dividing each weight, and
  replaces the concatenation by a split of the output matrix (its first 96 rows for the attended channels, the matrix
  with those rows zeroed for all 384 input channels). These are equal because a nonnegative real scalar distributes
  over any finite sum of extended reals, and the softmax denominator is a positive real as soon as the scores are
  real; the scores are real when the inputs are real and the running variances of the 128 channels are nonnegative,
  which is the statement's precondition (under a running variance below minus the regulariser the inverse square root
  is infinite or undefined and the two programs' junk values differ).

  The kernel's result array is the layer's first writing `resultK` of the fifteen argument arrays (the kernel side:
  one image's payload read entry by entry, two images per point, the 32 points' blocks tiling the batch); the
  reference's is the second writing `resultR` (the reference's 97 host operations read buffer by buffer and entry by
  entry); the two writings agree on admissible inputs.
-/
import proofs.«421979_j14285061226833_3_alg».proof.Defs
import proofs.«421979_j14285061226833_3_alg».proof.Proof.Gen.Kernel
import proofs.«421979_j14285061226833_3_alg».proof.Proof.Gen.Kernel.Skeleton
import proofs.«421979_j14285061226833_3_alg».proof.Proof.Gen.Kernel.Launch
import proofs.«421979_j14285061226833_3_alg».proof.Proof.Gen.Kernel.Points
import proofs.«421979_j14285061226833_3_alg».proof.Proof.Gen.Kernel.Frame
import proofs.«421979_j14285061226833_3_alg».proof.Proof.Gen.KernelIdeal
import proofs.«421979_j14285061226833_3_alg».proof.Proof.Gen.KernelIdeal.Skeleton
import proofs.«421979_j14285061226833_3_alg».proof.Proof.Gen.KernelIdeal.Launch
import proofs.«421979_j14285061226833_3_alg».proof.Proof.Gen.KernelIdeal.Points
import proofs.«421979_j14285061226833_3_alg».proof.Proof.Gen.KernelIdeal.Frame
import proofs.«421979_j14285061226833_3_alg».proof.Proof.Gen.ReferenceIdeal
import proofs.«421979_j14285061226833_3_alg».proof.Proof.Gen.Pre_finite_inputs
import proofs.«421979_j14285061226833_3_alg».proof.Proof.Gen.KernelIdeal.Value
import proofs.«421979_j14285061226833_3_alg».proof.Proof.KBlocks
import proofs.«421979_j14285061226833_3_alg».proof.Proof.RefAfter
import proofs.«421979_j14285061226833_3_alg».proof.Proof.RefValue
import proofs.«421979_j14285061226833_3_alg».proof.Proof.PreDecode
import proofs.«421979_j14285061226833_3_alg».proof.Proof.SpecLaws
import Idealize.ShloMosaic.Adequacy
import Idealize.ShloMosaic.Init

noncomputable section

namespace Cert.Proof

open Idealize.ShloMosaic Idealize.ShloMosaic.ValueIdx Idealize.SL.Sem Cert.Shsa

/-- The kernel as printed runs, faults nowhere and leaves its arguments alone. -/
theorem frame_k : @Cert.frame_Kernel Cert.Kernel.Gen.facts Cert.Pre_finite_inputs.Gen.facts :=
  fun m ρ _ => Cert.Kernel.Gen.frame m ρ

/-- So does the kernel read over the extended reals. -/
theorem frame_ki : @Cert.frame_KernelIdeal Cert.KernelIdeal.Gen.facts Cert.Pre_finite_inputs.Gen.facts :=
  fun m ρ _ => Cert.KernelIdeal.Gen.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Idealize.ShloMosaic.Ideal) m ρ)

/-- On arrays the precondition admits, the two writings of the layer agree on the whole batch. -/
theorem results_agree [Cert.Pre_finite_inputs.Facts]
    (x0 : FVec Idealize.ShloMosaic.Ideal Cert.Pre_finite_inputs.S64x32x32x384 .f32) (x1 x2 : FVec Idealize.ShloMosaic.Ideal Cert.Pre_finite_inputs.S96 .f32)
    (x3 : FVec Idealize.ShloMosaic.Ideal Cert.Pre_finite_inputs.S96x128 .f32) (x4 x5 x6 x7 x8 : FVec Idealize.ShloMosaic.Ideal Cert.Pre_finite_inputs.S128 .f32)
    (x9 : FVec Idealize.ShloMosaic.Ideal Cert.Pre_finite_inputs.S384x384 .f32) (x10 x11 x12 x13 x14 : FVec Idealize.ShloMosaic.Ideal Cert.Pre_finite_inputs.S384 .f32)
    (h : Cert.Pre_finite_inputs.fn (F := Idealize.ShloMosaic.Ideal) x0 x1 x2 x3 x4 x5 x6 x7 x8 x9 x10 x11 x12 x13 x14 = fun _ => 1#1) :
    resultR x0 x1 x2 x3 x4 x5 x6 x7 x8 x9 x10 x11 x12 x13 x14 = resultK x0 x1 x2 x3 x4 x5 x6 x7 x8 x9 x10 x11 x12 x13 x14 := by
  funext i
  obtain ⟨b, hh, w, f, rfl⟩ : ∃ (b : Fin 64) (hh w : Fin 32) (f : Fin 384), i = ix4 b hh w f := ⟨i 0, i 1, i 2, i 3, eq_ix4 i⟩
  rw [resultR_ix4, resultK_ix4]
  exact (outK_eq_outR _ _ (admissible_of_pre x0 x1 x2 x3 x4 x5 x6 x7 x8 x9 x10 x11 x12 x13 x14 h b) _ _).symm

/-- From memories that agree on the arguments both programs end with the same result array: the kernel's is the
    first writing of the layer on the batch, the reference's the second, and the precondition makes them one. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Shsa.KBlocks.G m c, Cert.Shsa.KBlocks.run m ρ, ?_⟩
  refine (θ_run Cert.ReferenceIdeal.defs _ _).mono (fun _ h c => ⟨(h c).1.trans ?_, (h c).2⟩)
    (Cert.ReferenceIdeal.ValueP.run (F := Idealize.ShloMosaic.Ideal) m' ρ')
  rw [Cert.Shsa.RefAfter.after_v83]
  obtain ⟨e0, e1, e2, e3, e4, e5, e6, e7, e8, e9, e10, e11, e12, e13, e14⟩ := hagree c
  show Cert.ReferenceIdeal.ReadP.val_main_v83 (F := Idealize.ShloMosaic.Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
  rw [e0, e1, e2, e3, e4, e5, e6, e7, e8, e9, e10, e11, e12, e13, e14, Cert.Shsa.RefValue.ref_result]
  exact @results_agree Cert.Pre_finite_inputs.Gen.facts _ _ _ _ _ _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
